-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : IVec S8192 32) (main_arg8 : IVec S8192 32) (main_v33 : IVec S_ 1) : IVec S_ 1 :=
  let main_c_12 : IVec S_ 32 := constantI S_ 32 0#32
  let main_v34 : IVec S8192 32 := broadcastInDim S8192 ![] bcast_S_S8192 main_c_12
  let main_v35 : IVec S8192 1 := cmpi .sge main_arg7 main_v34
  let main_c_13 : IVec S_ 32 := constantI S_ 32 8192#32
  let main_v36 : IVec S8192 32 := broadcastInDim S8192 ![] bcast_S_S8192 main_c_13
  let main_v37 : IVec S8192 1 := cmpi .slt main_arg7 main_v36
  let main_v38 : IVec S8192 1 := andi main_v35 main_v37
  let main_c_14 : IVec S_ 1 := constantI S_ 1 1#1
  let main_v39 : IVec S_ 1 := (fun x v => Host.reduce IntOp.andi x v reducesTo_S8192_S_d0 h_S_) main_v38 main_c_14
  let main_v40 : IVec S_ 1 := andi main_v33 main_v39
  let main_c_15 : IVec S_ 32 := constantI S_ 32 0#32
  let main_v41 : IVec S8192 32 := broadcastInDim S8192 ![] bcast_S_S8192 main_c_15
  let main_v42 : IVec S8192 1 := cmpi .sge main_arg8 main_v41
  let main_c_16 : IVec S_ 32 := constantI S_ 32 8192#32
  let main_v43 : IVec S8192 32 := broadcastInDim S8192 ![] bcast_S_S8192 main_c_16
  let main_v44 : IVec S8192 1 := cmpi .slt main_arg8 main_v43
  let main_v45 : IVec S8192 1 := andi main_v42 main_v44
  let main_c_17 : IVec S_ 1 := constantI S_ 1 1#1
  let main_v46 : IVec S_ 1 := (fun x v => Host.reduce IntOp.andi x v reducesTo_S8192_S_d0 h_S_) main_v45 main_c_17
  let main_v47 : IVec S_ 1 := andi main_v40 main_v46
  main_v47

def fn_part1 {F : FTy → Type} [FloatOps F] (main_arg4 : FVec F S8192x128 .f32) (main_arg5 : FVec F S64x128 .f32) (main_arg6 : FVec F S64 .f32) (main_arg7 : IVec S8192 32) (main_arg8 : IVec S8192 32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S8192x128 .f32 := Host.absf main_arg4
  let main_cst_6 : FVec F S_ .f32 := constant S_ .f32 0x7F800000#32
  let main_v20 : FVec F S8192x128 .f32 := broadcastInDim S8192x128 ![] bcast_S_S8192x128 main_cst_6
  let main_v21 : IVec S8192x128 1 := cmpf .olt main_v19 main_v20
  let main_c_7 : IVec S_ 1 := constantI S_ 1 1#1
  let main_v22 : IVec S_ 1 := (fun x v => Host.reduce IntOp.andi x v reducesTo_S8192x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8192 .f32) (main_arg1 : FVec F S8192x128 .f32) (main_arg2 : FVec F S8192x128 .f32) (main_arg3 : FVec F S8192x128 .f32) (main_arg4 : FVec F S8192x128 .f32) (main_arg5 : FVec F S64x128 .f32) (main_arg6 : FVec F S64 .f32) (main_arg7 : IVec S8192 32) (main_arg8 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg4 main_arg5 main_arg6 main_arg7 main_arg8 main_v13 main_v16
-- ==== Kernel.lean ====
abbrev S8192 : Shape := ⟨1, ![8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S1x64 : Shape := ⟨2, ![1, 64]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x64 : Shape := ⟨2, ![8192, 64]⟩
abbrev S1024x128 : Shape := ⟨2, ![1024, 128]⟩
abbrev S1024x64 : Shape := ⟨2, ![1024, 64]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 83
  | .vmem => 35
  | .smem => 0
  | _ => 0

abbrev bufTy : (tb : Table) → Fin (tcTables nBuf tb) → BufTy
  | .hbm, ⟨0, _⟩ => ⟨S8192, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S64x128, .f32⟩
  | .hbm, ⟨6, _⟩ => ⟨S64, .f32⟩
  | .hbm, ⟨7, _⟩ => ⟨S8192, .i32⟩
  | .hbm, ⟨8, _⟩ => ⟨S8192, .i32⟩
  | .hbm, ⟨9, _⟩ => ⟨S128x64, .f32⟩
  | .hbm, ⟨10, _⟩ => ⟨S1x64, .f32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S1x1, .i32⟩
  | .hbm, ⟨24, _⟩ => ⟨S8192x1, .i32⟩
  | .hbm, ⟨25, _⟩ => ⟨S8192x1, .i1⟩
  | .hbm, ⟨26, _⟩ => ⟨S8192x1, .i1⟩
  | .hbm, ⟨27, _⟩ => ⟨S_, .i1⟩
  | .hbm, ⟨28, _⟩ => ⟨S8192, .i1⟩
  | .hbm, ⟨29, _⟩ => ⟨S8192x128, .f32⟩
  | .hbm, ⟨30, _⟩ => ⟨S8192x128, .i1⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S1, .i32⟩
  | .hbm, ⟨43, _⟩ => ⟨S_, .i32⟩
  | .hbm, ⟨44, _⟩ => ⟨S8192x1, .i32⟩
  | .hbm, ⟨45, _⟩ => ⟨S8192x1, .i1⟩
  | .hbm, ⟨46, _⟩ => ⟨S1x1, .i32⟩
  | .hbm, ⟨47, _⟩ => ⟨S8192x1, .i32⟩
  | .hbm, ⟨48, _⟩ => ⟨S8192x1, .i1⟩
  | .hbm, ⟨49, _⟩ => ⟨S8192x1, .i1⟩
  | .hbm, ⟨50, _⟩ => ⟨S_, .i1⟩
  | .hbm, ⟨51, _⟩ => ⟨S8192, .i1⟩
  | .hbm, ⟨52, _⟩ => ⟨S8192x128, .f32⟩
  | .hbm, ⟨53, _⟩ => ⟨S8192x128, .i1⟩
  | .hbm, ⟨54, _⟩ => ⟨S_, .f32⟩
  | .hbm, ⟨55, _⟩ => ⟨S8192x128, .f32⟩
  | .hbm, ⟨56, _⟩ => ⟨S8192x128, .f32⟩
  | .hbm, ⟨57, _⟩ => ⟨S8192x64, .f32⟩
  | .hbm, ⟨58, _⟩ => ⟨S8192x1, .f32⟩
  | .hbm, ⟨59, _⟩ => ⟨S8192x64, .f32⟩
  | .hbm, ⟨60, _⟩ => ⟨S8192x1, .f32⟩
  | .hbm, ⟨61, _⟩ => ⟨S8192x64, .f32⟩
  | .hbm, ⟨62, _⟩ => ⟨S8192x1, .f32⟩
  | .hbm, ⟨63, _⟩ => ⟨S1x1, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x64, .f32⟩
  | .hbm, ⟨68, _⟩ => ⟨S8192x64, .f32⟩
  | .hbm, ⟨69, _⟩ => ⟨S_, .f32⟩
  | .hbm, ⟨70, _⟩ => ⟨S8192x64, .f32⟩
  | .hbm, ⟨71, _⟩ => ⟨S8192x64, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S128x64, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x64, .f32⟩
  | .local _ .vmem, ⟨15, _⟩ => ⟨S1x64, .f32⟩
  | .local _ .vmem, ⟨16, _⟩ => ⟨S1024x64, .f32⟩
  | .local _ .vmem, ⟨17, _⟩ => ⟨S1024x64, .f32⟩
  | .local _ .vmem, ⟨18, _⟩ => ⟨S1024x1, .f32⟩
  | .local _ .vmem, ⟨19, _⟩ => ⟨S1024x1, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S128x64, .f32⟩
  | .local _ .vmem, ⟨25, _⟩ => ⟨S1x64, .f32⟩
  | .local _ .vmem, ⟨26, _⟩ => ⟨S1024x64, .f32⟩
  | .local _ .vmem, ⟨27, _⟩ => ⟨S1024x64, .f32⟩
  | .local _ .vmem, ⟨28, _⟩ => ⟨S1024x1, .f32⟩
  | .local _ .vmem, ⟨29, _⟩ => ⟨S1024x1, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v3 : Ref sig .tc := ⟨.hbm, 56, rfl⟩
abbrev main_v4_0 : Ref sig .tc := ⟨.hbm, 57, rfl⟩
abbrev main_v4_1 : Ref sig .tc := ⟨.hbm, 58, rfl⟩
abbrev main_v5_0 : Ref sig .tc := ⟨.hbm, 59, rfl⟩
abbrev main_v5_1 : Ref sig .tc := ⟨.hbm, 60, rfl⟩
abbrev main_v6_0 : Ref sig .tc := ⟨.hbm, 61, rfl⟩
abbrev main_v6_1 : Ref sig .tc := ⟨.hbm, 62, rfl⟩
abbrev main_v7 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_cst_1 : Ref sig .tc := ⟨.hbm, 72, rfl⟩
abbrev main_v14 : Ref sig .tc := ⟨.hbm, 73, rfl⟩
abbrev main_cst_2 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

class Facts₀ : Prop where
  transposes_S64x128_S128x64_1_0 : S64x128.Transposes [1, 0] S128x64
  shapeCasts_S64_S1x64 : S64.ShapeCasts S1x64
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x128_0 : S8192.BroadcastsInDim S8192x128 (![0] : Fin 1 → Fin S8192x128.rank)
  bcast_S_S8192x128 : S_.BroadcastsInDim S8192x128 (![] : Fin 0 → Fin S8192x128.rank)
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  inb_S1024x1_S1024x1_0_0 : ∀ a, (![0, 0] : Fin 2 → Nat) a + S1024x1.size a ≤ S1024x1.size a
  h_S1024x1 : 0 < S1024x1.numel
  shapeCasts_S1024x128_S1024x128 : S1024x128.ShapeCasts S1024x128
  inb_S1x1_S1x1_0_0 : ∀ a, (![0, 0] : Fin 2 → Nat) a + S1x1.size a ≤ S1x1.size a
  h_S1x1 : 0 < S1x1.numel
  shapeCasts_S1024x64_S1024x64 : S1024x64.ShapeCasts S1024x64
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  bcast_S_S8192x64 : S_.BroadcastsInDim S8192x64 (![] : Fin 0 → Fin S8192x64.rank)
  reducesTo_S8192x64_S8192_d1 : S8192x64.ReducesTo [1] S8192
  gather_S8192x128_S8192x1_S8192x128_1_0_n_n_0_1_1128_wf : GatherDims.WF S8192x128 S8192x1 S8192x128 [1] [0] [] [0] [] 1 ![1, 128]
  dot_S1024x128_S128x64_S1024x64_1_0_0_1_n_n_wf : DotDims.WF S1024x128 S128x64 S1024x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x64.size a ≤ S8192x64.size a
  hwx2_4 : ∀ i : grid2.Coords, EltTy.bits .f32 = 32 ∨ (Rect.block (s := S8192x64) S1024x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S8192x1.size a
  hwx2_5 : ∀ i : grid2.Coords, EltTy.bits .f32 = 32 ∨ (Rect.block (s := S8192x1) S1024x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S8192x64.size a
  hwx3_0 : ∀ i : grid3.Coords, EltTy.bits .f32 = 32 ∨ (Rect.block (s := S8192x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)

variable [Facts₀]

def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg4) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S1024x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v3) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6_0) S1024x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6_1) S1024x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v4_0) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4_0) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x1.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192 : Shape := ⟨1, ![8192]⟩
abbrev S8192x128 : Shape := ⟨2, ![8192, 128]⟩
abbrev S64x128 : Shape := ⟨2, ![64, 128]⟩
abbrev S64 : Shape := ⟨1, ![64]⟩
abbrev S_ : Shape := ⟨0, ![]⟩
abbrev S8192x1 : Shape := ⟨2, ![8192, 1]⟩
abbrev S128x64 : Shape := ⟨2, ![128, 64]⟩
abbrev S8192x64 : Shape := ⟨2, ![8192, 64]⟩
abbrev S1x64 : Shape := ⟨2, ![1, 64]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 157
  | .vmem => 0
  | .smem => 0
  | _ => 0

abbrev hbmTy0_0 (i : Nat) : BufTy := match i % 128 with
  | 0 => ⟨S8192, .f32⟩
  | 1 => ⟨S8192x128, .f32⟩
  | 2 => ⟨S8192x128, .f32⟩
  | 3 => ⟨S8192x128, .f32⟩
  | 4 => ⟨S8192x128, .f32⟩
  | 5 => ⟨S64x128, .f32⟩
  | 6 => ⟨S64, .f32⟩
  | 7 => ⟨S8192, .i32⟩
  | 8 => ⟨S8192, .i32⟩
  | 9 => ⟨S_, .f32⟩
  | 10 => ⟨S8192x128, .f32⟩
  | 11 => ⟨S8192x128, .f32⟩
  | 12 => ⟨S8192x128, .f32⟩
  | 13 => ⟨S8192x128, .f32⟩
  | 14 => ⟨S_, .f32⟩
  | 15 => ⟨S8192x128, .f32⟩
  | 16 => ⟨S8192x128, .f32⟩
  | 17 => ⟨S8192x128, .f32⟩
  | 18 => ⟨S8192x128, .f32⟩
  | 19 => ⟨S8192x128, .f32⟩
  | 20 => ⟨S_, .f32⟩
  | 21 => ⟨S8192, .f32⟩
  | 22 => ⟨S_, .f32⟩
  | 23 => ⟨S8192, .f32⟩
  | 24 => ⟨S8192, .f32⟩
  | 25 => ⟨S8192x1, .f32⟩
  | 26 => ⟨S8192x128, .f32⟩
  | 27 => ⟨S8192x128, .f32⟩
  | 28 => ⟨S8192x128, .f32⟩
  | 29 => ⟨S_, .f32⟩
  | 30 => ⟨S8192, .f32⟩
  | 31 => ⟨S8192x1, .f32⟩
  | 32 => ⟨S8192x128, .f32⟩
  | 33 => ⟨S8192x128, .f32⟩
  | 34 => ⟨S128x64, .f32⟩
  | 35 => ⟨S8192x64, .f32⟩
  | 36 => ⟨S1x64, .f32⟩
  | 37 => ⟨S8192x64, .f32⟩
  | 38 => ⟨S8192x64, .f32⟩
  | 39 => ⟨S8192x64, .f32⟩
  | 40 => ⟨S_, .f32⟩
  | 41 => ⟨S8192, .f32⟩
  | 42 => ⟨S8192x1, .f32⟩
  | 43 => ⟨S1x8192, .f32⟩
  | 44 => ⟨S8192x8192, .f32⟩
  | 45 => ⟨S8192x8192, .f32⟩
  | 46 => ⟨S8192x8192, .f32⟩
  | 47 => ⟨S64x8192, .f32⟩
  | 48 => ⟨S8192x8192, .f32⟩
  | 49 => ⟨S_, .f32⟩
  | 50 => ⟨S8192x8192, .f32⟩
  | 51 => ⟨S8192x8192, .f32⟩
  | 52 => ⟨S8192x8192, .f32⟩
  | 53 => ⟨S_, .f32⟩
  | 54 => ⟨S8192x8192, .f32⟩
  | 55 => ⟨S8192x8192, .f32⟩
  | 56 => ⟨S_, .f32⟩
  | 57 => ⟨S8192x8192, .f32⟩
  | 58 => ⟨S8192x8192, .f32⟩
  | 59 => ⟨S_, .f32⟩
  | 60 => ⟨S_, .f32⟩
  | 61 => ⟨S_, .f32⟩
  | 62 => ⟨S_, .f32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x128, .f32⟩
  | 72 => ⟨S_, .f32⟩
  | 73 => ⟨S8192x128, .f32⟩
  | 74 => ⟨S8192x128, .f32⟩
  | 75 => ⟨S8192x128, .f32⟩
  | 76 => ⟨S8192x128, .f32⟩
  | 77 => ⟨S_, .f32⟩
  | 78 => ⟨S8192x128, .f32⟩
  | 79 => ⟨S8192x128, .f32⟩
  | 80 => ⟨S8192x128, .f32⟩
  | 81 => ⟨S8192x128, .f32⟩
  | 82 => ⟨S8192x128, .f32⟩
  | 83 => ⟨S_, .f32⟩
  | 84 => ⟨S8192, .f32⟩
  | 85 => ⟨S_, .f32⟩
  | 86 => ⟨S8192, .f32⟩
  | 87 => ⟨S8192, .f32⟩
  | 88 => ⟨S8192x1, .f32⟩
  | 89 => ⟨S8192x128, .f32⟩
  | 90 => ⟨S8192x128, .f32⟩
  | 91 => ⟨S8192x128, .f32⟩
  | 92 => ⟨S_, .f32⟩
  | 93 => ⟨S8192, .f32⟩
  | 94 => ⟨S8192x1, .f32⟩
  | 95 => ⟨S8192x128, .f32⟩
  | 96 => ⟨S8192x128, .f32⟩
  | 97 => ⟨S128x64, .f32⟩
  | 98 => ⟨S8192x64, .f32⟩
  | 99 => ⟨S1x64, .f32⟩
  | 100 => ⟨S8192x64, .f32⟩
  | 101 => ⟨S8192x64, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x128, .f32⟩
  | 111 => ⟨S_, .f32⟩
  | 112 => ⟨S8192x128, .f32⟩
  | 113 => ⟨S8192x128, .f32⟩
  | 114 => ⟨S8192x128, .f32⟩
  | 115 => ⟨S8192x128, .f32⟩
  | 116 => ⟨S_, .f32⟩
  | 117 => ⟨S8192x128, .f32⟩
  | 118 => ⟨S8192x128, .f32⟩
  | 119 => ⟨S8192x128, .f32⟩
  | 120 => ⟨S8192x128, .f32⟩
  | 121 => ⟨S8192x128, .f32⟩
  | 122 => ⟨S_, .f32⟩
  | 123 => ⟨S8192, .f32⟩
  | 124 => ⟨S_, .f32⟩
  | 125 => ⟨S8192, .f32⟩
  | 126 => ⟨S8192, .f32⟩
  | 127 => ⟨S8192x1, .f32⟩
  | _ => ⟨S8192, .f32⟩

abbrev hbmTy0_1 (i : Nat) : BufTy := match i % 128 with
  | 0 => ⟨S8192x128, .f32⟩
  | 1 => ⟨S8192x128, .f32⟩
  | 2 => ⟨S8192x128, .f32⟩
  | 3 => ⟨S_, .f32⟩
  | 4 => ⟨S8192, .f32⟩
  | 5 => ⟨S8192x1, .f32⟩
  | 6 => ⟨S8192x128, .f32⟩
  | 7 => ⟨S8192x128, .f32⟩
  | 8 => ⟨S128x64, .f32⟩
  | 9 => ⟨S8192x64, .f32⟩
  | 10 => ⟨S1x64, .f32⟩
  | 11 => ⟨S8192x64, .f32⟩
  | 12 => ⟨S8192x64, .f32⟩
  | 13 => ⟨S8192x64, .f32⟩
  | 14 => ⟨S8192x64, .f32⟩
  | 15 => ⟨S_, .f32⟩
  | 16 => ⟨S8192x64, .f32⟩
  | 17 => ⟨S8192x64, .f32⟩
  | 18 => ⟨S_, .f32⟩
  | 19 => ⟨S8192, .f32⟩
  | 20 => ⟨S_, .f32⟩
  | 21 => ⟨S8192, .f32⟩
  | 22 => ⟨S8192, .f32⟩
  | 23 => ⟨S8192, .f32⟩
  | 24 => ⟨S8192, .f32⟩
  | 25 => ⟨S8192, .f32⟩
  | 26 => ⟨S8192, .f32⟩
  | 27 => ⟨S8192, .f32⟩
  | 28 => ⟨S8192, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_c : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_16 : Ref sig .tc := ⟨.hbm, 102, rfl⟩
abbrev main_v75 : Ref sig .tc := ⟨.hbm, 103, rfl⟩
abbrev main_v76 : Ref sig .tc := ⟨.hbm, 104, rfl⟩
abbrev main_c_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_20 : Ref sig .tc := ⟨.hbm, 122, rfl⟩
abbrev main_v91 : Ref sig .tc := ⟨.hbm, 123, rfl⟩
abbrev main_cst_21 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_22 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_23 : Ref sig .tc := ⟨.hbm, 143, rfl⟩
abbrev main_v109 : Ref sig .tc := ⟨.hbm, 144, rfl⟩
abbrev main_v110 : Ref sig .tc := ⟨.hbm, 145, rfl⟩
abbrev main_cst_24 : Ref sig .tc := ⟨.hbm, 146, rfl⟩
abbrev main_v111 : Ref sig .tc := ⟨.hbm, 147, rfl⟩
abbrev main_cst_25 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  reducesTo_S8192x128_S8192_d1 : S8192x128.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  bcast_S_S8192x64 : S_.BroadcastsInDim S8192x64 (![] : Fin 0 → Fin S8192x64.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  gather_S8192x128_S8192x1_S8192x128_1_0_n_n_0_1_1128_wf : GatherDims.WF S8192x128 S8192x1 S8192x128 [1] [0] [] [0] [] 1 ![1, 128]

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf

class Facts : Prop extends Facts₀ where

variable [Facts]
-- ==== Proof.K.Topic0.lean ====
import proofs.«401426_j8332236554543_1_alg».proof.Proof.Gen.Kernel.Launch
import proofs.«401426_j8332236554543_1_alg».proof.Proof.Gen.Kernel.Skeleton
import proofs.«401426_j8332236554543_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of rows at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the topic kernel leaves at point `t`: every input's staging buffer at its block; the embedding block
    `softmax(logits + gumbel(noise)) · W + b` of the point's 1024 rows; and those rows' squared norms. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay1 (blk0 V c 1 t) (blk0 V c 0 t) (blk0 V c 2 t) (blk0 V c 3 t)
    | ⟨5, _⟩ => k0_pay2 (blk0 V c 1 t) (blk0 V c 0 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = k0_pay1 (blk0 V c 1 t) (blk0 V c 0 t) (blk0 V c 2 t) (blk0 V c 3 t) := by dsimp only [dat0]
theorem after0_5 (c : Dev nD) (t : Fin cfg0.N) :
    (dat0 V c).after 5 t = k0_pay2 (blk0 V c 1 t) (blk0 V c 0 t) (blk0 V c 2 t) (blk0 V c 3 t) := by dsimp only [dat0]

/-! ## The inputs: left in place, and found at their blocks -/

/-- The body leaves each input's staging buffer as it found it: at the window's block. -/
theorem keep0_0 (c : Dev nD) (t : Fin cfg0.N) : (dat0 V c).after 0 t = blk0 V c 0 t := by dsimp only [dat0]
theorem keep0_1 (c : Dev nD) (t : Fin cfg0.N) : (dat0 V c).after 1 t = blk0 V c 1 t := by dsimp only [dat0]
theorem keep0_2 (c : Dev nD) (t : Fin cfg0.N) : (dat0 V c).after 2 t = blk0 V c 2 t := by dsimp only [dat0]
theorem keep0_3 (c : Dev nD) (t : Fin cfg0.N) : (dat0 V c).after 3 t = blk0 V c 3 t := by dsimp only [dat0]

/-- The logits block is fetched at every point, so the body finds it in the window's staging buffer. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [keep0_0]; unfold Dat.blockOf blk0; rw [A_eq0]; try rfl) t d).trans
    (by unfold Dat.fetched Dat.blockOf blk0; rw [A_eq0]; try rfl)

/-- So is the noise block. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [keep0_1]; unfold Dat.blockOf blk0; rw [A_eq0]; try rfl) t d).trans
    (by unfold Dat.fetched Dat.blockOf blk0; rw [A_eq0]; try rfl)

/-- The weight matrix is one block, fetched at the first point only: its block index never moves, the body leaves
    the buffer in place, so every later point still finds the matrix there. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [keep0_2]; unfold Dat.blockOf blk0; rw [A_eq0]; try rfl) t d).trans
    (by unfold Dat.fetched Dat.blockOf blk0; rw [A_eq0]; try rfl)

/-- The same of the bias row. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [keep0_3]; unfold Dat.blockOf blk0; rw [A_eq0]; try rfl) t d).trans
    (by unfold Dat.fetched Dat.blockOf blk0; rw [A_eq0]; try rfl)

/-! ## The body's triple -/

/-- The offsets of a whole-buffer access are all zero. -/
theorem zeros0 : (![0, 0] : Fin 2 → ℕ) = fun _ => 0 := by
  funext a
  match a with
  | ⟨0, _⟩ => rfl
  | ⟨1, _⟩ => rfl

/-- The one store of the embedding block is of the whole buffer, so it covers it. -/
theorem cover0_4 (p : Vec F S1024x64 .f32) (y : S1024x64.Idx) :
    ∃ pc ∈ ([⟨Rect.unit (s := S1024x64) ![0, 0] S1024x64.size inb_S1024x64_S1024x64_0_0, p⟩] : List (View.Piece (Elt F) S1024x64 .f32)), y ∈ pc.1.set :=
  ⟨_, List.mem_singleton_self _, View.mem_set_unit_zero (S := S1024x64) zeros0 inb_S1024x64_S1024x64_0_0 y⟩

/-- So does the one store of the squared norms. -/
theorem cover0_5 (p : Vec F S1024x1 .f32) (y : S1024x1.Idx) :
    ∃ pc ∈ ([⟨Rect.unit (s := S1024x1) ![0, 0] S1024x1.size inb_S1024x1_S1024x1_0_0, p⟩] : List (View.Piece (Elt F) S1024x1 .f32)), y ∈ pc.1.set :=
  ⟨_, List.mem_singleton_self _, View.mem_set_unit_zero (S := S1024x1) zeros0 inb_S1024x1_S1024x1_0_0 y⟩

/-- A load of a whole buffer (the whole-shape rectangle at zero offsets) reads the buffer's contents. -/
theorem readAt_whole0 {sp : Space} {S : Shape} {e : EltTy} (v : View sig .tc sp S e) {off : Fin S.rank → ℕ}
    (h : off = fun _ => 0) (inb : ∀ a, off a + S.size a ≤ S.size a) (f : BufTy.Contents (Elt F) v.ty) :
    View.readAt (Elt F) v (Rect.unit (s := S) off S.size inb).toLoadRect f = View.read (Elt F) v f :=
  View.ld_unit_zero (S := S) h inb (View.read (Elt F) v f)

set_option maxHeartbeats 1000000 in
/-- The kernel body on whole buffers: with the logits `x0`, the noise `x1`, the weights `x2` and the bias `x3` in
    its four inputs and anything in its two outputs, it runs to the continuation with the inputs as they were, the
    embedding block of the four in the fifth buffer and its rows' squared norms in the sixth. It loads the four
    inputs whole (the noise first), then loads and overwrites each output whole: what a whole-buffer load reads is
    the contents, and what one whole-buffer store leaves is its payload. -/
theorem sound_kernel0 (c : Dev nD) (E : Set ℕ) (i : grid0.Coords)
    (arg1 : Memref sig .tc .vmem S1024x128 .f32) (harg1 : arg1.IsWhole)
    (arg2 : Memref sig .tc .vmem S1024x128 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S1024x64 .f32) (harg5 : arg5.IsWhole)
    (arg6 : Memref sig .tc .vmem S1024x1 .f32) (harg6 : arg6.IsWhole)
    (x0 : Vec F S1024x128 .f32) (x1 : Vec F S1024x128 .f32) (x2 : Vec F S128x64 .f32) (x3 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x1 x0 x2 x3)
            ∗ owns (c : Thread nD τ) arg6 fullShare (k0_pay2 x1 x0 x2 x3)) -∗ K ⟨⟩))
      ⊢ wp frame (wpE (defs₀ (F := F)) Variants.none c none) E
          (cc0__topic_kernel i arg1 harg1 arg2 harg2 arg3 harg3 arg4 harg4 arg5 harg5 arg6 harg6) K := by
  simp only [cc0__topic_kernel_eq_skeleton]; unfold cc0__topic_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover0_4 _),
      View.canon_unit_zero (S := S1024x64) zeros0 inb_S1024x64_S1024x64_0_0]
    rw [readAt_whole0 _ zeros0, readAt_whole0 _ zeros0, readAt_whole0 _ zeros0, readAt_whole0 _ zeros0]
  · iexists _; isplitr
    swap; · iexact H5
    ipureintro
    rw [View.read_writes_eq_canon _ _ _ (cover0_5 _),
      View.canon_unit_zero (S := S1024x1) zeros0 inb_S1024x1_S1024x1_0_0]
    rw [readAt_whole0 _ zeros0, readAt_whole0 _ zeros0, readAt_whole0 _ zeros0, readAt_whole0 _ zeros0]

/-! ## The body obligation, at a generic point -/

/-- What the body is called with at point `t`: the invariant, the core's debts, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the four inputs' buffers hold their blocks, so the kernel's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    keep0_0, keep0_1, keep0_2, keep0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The kernel body meets the pipeline's obligation at every grid point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.K.Topic1.lean ====
import proofs.«401426_j8332236554543_1_alg».proof.Proof.Gen.Kernel.Launch
import proofs.«401426_j8332236554543_1_alg».proof.Proof.Gen.Kernel.Skeleton
import proofs.«401426_j8332236554543_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of rows at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the topic kernel leaves at point `t`: every input's staging buffer at its block; the embedding block
    `softmax(logits + gumbel(noise)) · W + b` of the point's 1024 rows; and those rows' squared norms. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => k1_pay1 (blk1 V c 1 t) (blk1 V c 0 t) (blk1 V c 2 t) (blk1 V c 3 t)
    | ⟨5, _⟩ => k1_pay2 (blk1 V c 1 t) (blk1 V c 0 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = k1_pay1 (blk1 V c 1 t) (blk1 V c 0 t) (blk1 V c 2 t) (blk1 V c 3 t) := by dsimp only [dat1]
theorem after1_5 (c : Dev nD) (t : Fin cfg1.N) :
    (dat1 V c).after 5 t = k1_pay2 (blk1 V c 1 t) (blk1 V c 0 t) (blk1 V c 2 t) (blk1 V c 3 t) := by dsimp only [dat1]

/-! ## The inputs: left in place, and found at their blocks -/

/-- The body leaves each input's staging buffer as it found it: at the window's block. -/
theorem keep1_0 (c : Dev nD) (t : Fin cfg1.N) : (dat1 V c).after 0 t = blk1 V c 0 t := by dsimp only [dat1]
theorem keep1_1 (c : Dev nD) (t : Fin cfg1.N) : (dat1 V c).after 1 t = blk1 V c 1 t := by dsimp only [dat1]
theorem keep1_2 (c : Dev nD) (t : Fin cfg1.N) : (dat1 V c).after 2 t = blk1 V c 2 t := by dsimp only [dat1]
theorem keep1_3 (c : Dev nD) (t : Fin cfg1.N) : (dat1 V c).after 3 t = blk1 V c 3 t := by dsimp only [dat1]

/-- The logits block is fetched at every point, so the body finds it in the window's staging buffer. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [keep1_0]; unfold Dat.blockOf blk1; rw [A_eq1]; try rfl) t d).trans
    (by unfold Dat.fetched Dat.blockOf blk1; rw [A_eq1]; try rfl)

/-- So is the noise block. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [keep1_1]; unfold Dat.blockOf blk1; rw [A_eq1]; try rfl) t d).trans
    (by unfold Dat.fetched Dat.blockOf blk1; rw [A_eq1]; try rfl)

/-- The weight matrix is one block, fetched at the first point only: its block index never moves, the body leaves
    the buffer in place, so every later point still finds the matrix there. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [keep1_2]; unfold Dat.blockOf blk1; rw [A_eq1]; try rfl) t d).trans
    (by unfold Dat.fetched Dat.blockOf blk1; rw [A_eq1]; try rfl)

/-- The same of the bias row. -/
theorem before1_3 (c : Dev nD) (t : Fin cfg1.N) (d) : (dat1 V c).before 3 t d = blk1 V c 3 t :=
  ((dat1 V c).before_in_eq_fetched 3 rfl (fun _ => rfl) (fun _ _ _ => rfl)
    (fun t => by rw [keep1_3]; unfold Dat.blockOf blk1; rw [A_eq1]; try rfl) t d).trans
    (by unfold Dat.fetched Dat.blockOf blk1; rw [A_eq1]; try rfl)

/-! ## The body's triple -/

/-- The offsets of a whole-buffer access are all zero. -/
theorem zeros1 : (![0, 0] : Fin 2 → ℕ) = fun _ => 0 := by
  funext a
  match a with
  | ⟨0, _⟩ => rfl
  | ⟨1, _⟩ => rfl

/-- The one store of the embedding block is of the whole buffer, so it covers it. -/
theorem cover1_4 (p : Vec F S1024x64 .f32) (y : S1024x64.Idx) :
    ∃ pc ∈ ([⟨Rect.unit (s := S1024x64) ![0, 0] S1024x64.size inb_S1024x64_S1024x64_0_0, p⟩] : List (View.Piece (Elt F) S1024x64 .f32)), y ∈ pc.1.set :=
  ⟨_, List.mem_singleton_self _, View.mem_set_unit_zero (S := S1024x64) zeros1 inb_S1024x64_S1024x64_0_0 y⟩

/-- So does the one store of the squared norms. -/
theorem cover1_5 (p : Vec F S1024x1 .f32) (y : S1024x1.Idx) :
    ∃ pc ∈ ([⟨Rect.unit (s := S1024x1) ![0, 0] S1024x1.size inb_S1024x1_S1024x1_0_0, p⟩] : List (View.Piece (Elt F) S1024x1 .f32)), y ∈ pc.1.set :=
  ⟨_, List.mem_singleton_self _, View.mem_set_unit_zero (S := S1024x1) zeros1 inb_S1024x1_S1024x1_0_0 y⟩

/-- A load of a whole buffer (the whole-shape rectangle at zero offsets) reads the buffer's contents. -/
theorem readAt_whole1 {sp : Space} {S : Shape} {e : EltTy} (v : View sig .tc sp S e) {off : Fin S.rank → ℕ}
    (h : off = fun _ => 0) (inb : ∀ a, off a + S.size a ≤ S.size a) (f : BufTy.Contents (Elt F) v.ty) :
    View.readAt (Elt F) v (Rect.unit (s := S) off S.size inb).toLoadRect f = View.read (Elt F) v f :=
  View.ld_unit_zero (S := S) h inb (View.read (Elt F) v f)

set_option maxHeartbeats 1000000 in
/-- The kernel body on whole buffers: with the logits `x0`, the noise `x1`, the weights `x2` and the bias `x3` in
    its four inputs and anything in its two outputs, it runs to the continuation with the inputs as they were, the
    embedding block of the four in the fifth buffer and its rows' squared norms in the sixth. It loads the four
    inputs whole (the noise first), then loads and overwrites each output whole: what a whole-buffer load reads is
    the contents, and what one whole-buffer store leaves is its payload. The function's statements are one part,
    called once, which the run goes through where it meets the call. -/
theorem sound_kernel1 (c : Dev nD) (E : Set ℕ) (i : grid1.Coords)
    (arg1 : Memref sig .tc .vmem S1024x128 .f32) (harg1 : arg1.IsWhole)
    (arg2 : Memref sig .tc .vmem S1024x128 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S1024x64 .f32) (harg5 : arg5.IsWhole)
    (arg6 : Memref sig .tc .vmem S1024x1 .f32) (harg6 : arg6.IsWhole)
    (x0 : Vec F S1024x128 .f32) (x1 : Vec F S1024x128 .f32) (x2 : Vec F S128x64 .f32) (x3 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x1 x0 x2 x3)
            ∗ owns (c : Thread nD τ) arg6 fullShare (k1_pay2 x1 x0 x2 x3)) -∗ K ⟨⟩))
      ⊢ wp frame (wpE (defs₀ (F := F)) Variants.none c none) E
          (cc1__topic_kernel i arg1 harg1 arg2 harg2 arg3 harg3 arg4 harg4 arg5 harg5 arg6 harg6) K := by
  simp only [cc1__topic_kernel_eq_skeleton]; unfold cc1__topic_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1_4 _),
      View.canon_unit_zero (S := S1024x64) zeros1 inb_S1024x64_S1024x64_0_0]
    rw [readAt_whole1 _ zeros1, readAt_whole1 _ zeros1, readAt_whole1 _ zeros1, readAt_whole1 _ zeros1]
  · iexists _; isplitr
    swap; · iexact H5
    ipureintro
    rw [View.read_writes_eq_canon _ _ _ (cover1_5 _),
      View.canon_unit_zero (S := S1024x1) zeros1 inb_S1024x1_S1024x1_0_0]
    rw [readAt_whole1 _ zeros1, readAt_whole1 _ zeros1, readAt_whole1 _ zeros1, readAt_whole1 _ zeros1]

/-! ## The body obligation, at a generic point -/

/-- What the body is called with at point `t`: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the four inputs' buffers hold their blocks, so the kernel's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    keep1_0, keep1_1, keep1_2, keep1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The kernel body meets the pipeline's obligation at every grid point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.K.Topic2.lean ====
import proofs.«401426_j8332236554543_1_alg».proof.Proof.Gen.Kernel.Launch
import proofs.«401426_j8332236554543_1_alg».proof.Proof.Gen.Kernel.Skeleton
import proofs.«401426_j8332236554543_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of rows at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the topic kernel leaves at point `t`: every input's staging buffer at its block; the embedding block
    `softmax(logits + gumbel(noise)) · W + b` of the point's 1024 rows; and those rows' squared norms. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => k2_pay1 (blk2 V c 1 t) (blk2 V c 0 t) (blk2 V c 2 t) (blk2 V c 3 t)
    | ⟨5, _⟩ => k2_pay2 (blk2 V c 1 t) (blk2 V c 0 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = k2_pay1 (blk2 V c 1 t) (blk2 V c 0 t) (blk2 V c 2 t) (blk2 V c 3 t) := by dsimp only [dat2]
theorem after2_5 (c : Dev nD) (t : Fin cfg2.N) :
    (dat2 V c).after 5 t = k2_pay2 (blk2 V c 1 t) (blk2 V c 0 t) (blk2 V c 2 t) (blk2 V c 3 t) := by dsimp only [dat2]

/-! ## The inputs: left in place, and found at their blocks -/

/-- The body leaves each input's staging buffer as it found it: at the window's block. -/
theorem keep2_0 (c : Dev nD) (t : Fin cfg2.N) : (dat2 V c).after 0 t = blk2 V c 0 t := by dsimp only [dat2]
theorem keep2_1 (c : Dev nD) (t : Fin cfg2.N) : (dat2 V c).after 1 t = blk2 V c 1 t := by dsimp only [dat2]
theorem keep2_2 (c : Dev nD) (t : Fin cfg2.N) : (dat2 V c).after 2 t = blk2 V c 2 t := by dsimp only [dat2]
theorem keep2_3 (c : Dev nD) (t : Fin cfg2.N) : (dat2 V c).after 3 t = blk2 V c 3 t := by dsimp only [dat2]

/-- The logits block is fetched at every point, so the body finds it in the window's staging buffer. -/
theorem before2_0 (c : Dev nD) (t : Fin cfg2.N) (d) : (dat2 V c).before 0 t d = blk2 V c 0 t :=
  ((dat2 V c).before_in_eq_fetched 0 rfl (fun _ => rfl) (fun _ _ _ => rfl)
    (fun t => by rw [keep2_0]; unfold Dat.blockOf blk2; rw [A_eq2]; try rfl) t d).trans
    (by unfold Dat.fetched Dat.blockOf blk2; rw [A_eq2]; try rfl)

/-- So is the noise block. -/
theorem before2_1 (c : Dev nD) (t : Fin cfg2.N) (d) : (dat2 V c).before 1 t d = blk2 V c 1 t :=
  ((dat2 V c).before_in_eq_fetched 1 rfl (fun _ => rfl) (fun _ _ _ => rfl)
    (fun t => by rw [keep2_1]; unfold Dat.blockOf blk2; rw [A_eq2]; try rfl) t d).trans
    (by unfold Dat.fetched Dat.blockOf blk2; rw [A_eq2]; try rfl)

/-- The weight matrix is one block, fetched at the first point only: its block index never moves, the body leaves
    the buffer in place, so every later point still finds the matrix there. -/
theorem before2_2 (c : Dev nD) (t : Fin cfg2.N) (d) : (dat2 V c).before 2 t d = blk2 V c 2 t :=
  ((dat2 V c).before_in_eq_fetched 2 rfl (fun _ => rfl) (fun _ _ _ => rfl)
    (fun t => by rw [keep2_2]; unfold Dat.blockOf blk2; rw [A_eq2]; try rfl) t d).trans
    (by unfold Dat.fetched Dat.blockOf blk2; rw [A_eq2]; try rfl)

/-- The same of the bias row. -/
theorem before2_3 (c : Dev nD) (t : Fin cfg2.N) (d) : (dat2 V c).before 3 t d = blk2 V c 3 t :=
  ((dat2 V c).before_in_eq_fetched 3 rfl (fun _ => rfl) (fun _ _ _ => rfl)
    (fun t => by rw [keep2_3]; unfold Dat.blockOf blk2; rw [A_eq2]; try rfl) t d).trans
    (by unfold Dat.fetched Dat.blockOf blk2; rw [A_eq2]; try rfl)

/-! ## The body's triple -/

/-- The offsets of a whole-buffer access are all zero. -/
theorem zeros2 : (![0, 0] : Fin 2 → ℕ) = fun _ => 0 := by
  funext a
  match a with
  | ⟨0, _⟩ => rfl
  | ⟨1, _⟩ => rfl

/-- The one store of the embedding block is of the whole buffer, so it covers it. -/
theorem cover2_4 (p : Vec F S1024x64 .f32) (y : S1024x64.Idx) :
    ∃ pc ∈ ([⟨Rect.unit (s := S1024x64) ![0, 0] S1024x64.size inb_S1024x64_S1024x64_0_0, p⟩] : List (View.Piece (Elt F) S1024x64 .f32)), y ∈ pc.1.set :=
  ⟨_, List.mem_singleton_self _, View.mem_set_unit_zero (S := S1024x64) zeros2 inb_S1024x64_S1024x64_0_0 y⟩

/-- So does the one store of the squared norms. -/
theorem cover2_5 (p : Vec F S1024x1 .f32) (y : S1024x1.Idx) :
    ∃ pc ∈ ([⟨Rect.unit (s := S1024x1) ![0, 0] S1024x1.size inb_S1024x1_S1024x1_0_0, p⟩] : List (View.Piece (Elt F) S1024x1 .f32)), y ∈ pc.1.set :=
  ⟨_, List.mem_singleton_self _, View.mem_set_unit_zero (S := S1024x1) zeros2 inb_S1024x1_S1024x1_0_0 y⟩

/-- A load of a whole buffer (the whole-shape rectangle at zero offsets) reads the buffer's contents. -/
theorem readAt_whole2 {sp : Space} {S : Shape} {e : EltTy} (v : View sig .tc sp S e) {off : Fin S.rank → ℕ}
    (h : off = fun _ => 0) (inb : ∀ a, off a + S.size a ≤ S.size a) (f : BufTy.Contents (Elt F) v.ty) :
    View.readAt (Elt F) v (Rect.unit (s := S) off S.size inb).toLoadRect f = View.read (Elt F) v f :=
  View.ld_unit_zero (S := S) h inb (View.read (Elt F) v f)

set_option maxHeartbeats 1000000 in
/-- The kernel body on whole buffers: with the logits `x0`, the noise `x1`, the weights `x2` and the bias `x3` in
    its four inputs and anything in its two outputs, it runs to the continuation with the inputs as they were, the
    embedding block of the four in the fifth buffer and its rows' squared norms in the sixth. It loads the four
    inputs whole (the noise first), then loads and overwrites each output whole: what a whole-buffer load reads is
    the contents, and what one whole-buffer store leaves is its payload. The function's statements are one part,
    called once, which the run goes through where it meets the call. -/
theorem sound_kernel2 (c : Dev nD) (E : Set ℕ) (i : grid2.Coords)
    (arg1 : Memref sig .tc .vmem S1024x128 .f32) (harg1 : arg1.IsWhole)
    (arg2 : Memref sig .tc .vmem S1024x128 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S1024x64 .f32) (harg5 : arg5.IsWhole)
    (arg6 : Memref sig .tc .vmem S1024x1 .f32) (harg6 : arg6.IsWhole)
    (x0 : Vec F S1024x128 .f32) (x1 : Vec F S1024x128 .f32) (x2 : Vec F S128x64 .f32) (x3 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k2_pay1 x1 x0 x2 x3)
            ∗ owns (c : Thread nD τ) arg6 fullShare (k2_pay2 x1 x0 x2 x3)) -∗ K ⟨⟩))
      ⊢ wp frame (wpE (defs₀ (F := F)) Variants.none c none) E
          (cc2__topic_kernel i arg1 harg1 arg2 harg2 arg3 harg3 arg4 harg4 arg5 harg5 arg6 harg6) K := by
  simp only [cc2__topic_kernel_eq_skeleton]; unfold cc2__topic_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover2_4 _),
      View.canon_unit_zero (S := S1024x64) zeros2 inb_S1024x64_S1024x64_0_0]
    rw [readAt_whole2 _ zeros2, readAt_whole2 _ zeros2, readAt_whole2 _ zeros2, readAt_whole2 _ zeros2]
  · iexists _; isplitr
    swap; · iexact H5
    ipureintro
    rw [View.read_writes_eq_canon _ _ _ (cover2_5 _),
      View.canon_unit_zero (S := S1024x1) zeros2 inb_S1024x1_S1024x1_0_0]
    rw [readAt_whole2 _ zeros2, readAt_whole2 _ zeros2, readAt_whole2 _ zeros2, readAt_whole2 _ zeros2]

/-! ## The body obligation, at a generic point -/

/-- What the body is called with at point `t`: the invariant, the core's debts, and each window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the four inputs' buffers hold their blocks, so the kernel's triple applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    keep2_0, keep2_1, keep2_2, keep2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The kernel body meets the pipeline's obligation at every grid point. -/
theorem body_obligation2 (c : Dev nD) :
    BodyObligation (dat2 (F := F) V c) (defs₀ (F := F)) Variants.none () Set.univ := fun t => by
  rw [bigSep_W2, bigSep_W2]
  exact sound_body2 V c t

end Cert.Kernel.Hand

end
-- ==== Proof.K.Pair.lean ====
import proofs.«401426_j8332236554543_1_alg».proof.Proof.Gen.Kernel.Launch
import proofs.«401426_j8332236554543_1_alg».proof.Proof.Gen.Kernel.Skeleton
import proofs.«401426_j8332236554543_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of rows at grid point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The 1x1 accumulator after grid point `t`: reset to zero at the first point, then at every point the
    point's block total `Σ_r Σ_c 1 / (1 + (|x_r|² + |x_c|² - 2 x_r·x_c))` added to what the point before left. -/
def acc3 (c : Dev nD) : (t : ℕ) → t < cfg3.N → Vec F S1x1 .f32
  | 0, h => k3_pay2 (blk3 V c 0 ⟨0, h⟩) (blk3 V c 1 ⟨0, h⟩) (k3_pay1 (F := F))
  | t + 1, h => k3_pay2 (blk3 V c 0 ⟨t + 1, h⟩) (blk3 V c 1 ⟨t + 1, h⟩) (acc3 c t (Nat.lt_of_succ_lt h))

theorem acc3_zero (c : Dev nD) (h : 0 < cfg3.N) :
    acc3 V c 0 h = k3_pay2 (blk3 V c 0 ⟨0, h⟩) (blk3 V c 1 ⟨0, h⟩) (k3_pay1 (F := F)) := rfl
theorem acc3_succ (c : Dev nD) (t : ℕ) (h : t + 1 < cfg3.N) :
    acc3 V c (t + 1) h = k3_pay2 (blk3 V c 0 ⟨t + 1, h⟩) (blk3 V c 1 ⟨t + 1, h⟩) (acc3 V c t (Nat.lt_of_succ_lt h)) := rfl

/-- The pairwise kernel's proof data: both row-block windows read ONE array, each at half of its share; the
    accumulator window holds `acc3` after each point. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => acc3 V c t.val t.isLt
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_2 (c : Dev nD) (t : Fin cfg3.N) : (dat3 V c).after 2 t = acc3 V c t.val t.isLt := by dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]

/-! ## The accumulator's recursion read at a grid point -/

/-- At the first point the accumulator holds the point's total over the reset value. -/
theorem acc3_first (c : Dev nD) (t : Fin cfg3.N) (h0 : t.val = 0) :
    acc3 V c t.val t.isLt = k3_pay2 (blk3 V c 0 t) (blk3 V c 1 t) (k3_pay1 (F := F)) := by
  obtain ⟨n, hn⟩ := t
  cases n with
  | zero => exact acc3_zero V c hn
  | succ n => exact absurd h0 (Nat.succ_ne_zero n)

/-- At a later point it holds the point's total over what the point before left. -/
theorem acc3_later (c : Dev nD) (t : Fin cfg3.N) (h0 : t.val ≠ 0) :
    acc3 V c t.val t.isLt = k3_pay2 (blk3 V c 0 t) (blk3 V c 1 t)
      (acc3 V c (t.val - 1) (Nat.lt_of_le_of_lt (Nat.sub_le _ _) t.isLt)) := by
  obtain ⟨n, hn⟩ := t
  cases n with
  | zero => exact absurd rfl h0
  | succ n => exact acc3_succ V c n hn

/-! ## What the body finds in each window's staging buffer -/

/-- Row-block window 0 holds its block at every point, fetched there or not: between two fetches its block index
    does not move. -/
theorem before3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [A_eq3]; try rfl) t d).trans
    (by unfold Dat.fetched Dat.blockOf blk3; rw [A_eq3]; try rfl)

/-- Row-block window 1 holds its block at every point. -/
theorem before3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [A_eq3]; try rfl) t d).trans
    (by unfold Dat.fetched Dat.blockOf blk3; rw [A_eq3]; try rfl)

/-- After the first point the accumulator's buffer holds what the body left at the point before: it is never
    fetched, and it is written back at the last point only. -/
theorem before3_2_later (c : Dev nD) (t : Fin cfg3.N) (h0 : t.val ≠ 0) (d) :
    (dat3 V c).before 2 t d = acc3 V c (t.val - 1) (Nat.lt_of_le_of_lt (Nat.sub_le _ _) t.isLt) := by
  have hN : t.val < 64 := lt_of_lt_of_eq t.isLt (show cfg3.N = 64 from N_3)
  rw [Dat.before_out_kept _ 2 rfl t h0 (Bool.eq_false_iff.mpr fun h => by have := (flush3_2 _).mp h; dsimp only at this; omega)
    (fun _ => rfl) (fun _ _ => rfl)]
  dsimp only [dat3]

/-! ## The branch condition over the grid -/

/-- The condition of the body's one conditional, from the grid coordinates: both coordinates are zero. -/
abbrev cond3 (i : grid3.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only: decided over the 64 points. -/
theorem hcond3 : ∀ t : Fin cfg3.N, cond3 (grid3.coords t) ↔ t.val = 0 :=
  (by decide +kernel : ∀ t : Fin grid3.N, cond3 (grid3.coords t) ↔ t.val = 0)

theorem hz2 : (![0, 0] : Fin 2 → Nat) = fun _ => 0 := funext fun a => by fin_cases a <;> rfl

/-! ## The kernel on any whole memrefs, one run per control case -/

set_option maxHeartbeats 1000000 in
/-- The branch taken (both coordinates zero): the accumulator, whatever it held, is reset and then updated; the
    later store covers the 1x1 buffer, and the value it read back is the reset value. -/
theorem run3_first (c : Dev nD) (i : grid3.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc : cond3 i) (x0 x1 : Vec F S1024x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k3_pay2 x0 x1 (k3_pay1 (F := F)))) -∗ K ⟨⟩))
      ⊢ wp frame (wpE (defs₀ (F := F)) Variants.none c none) E (cc3__pairwise_kernel i arg2 harg2 arg3 harg3 arg4 harg4) K := by
  simp only [cc3__pairwise_kernel_eq_skeleton]; unfold cc3__pairwise_kernel_skel
  simp only [k3_part1_eq_skeleton]; unfold k3_part1_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [View.read_writes_eq_canon _ _ _ (fun y => ⟨_, List.mem_cons_self, View.mem_set_unit_zero hz2 inb_S1x1_S1x1_0_0 y⟩)]
  rw [View.canon_cons_unit_zero (S := S1x1) hz2]
  sl_unfold_run_names
  simp only [View.readAt_eq_ld, harg2.read_unread, harg3.read_unread, View.ld_unit_zero (S := S1024x64) hz2,
    View.readCov_unit_zero (S := S1x1) _ hz2]

set_option maxHeartbeats 1000000 in
/-- The branch not taken: the accumulator, holding `xo`, is updated by the point's total. -/
theorem run3_later (c : Dev nD) (i : grid3.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc : ¬cond3 i) (x0 x1 : Vec F S1024x64 .f32) (xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k3_pay2 x0 x1 xo)) -∗ K ⟨⟩))
      ⊢ wp frame (wpE (defs₀ (F := F)) Variants.none c none) E (cc3__pairwise_kernel i arg2 harg2 arg3 harg3 arg4 harg4) K := by
  simp only [cc3__pairwise_kernel_eq_skeleton]; unfold cc3__pairwise_kernel_skel
  simp only [k3_part1_eq_skeleton]; unfold k3_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [View.read_writes_eq_canon _ _ _ (fun y => ⟨_, List.mem_cons_self, View.mem_set_unit_zero hz2 inb_S1x1_S1x1_0_0 y⟩)]
  rw [View.canon_cons_unit_zero (S := S1x1) hz2]
  sl_unfold_run_names
  simp only [View.readAt_eq_ld, harg2.read_unread, harg3.read_unread, harg4.read_unread, View.ld_unit_zero (S := S1024x64) hz2,
    View.ld_unit_zero (S := S1x1) hz2]

/-! ## The body obligation at a generic point -/

/-- Each window's current staging memref at point `t`, as the pipeline passes it to the body, and its wholeness. -/
abbrev ms3_0 (t : Fin cfg3.N) : Memref sig .tc .vmem S1024x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1 .f32 := win3_2.stage (cfg3.slots t 2)
abbrev hs3_2 (t : Fin cfg3.N) : (ms3_2 t).IsWhole := hstage3_2 ((cfg3.slots t 2).cast nbuf3_2)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 800000 in
/-- The body at any point: the row-block windows hold their blocks; at the first point the accumulator holds
    anything and the reset branch is taken, at a later point it holds what the point before left and the branch
    is not taken; the invariant and the core's debt pass through unchanged. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  by_cases h0 : t.val = 0
  · rw [acc3_first V c t h0]
    iintro ⟨HΦ, Ho, ⟨%d0, H0⟩, ⟨%d1, H1⟩, ⟨%d2, H2⟩⟩
    iapply (run3_first c (grid3.coords t) (ms3_0 t) (hs3_0 t) (ms3_1 t) (hs3_1 t) (ms3_2 t) (hs3_2 t) ((hcond3 t).mpr h0)
      (blk3 V c 0 t) (blk3 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc3_later V c t h0]
    simp only [before3_2_later V c t h0]
    iintro ⟨HΦ, Ho, ⟨%d0, H0⟩, ⟨%d1, H1⟩, ⟨%d2, H2⟩⟩
    iapply (run3_later c (grid3.coords t) (ms3_0 t) (hs3_0 t) (ms3_1 t) (hs3_1 t) (ms3_2 t) (hs3_2 t) (fun h => h0 ((hcond3 t).mp h))
      (blk3 V c 0 t) (blk3 V c 1 t) (acc3 V c (t.val - 1) (Nat.lt_of_le_of_lt (Nat.sub_le _ _) t.isLt)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The kernel body meets the pipeline's obligation at every grid point. -/
theorem body_obligation3 (c : Dev nD) :
    BodyObligation (dat3 (F := F) V c) (defs₀ (F := F)) Variants.none () Set.univ := fun t => by
  rw [bigSep_W3, bigSep_W3]
  exact sound_body3 V c t

end Cert.Kernel.Hand

end
-- ==== Proof.K.Segs.Base.lean ====
import proofs.«401426_j8332236554543_1_alg».proof.Proof.K.Topic0
import proofs.«401426_j8332236554543_1_alg».proof.Proof.K.Topic1
import proofs.«401426_j8332236554543_1_alg».proof.Proof.K.Topic2
import proofs.«401426_j8332236554543_1_alg».proof.Proof.K.Pair
import proofs.«401426_j8332236554543_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! The contents of the TensorCore's buffers at the four region boundaries. Region 0 is entered after the three host
    stretches (transpose and reshape of the parameters, the two row lookups); each region leaves its arrays at what
    its write-backs fold to and every other buffer as it found it. -/

/-- Region 0's entry contents, read at the core's references. -/
abbrev B3 : (c : Dev nD) → (b : Ref sig .tc) → Buf (Elt F) ((c : Thread nD τ).loc b) := fun c b => V3 m c b
/-- After region 0 (the embedding of the full table). -/
def W4 (c : Dev nD) : Valuation τ sig (Elt F) :=
  Pipeline.withArrays spec0 c (V3 m c) fun w => (dat0 (B3 m) c).arrAt w cfg0.N
abbrev B4 : (c : Dev nD) → (b : Ref sig .tc) → Buf (Elt F) ((c : Thread nD τ).loc b) := fun c b => W4 m c b
/-- After region 1 (the embedding of the rows looked up by the first index input). -/
def W5 (c : Dev nD) : Valuation τ sig (Elt F) :=
  Pipeline.withArrays spec1 c (W4 m c) fun w => (dat1 (B4 m) c).arrAt w cfg1.N
abbrev B5 : (c : Dev nD) → (b : Ref sig .tc) → Buf (Elt F) ((c : Thread nD τ).loc b) := fun c b => W5 m c b
/-- After region 2 (the embedding of the rows looked up by the second index input). -/
def W6 (c : Dev nD) : Valuation τ sig (Elt F) :=
  Pipeline.withArrays spec2 c (W5 m c) fun w => (dat2 (B5 m) c).arrAt w cfg2.N
abbrev B6 : (c : Dev nD) → (b : Ref sig .tc) → Buf (Elt F) ((c : Thread nD τ).loc b) := fun c b => W6 m c b
/-- After region 3 (the pair total): only its 1x1 result changes; both its windows read one array, which it leaves. -/
def W7 (c : Dev nD) : Valuation τ sig (Elt F) :=
  Function.update (W6 m c) main_v7 ((dat3 (B6 m) c).arrAt 2 cfg3.N)
abbrev B7 : (c : Dev nD) → (b : Ref sig .tc) → Buf (Elt F) ((c : Thread nD τ).loc b) := fun c b => W7 m c b

/-- What the regions leave in the buffers they may change, as the host side's frame takes it. -/
def outs : Outs (F := F) := fun j r c =>
  match j with
  | 4 => W4 m c r
  | 5 => W5 m c r
  | 6 => W6 m c r
  | _ => W7 m c r

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (B3 m) c
  | ⟨1, _⟩ => fun c => dat1 (B4 m) c
  | ⟨2, _⟩ => fun c => dat2 (B5 m) c
  | ⟨3, _⟩ => fun c => dat3 (B6 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

end Cert.Kernel.Hand

end
-- ==== Proof.K.Segs.Reg0.lean ====
import proofs.«401426_j8332236554543_1_alg».proof.Proof.K.Segs.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The boundary after region 0, buffer by buffer

The contents after the region are the entry contents with the region's six arrays replaced. The arrays are six
distinct buffers, so each of them reads what was put there and every other buffer reads what it held. -/

/-- After region 0 each of its arrays holds what the region's write-backs fold to (for an input: what it held). -/
theorem exitArr0 (c : Dev nD) (w : Fin cfg0.W) :
    (dat0 (B3 m) c).arrAt w cfg0.N = B4 m c (Pipeline.arrRef spec0 w) := by
  show _ = W4 m c (Proc.devRef .tc (Pipeline.arrRef spec0 w))
  unfold W4
  exact (Pipeline.withArrays_arr spec0 launch0.win.arr_inj c (V3 m c)
    (fun w => (dat0 (B3 m) c).arrAt w cfg0.N) w).symm

/-- Every buffer that is none of the region's arrays holds after it what it held before. -/
theorem exitRest0 (c : Dev nD) (b : Ref sig .tc) (hb : b ∉ Finset.univ.image (Pipeline.arrRef spec0)) :
    B4 m c b = B3 m c b := by
  show W4 m c (Proc.devRef .tc b) = V3 m c (Proc.devRef .tc b)
  unfold W4
  exact Pipeline.withArrays_of_ne spec0 c (V3 m c) (fun w => (dat0 (B3 m) c).arrAt w cfg0.N) b
    fun w e => hb (Finset.mem_image.mpr ⟨w, Finset.mem_univ _, e⟩)

-- a library lemma stated over the pinned configuration unifies with the printed one only when unification may unfold
-- plain definitions in a metavariable's type
set_option backward.isDefEq.respectTransparency.types false in
/-- Region 0 as a segment of the program: entered with every unscoped buffer held at the boundary's contents, left
    with them at the next boundary's; its arrays are split out of the unscoped buffers at entry and put back at exit,
    the generator register goes into the kernel's invariant and comes back, nothing is owed, and the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (B3 m c)
  hentry c := by
    -- the unscoped buffers at the entry contents are the six arrays at those contents beside all the others
    have hsplit := Pipeline.arrays_of_unscopedBufs (p := 0) (pcfgs (F := F)) adm (pdats m) launch0.win launch0.arr_whole c
      ((pdats m 0 c).share_full fun _ => rfl) (B3 m c) fun _ => rfl
    rw [Pipeline.unscopedBufs_held] at hsplit
    iintro ⟨⟨Hheld, Hreg, ⟨%T, Howes⟩⟩, -, -⟩
    imodintro
    ihave Hparts := hsplit $$ Hheld
    icases Hparts with ⟨Harr, Hrest⟩
    isplitl [Harr]; · iexact Harr
    isplitr
    · -- the region prefetches no table
      unfold Pipeline.prefHeld
      rw [show (Finset.univ : Finset (Fin 0)) = ∅ from rfl, BI.bigSep_empty]
      iempintro
    isplitl [Howes]
    · -- owing nothing is within any allowance
      unfold Pipeline.Dat.owesAt Pipeline.owesWithin
      iexists T
      isplitr; · ipureintro; exact fun _ _ => Or.inl trivial
      iexact Howes
    isplitl [Hreg]; · iexact Hreg
    iexact Hrest
  hin c := by
    rw [show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]
    unfold Pipeline.ΦA
    iintro ⟨Hscoped, Hreg⟩
    isplitl [Hreg]; · iexact Hreg
    isplitr; · iempintro
    iexact Hscoped
  hexit c := by
    -- the six arrays at their final contents beside all the other buffers as entered are the unscoped buffers at
    -- the next boundary's contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B3 m c) (B4 m c) ((pdats m 0 c).arrAt · cfg0.N) (exitArr0 m c) (exitRest0 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%T, -, Howes⟩
    iexists T
    iexact Howes

end Cert.Kernel.Hand

end
-- ==== Proof.K.Segs.Reg1.lean ====
import proofs.«401426_j8332236554543_1_alg».proof.Proof.K.Segs.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The boundary after region 1, buffer by buffer

The contents after the region are the entry contents with the region's six arrays replaced. The arrays are six
distinct buffers, so each of them reads what was put there and every other buffer reads what it held. -/

/-- After region 1 each of its arrays holds what the region's write-backs fold to (for an input: what it held). -/
theorem exitArr1 (c : Dev nD) (w : Fin cfg1.W) :
    (dat1 (B4 m) c).arrAt w cfg1.N = B5 m c (Pipeline.arrRef spec1 w) := by
  show _ = W5 m c (Proc.devRef .tc (Pipeline.arrRef spec1 w))
  unfold W5
  exact (Pipeline.withArrays_arr spec1 launch1.win.arr_inj c (W4 m c)
    (fun w => (dat1 (B4 m) c).arrAt w cfg1.N) w).symm

/-- Every buffer that is none of the region's arrays holds after it what it held before. -/
theorem exitRest1 (c : Dev nD) (b : Ref sig .tc) (hb : b ∉ Finset.univ.image (Pipeline.arrRef spec1)) :
    B5 m c b = B4 m c b := by
  show W5 m c (Proc.devRef .tc b) = W4 m c (Proc.devRef .tc b)
  unfold W5
  exact Pipeline.withArrays_of_ne spec1 c (W4 m c) (fun w => (dat1 (B4 m) c).arrAt w cfg1.N) b
    fun w e => hb (Finset.mem_image.mpr ⟨w, Finset.mem_univ _, e⟩)

-- a library lemma stated over the pinned configuration unifies with the printed one only when unification may unfold
-- plain definitions in a metavariable's type
set_option backward.isDefEq.respectTransparency.types false in
/-- Region 1 as a segment of the program: entered with every unscoped buffer held at the boundary's contents, left
    with them at the next boundary's; its arrays are split out of the unscoped buffers at entry and put back at exit,
    the generator register goes into the kernel's invariant and comes back, nothing is owed, and the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (B4 m c)
  hentry c := by
    -- the unscoped buffers at the entry contents are the six arrays at those contents beside all the others
    have hsplit := Pipeline.arrays_of_unscopedBufs (p := 1) (pcfgs (F := F)) adm (pdats m) launch1.win launch1.arr_whole c
      ((pdats m 1 c).share_full fun _ => rfl) (B4 m c) fun _ => rfl
    rw [Pipeline.unscopedBufs_held] at hsplit
    iintro ⟨⟨Hheld, Hreg, ⟨%T, Howes⟩⟩, -, -⟩
    imodintro
    ihave Hparts := hsplit $$ Hheld
    icases Hparts with ⟨Harr, Hrest⟩
    isplitl [Harr]; · iexact Harr
    isplitr
    · -- the region prefetches no table
      unfold Pipeline.prefHeld
      rw [show (Finset.univ : Finset (Fin 0)) = ∅ from rfl, BI.bigSep_empty]
      iempintro
    isplitl [Howes]
    · -- owing nothing is within any allowance
      unfold Pipeline.Dat.owesAt Pipeline.owesWithin
      iexists T
      isplitr; · ipureintro; exact fun _ _ => Or.inl trivial
      iexact Howes
    isplitl [Hreg]; · iexact Hreg
    iexact Hrest
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    -- the six arrays at their final contents beside all the other buffers as entered are the unscoped buffers at
    -- the next boundary's contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B4 m c) (B5 m c) ((pdats m 1 c).arrAt · cfg1.N) (exitArr1 m c) (exitRest1 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%T, -, Howes⟩
    iexists T
    iexact Howes

end Cert.Kernel.Hand

end
-- ==== Proof.K.Segs.Reg2.lean ====
import proofs.«401426_j8332236554543_1_alg».proof.Proof.K.Segs.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The boundary after region 2, buffer by buffer

The contents after the region are the entry contents with the region's six arrays replaced. The arrays are six
distinct buffers, so each of them reads what was put there and every other buffer reads what it held. -/

/-- After region 2 each of its arrays holds what the region's write-backs fold to (for an input: what it held). -/
theorem exitArr2 (c : Dev nD) (w : Fin cfg2.W) :
    (dat2 (B5 m) c).arrAt w cfg2.N = B6 m c (Pipeline.arrRef spec2 w) := by
  show _ = W6 m c (Proc.devRef .tc (Pipeline.arrRef spec2 w))
  unfold W6
  exact (Pipeline.withArrays_arr spec2 launch2.win.arr_inj c (W5 m c)
    (fun w => (dat2 (B5 m) c).arrAt w cfg2.N) w).symm

/-- Every buffer that is none of the region's arrays holds after it what it held before. -/
theorem exitRest2 (c : Dev nD) (b : Ref sig .tc) (hb : b ∉ Finset.univ.image (Pipeline.arrRef spec2)) :
    B6 m c b = B5 m c b := by
  show W6 m c (Proc.devRef .tc b) = W5 m c (Proc.devRef .tc b)
  unfold W6
  exact Pipeline.withArrays_of_ne spec2 c (W5 m c) (fun w => (dat2 (B5 m) c).arrAt w cfg2.N) b
    fun w e => hb (Finset.mem_image.mpr ⟨w, Finset.mem_univ _, e⟩)

-- a library lemma stated over the pinned configuration unifies with the printed one only when unification may unfold
-- plain definitions in a metavariable's type
set_option backward.isDefEq.respectTransparency.types false in
/-- Region 2 as a segment of the program: entered with every unscoped buffer held at the boundary's contents, left
    with them at the next boundary's; its arrays are split out of the unscoped buffers at entry and put back at exit,
    the generator register goes into the kernel's invariant and comes back, nothing is owed, and the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    -- the unscoped buffers at the entry contents are the six arrays at those contents beside all the others
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hheld, Hreg, ⟨%T, Howes⟩⟩, -, -⟩
    imodintro
    ihave Hparts := hsplit $$ Hheld
    icases Hparts with ⟨Harr, Hrest⟩
    isplitl [Harr]; · iexact Harr
    isplitr
    · -- the region prefetches no table
      unfold Pipeline.prefHeld
      rw [show (Finset.univ : Finset (Fin 0)) = ∅ from rfl, BI.bigSep_empty]
      iempintro
    isplitl [Howes]
    · -- owing nothing is within any allowance
      unfold Pipeline.Dat.owesAt Pipeline.owesWithin
      iexists T
      isplitr; · ipureintro; exact fun _ _ => Or.inl trivial
      iexact Howes
    isplitl [Hreg]; · iexact Hreg
    iexact Hrest
  hin c := by
    rw [show (pdats m 2 c).Φ 0 = Pipeline.ΦA spec2 c from rfl]
    unfold Pipeline.ΦA
    iintro ⟨Hreg, -, Hscoped⟩
    isplitl [Hscoped]; · iexact Hscoped
    iexact Hreg
  hout c := by
    rw [Pipeline.ownSems0_none, show (pdats m 2 c).Φ (Fin.last _) = Pipeline.ΦA spec2 c from rfl]
    unfold Pipeline.ΦA
    iintro ⟨Hscoped, Hreg⟩
    isplitl [Hreg]; · iexact Hreg
    isplitr; · iempintro
    iexact Hscoped
  hexit c := by
    -- the six arrays at their final contents beside all the other buffers as entered are the unscoped buffers at
    -- the next boundary's contents
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (exitArr2 m c) (exitRest2 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%T, -, Howes⟩
    iexists T
    iexact Howes

end Cert.Kernel.Hand

end
-- ==== Proof.K.Segs.Reg3.lean ====
import proofs.«401426_j8332236554543_1_alg».proof.Proof.K.Segs.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The windows' arrays are two buffers: both row-block windows read the embedding, the result is the 1x1 total. -/
theorem image_arr3 : Finset.univ.image (Pipeline.arrRef spec3) = {main_v4_0, main_v7} := by decide

/-- A separating conjunction over those two buffers, written out. -/
theorem bigSep_arr3 {M : Type} [URA M] (Φ : Ref sig .tc → sProp M) :
    bigSep ({main_v4_0, main_v7} : Finset (Ref sig .tc)) Φ = iprop(Φ main_v4_0 ∗ Φ main_v7) :=
  bigSep_eq_bigSepL_of_eq [main_v4_0, main_v7] (by decide) (by decide) Φ

theorem share3_0 (V : (c : Dev nD) → (b : Ref sig .tc) → Buf (Elt F) ((c : Thread nD τ).loc b)) (c : Dev nD) :
    (dat3 V c).share 0 = fullShare.left := rfl
theorem share3_1 (V : (c : Dev nD) → (b : Ref sig .tc) → Buf (Elt F) ((c : Thread nD τ).loc b)) (c : Dev nD) :
    (dat3 V c).share 1 = fullShare.right := rfl
theorem share3_2 (V : (c : Dev nD) → (b : Ref sig .tc) → Buf (Elt F) ((c : Thread nD τ).loc b)) (c : Dev nD) :
    (dat3 V c).share 2 = fullShare := rfl

/-- The pipeline's arrays are the two distinct buffers behind them, each whole at the full share: the shared input's
    full share is dealt in halves to its two windows. -/
theorem arrays3_iff (V : (c : Dev nD) → (b : Ref sig .tc) → Buf (Elt F) ((c : Thread nD τ).loc b)) (c : Dev nD)
    (A : (w : Fin cfg3.W) → Buf (Elt F) ((cfg3.win w).arr.view.loc (c.tc : Thread nD τ)))
    (G : (b : Ref sig .tc) → Buf (Elt F) ((c.tc : Thread nD τ).loc b))
    (h0 : A 0 = G main_v4_0) (h1 : A 1 = G main_v4_0) (h2 : A 2 = G main_v7) :
    ((dat3 V c).arrays A : sProp 𝕄) ⊣⊢ Pipeline.arrBufs spec3 c G := by
  unfold Dat.arrays Pipeline.arrBufs
  rw [bigSep_W3, image_arr3, share3_0, share3_1, share3_2, h0, h1, h2]
  have e0 : (cfg3.win 0).arr.view.set = Finset.univ := (arr_whole3 0).set_eq_univ
  have e2 : (cfg3.win 2).arr.view.set = Finset.univ := (arr_whole3 2).set_eq_univ
  rw [e0, e2, bigSep_arr3]
  constructor
  · iintro ⟨Hl, Hr, H7⟩
    isplitl [Hl Hr]
    · iapply (pointsTo_share (PosShare.mem_left_op_right fullShare)).2
      isplitl [Hl]; · iexact Hl
      iexact Hr
    iexact H7
  · have hdeal : ((c.tc : Thread nD τ).loc main_v4_0 ↦{fullShare} G main_v4_0 : sProp 𝕄)
        ⊢ iprop(((c.tc : Thread nD τ).loc main_v4_0 ↦{fullShare.left} G main_v4_0) ∗ ((c.tc : Thread nD τ).loc main_v4_0 ↦{fullShare.right} G main_v4_0)) :=
      (pointsTo_share (PosShare.mem_left_op_right fullShare)).1
    iintro ⟨Hw, H7⟩
    ihave H := hdeal $$ Hw
    icases H with ⟨Hl, Hr⟩
    isplitl [Hl]; · iexact Hl
    isplitl [Hr]; · iexact Hr
    iexact H7

-- a library lemma stated over the pinned configuration unifies with the printed one only when unification may unfold
-- plain definitions in a metavariable's type
set_option backward.isDefEq.respectTransparency.types false in
/-- Region 3 as a segment of the program: entered with every unscoped buffer held at the boundary's contents, left
    with them at the next boundary's; its two row-block windows read ONE array, whose buffer is held at entry whole and is dealt to them in two halves of its share (joined again at exit); the 1x1 result is held whole;
    the generator register goes into the kernel's invariant and comes back, nothing is owed, and the kernel has no
    semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (B6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (B6 m c)
  hentry c := by
    rw [Pipeline.ownSems0_none]
    have hub := Pipeline.unscopedBufs_split₀ (Pipeline.pin (pcfgs (F := F)) adm) 3 winFacts₀3.arr_unscoped c (Ix := Unit) (Name := ℕ) (U := UR sig nD τ) (Lvl := ℕ) (B6 m c)
    rw [Pipeline.unscopedBufs_held] at hub
    have harr := (arrays3_iff (B6 m) c (fun w => (pdats m 3 c).arrAt w 0) (B6 m c) rfl rfl rfl).2
    rw [hub]
    iintro ⟨⟨⟨Ha, Hrest⟩, Hp, HO⟩, -, -⟩
    imodintro
    isplitl [Ha]; · iapply harr; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hub : StableHlo.held (c.tc : Thread nD τ) (Pipeline.ucRefs τ sig) (W7 m c)
        = iprop((Pipeline.arrBufs spec3 c (B7 m c) : sProp 𝕄) ∗ Pipeline.unscopedRest spec3 c (B7 m c)) := by
      rw [← Pipeline.unscopedBufs_held]
      exact Pipeline.unscopedBufs_split₀ (Pipeline.pin (pcfgs (F := F)) adm) 3 winFacts₀3.arr_unscoped c (Ix := Unit) (Name := ℕ) (U := UR sig nD τ) (Lvl := ℕ) (B7 m c)
    have hoff : ∀ b : Ref sig .tc, b ≠ main_v7 → B7 m c b = B6 m c b := fun b hne => by
      show W7 m c _ = W6 m c _
      unfold W7
      exact Function.update_of_ne (StableHlo.devRef_ne_of_ne hne) _ _
    have hon : B7 m c main_v7 = (dat3 (B6 m) c).arrAt 2 cfg3.N := by
      show W7 m c _ = _
      unfold W7
      exact Function.update_self _ _ _
    have h0 : (pdats m 3 c).arrAt 0 cfg3.N = B7 m c main_v4_0 :=
      ((pdats m 3 c).arrAt_in 0 rfl cfg3.N).trans (hoff main_v4_0 (by decide)).symm
    have h1 : (pdats m 3 c).arrAt 1 cfg3.N = B7 m c main_v4_0 :=
      ((pdats m 3 c).arrAt_in 1 rfl cfg3.N).trans (hoff main_v4_0 (by decide)).symm
    have h2 : (pdats m 3 c).arrAt 2 cfg3.N = B7 m c main_v7 := hon.symm
    have harr := (arrays3_iff (B6 m) c (fun w => (pdats m 3 c).arrAt w cfg3.N) (B7 m c) h0 h1 h2).1
    have hrest : (Pipeline.unscopedRest (Ix := Unit) (Name := ℕ) (U := UR sig nD τ) (Lvl := ℕ) spec3 c (B7 m c) : sProp 𝕄)
        = Pipeline.unscopedRest spec3 c (B6 m c) := by
      unfold Pipeline.unscopedRest
      refine bigSep_congr fun b hb => ?_
      have hne : b ≠ main_v7 := fun e => (Finset.mem_sdiff.mp hb).2 (by rw [e, image_arr3]; decide)
      rw [hoff b hne]
    rw [hub, hrest]
    iintro ⟨Ha, HO, HY, Hrest⟩
    imodintro
    isplitl [Ha Hrest]
    · isplitl [Ha]; · iapply harr; iexact Ha
      iexact Hrest
    isplitl [HY]; · iexact HY
    unfold Pipeline.Dat.owesAt Pipeline.owesWithin
    icases HO with ⟨%W, -, HO⟩; iexists W; iexact HO

end Cert.Kernel.Hand

end
-- ==== Proof.K.Segs.Veq.lean ====
import proofs.«401426_j8332236554543_1_alg».proof.Proof.K.Segs.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! The generated host side states the boundary contents as the entry contents updated at the buffers a region may
    change; the regions' records state them as the region's arrays at what the write-backs fold to. They are the same
    valuations: an input array is never written, and a region changes no buffer but its output arrays. -/

/-- A valuation that agrees with `V` away from two buffers is `V` updated at those two with its own contents there. -/
theorem veq_update2 (V W : Valuation τ sig (Elt F)) (r0 r1 : DevRef τ sig) (h : ∀ b, b ≠ r0 → b ≠ r1 → W b = V b) :
    Function.update (Function.update V r0 (W r0)) r1 (W r1) = W := by
  funext b
  by_cases h1 : b = r1
  · subst h1; rw [Function.update_self]
  · rw [Function.update_of_ne h1]
    by_cases h0 : b = r0
    · subst h0; rw [Function.update_self]
    · rw [Function.update_of_ne h0, h b h0 h1]

/-- Region 0 leaves every buffer but its two output arrays as it found it: the four input arrays are never written
    back, and a buffer that is none of its arrays is not the region's to change. -/
theorem veq_agree0 (c : Dev nD) (b : DevRef τ sig) (h0 : b ≠ Proc.devRef .tc main_v4_0) (h1 : b ≠ Proc.devRef .tc main_v4_1) :
    W4 m c b = V3 m c b := by
  unfold W4
  by_cases h : ∃ w, Proc.devRef .tc (Pipeline.arrRef spec0 w) = b
  · obtain ⟨w, rfl⟩ := h
    rw [Pipeline.withArrays_arr spec0 launch0.win.arr_inj]
    fin_cases w
    · exact ((dat0 (B3 m) c).arrAt_in 0 rfl _).trans (A_eq0 (B3 m) c 0)
    · exact ((dat0 (B3 m) c).arrAt_in 1 rfl _).trans (A_eq0 (B3 m) c 1)
    · exact ((dat0 (B3 m) c).arrAt_in 2 rfl _).trans (A_eq0 (B3 m) c 2)
    · exact ((dat0 (B3 m) c).arrAt_in 3 rfl _).trans (A_eq0 (B3 m) c 3)
    · exact absurd rfl h0
    · exact absurd rfl h1
  · unfold Pipeline.withArrays
    rw [dif_neg h]

/-- Region 1 leaves every buffer but its two output arrays as it found it: the four input arrays are never written
    back, and a buffer that is none of its arrays is not the region's to change. -/
theorem veq_agree1 (c : Dev nD) (b : DevRef τ sig) (h0 : b ≠ Proc.devRef .tc main_v5_0) (h1 : b ≠ Proc.devRef .tc main_v5_1) :
    W5 m c b = W4 m c b := by
  unfold W5
  by_cases h : ∃ w, Proc.devRef .tc (Pipeline.arrRef spec1 w) = b
  · obtain ⟨w, rfl⟩ := h
    rw [Pipeline.withArrays_arr spec1 launch1.win.arr_inj]
    fin_cases w
    · exact ((dat1 (B4 m) c).arrAt_in 0 rfl _).trans (A_eq1 (B4 m) c 0)
    · exact ((dat1 (B4 m) c).arrAt_in 1 rfl _).trans (A_eq1 (B4 m) c 1)
    · exact ((dat1 (B4 m) c).arrAt_in 2 rfl _).trans (A_eq1 (B4 m) c 2)
    · exact ((dat1 (B4 m) c).arrAt_in 3 rfl _).trans (A_eq1 (B4 m) c 3)
    · exact absurd rfl h0
    · exact absurd rfl h1
  · unfold Pipeline.withArrays
    rw [dif_neg h]

/-- Region 2 leaves every buffer but its two output arrays as it found it: the four input arrays are never written
    back, and a buffer that is none of its arrays is not the region's to change. -/
theorem veq_agree2 (c : Dev nD) (b : DevRef τ sig) (h0 : b ≠ Proc.devRef .tc main_v6_0) (h1 : b ≠ Proc.devRef .tc main_v6_1) :
    W6 m c b = W5 m c b := by
  unfold W6
  by_cases h : ∃ w, Proc.devRef .tc (Pipeline.arrRef spec2 w) = b
  · obtain ⟨w, rfl⟩ := h
    rw [Pipeline.withArrays_arr spec2 launch2.win.arr_inj]
    fin_cases w
    · exact ((dat2 (B5 m) c).arrAt_in 0 rfl _).trans (A_eq2 (B5 m) c 0)
    · exact ((dat2 (B5 m) c).arrAt_in 1 rfl _).trans (A_eq2 (B5 m) c 1)
    · exact ((dat2 (B5 m) c).arrAt_in 2 rfl _).trans (A_eq2 (B5 m) c 2)
    · exact ((dat2 (B5 m) c).arrAt_in 3 rfl _).trans (A_eq2 (B5 m) c 3)
    · exact absurd rfl h0
    · exact absurd rfl h1
  · unfold Pipeline.withArrays
    rw [dif_neg h]

theorem V4_eq (c : Dev nD) : V4 m (outs m) c = W4 m c := by
  show Function.update (Function.update (V3 m c) (Proc.devRef .tc main_v4_0) (W4 m c (Proc.devRef .tc main_v4_0)))
    (Proc.devRef .tc main_v4_1) (W4 m c (Proc.devRef .tc main_v4_1)) = W4 m c
  exact veq_update2 _ _ _ _ (veq_agree0 m c)
theorem V5_eq (c : Dev nD) : V5 m (outs m) c = W5 m c := by
  show Function.update (Function.update (V4 m (outs m) c) (Proc.devRef .tc main_v5_0) (W5 m c (Proc.devRef .tc main_v5_0)))
    (Proc.devRef .tc main_v5_1) (W5 m c (Proc.devRef .tc main_v5_1)) = W5 m c
  rw [V4_eq]
  exact veq_update2 _ _ _ _ (veq_agree1 m c)
theorem V6_eq (c : Dev nD) : V6 m (outs m) c = W6 m c := by
  show Function.update (Function.update (V5 m (outs m) c) (Proc.devRef .tc main_v6_0) (W6 m c (Proc.devRef .tc main_v6_0)))
    (Proc.devRef .tc main_v6_1) (W6 m c (Proc.devRef .tc main_v6_1)) = W6 m c
  rw [V5_eq]
  exact veq_update2 _ _ _ _ (veq_agree2 m c)
theorem V7_eq (c : Dev nD) : V7 m (outs m) c = W7 m c := by
  show Function.update (V6 m (outs m) c) (Proc.devRef .tc main_v7) (W7 m c (Proc.devRef .tc main_v7)) = W7 m c
  rw [V6_eq]
  have e : W7 m c (Proc.devRef .tc main_v7) = (dat3 (B6 m) c).arrAt 2 cfg3.N := by
    unfold W7; exact Function.update_self _ _ _
  rw [e]
  rfl

end Cert.Kernel.Hand

end
-- ==== Proof.K.Run.lean ====
import proofs.«401426_j8332236554543_1_alg».proof.Proof.K.Segs.Reg0
import proofs.«401426_j8332236554543_1_alg».proof.Proof.K.Segs.Reg1
import proofs.«401426_j8332236554543_1_alg».proof.Proof.K.Segs.Reg2
import proofs.«401426_j8332236554543_1_alg».proof.Proof.K.Segs.Reg3
import proofs.«401426_j8332236554543_1_alg».proof.Proof.K.RunCond
import proofs.«401426_j8332236554543_1_alg».proof.Proof.K.Segs.Veq

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The whole program runs: every weakly fair execution from `m` terminates, nothing faults, and every unscoped buffer
    ends at the last boundary's contents — the three host stretches, the four regions in order, the host tail. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) :=
  Cert.Kernel.GenP.run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by
      iintro ⟨-, HO⟩
      iexact HO)
    (R0 := reg0 m) (hpre0 := fun c => .rfl) (hpost0 := fun c => by rw [V4_eq]; exact .rfl)
    (R1 := reg1 m) (hpre1 := fun c => by rw [V4_eq]; exact .rfl) (hpost1 := fun c => by rw [V5_eq]; exact .rfl)
    (R2 := reg2 m) (hpre2 := fun c => by rw [V5_eq]; exact .rfl) (hpost2 := fun c => by rw [V6_eq]; exact .rfl)
    (R3 := reg3 m) (hpre3 := fun c => by rw [V6_eq]; exact .rfl) (hpost3 := fun c => by rw [V7_eq]; exact .rfl)

end Cert.Kernel.Hand

end
-- ==== Proof.KI.Topic0.lean ====
import proofs.«401426_j8332236554543_1_alg».proof.Proof.Gen.KernelIdeal.Launch
import proofs.«401426_j8332236554543_1_alg».proof.Proof.Gen.KernelIdeal.Skeleton
import proofs.«401426_j8332236554543_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of rows at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the topic kernel leaves at point `t`: every input's staging buffer at its block; the embedding block
    `softmax(logits + gumbel(noise)) · W + b` of the point's 1024 rows; and those rows' squared norms. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay1 (blk0 V c 1 t) (blk0 V c 0 t) (blk0 V c 2 t) (blk0 V c 3 t)
    | ⟨5, _⟩ => k0_pay2 (blk0 V c 1 t) (blk0 V c 0 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = k0_pay1 (blk0 V c 1 t) (blk0 V c 0 t) (blk0 V c 2 t) (blk0 V c 3 t) := by dsimp only [dat0]
theorem after0_5 (c : Dev nD) (t : Fin cfg0.N) :
    (dat0 V c).after 5 t = k0_pay2 (blk0 V c 1 t) (blk0 V c 0 t) (blk0 V c 2 t) (blk0 V c 3 t) := by dsimp only [dat0]

/-! ## The inputs: left in place, and found at their blocks -/

/-- The body leaves each input's staging buffer as it found it: at the window's block. -/
theorem keep0_0 (c : Dev nD) (t : Fin cfg0.N) : (dat0 V c).after 0 t = blk0 V c 0 t := by dsimp only [dat0]
theorem keep0_1 (c : Dev nD) (t : Fin cfg0.N) : (dat0 V c).after 1 t = blk0 V c 1 t := by dsimp only [dat0]
theorem keep0_2 (c : Dev nD) (t : Fin cfg0.N) : (dat0 V c).after 2 t = blk0 V c 2 t := by dsimp only [dat0]
theorem keep0_3 (c : Dev nD) (t : Fin cfg0.N) : (dat0 V c).after 3 t = blk0 V c 3 t := by dsimp only [dat0]

/-- The logits block is fetched at every point, so the body finds it in the window's staging buffer. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [keep0_0]; unfold Dat.blockOf blk0; rw [A_eq0]; try rfl) t d).trans
    (by unfold Dat.fetched Dat.blockOf blk0; rw [A_eq0]; try rfl)

/-- So is the noise block. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [keep0_1]; unfold Dat.blockOf blk0; rw [A_eq0]; try rfl) t d).trans
    (by unfold Dat.fetched Dat.blockOf blk0; rw [A_eq0]; try rfl)

/-- The weight matrix is one block, fetched at the first point only: its block index never moves, the body leaves
    the buffer in place, so every later point still finds the matrix there. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [keep0_2]; unfold Dat.blockOf blk0; rw [A_eq0]; try rfl) t d).trans
    (by unfold Dat.fetched Dat.blockOf blk0; rw [A_eq0]; try rfl)

/-- The same of the bias row. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [keep0_3]; unfold Dat.blockOf blk0; rw [A_eq0]; try rfl) t d).trans
    (by unfold Dat.fetched Dat.blockOf blk0; rw [A_eq0]; try rfl)

/-! ## The body's triple -/

/-- The offsets of a whole-buffer access are all zero. -/
theorem zeros0 : (![0, 0] : Fin 2 → ℕ) = fun _ => 0 := by
  funext a
  match a with
  | ⟨0, _⟩ => rfl
  | ⟨1, _⟩ => rfl

/-- The one store of the embedding block is of the whole buffer, so it covers it. -/
theorem cover0_4 (p : Vec F S1024x64 .f32) (y : S1024x64.Idx) :
    ∃ pc ∈ ([⟨Rect.unit (s := S1024x64) ![0, 0] S1024x64.size inb_S1024x64_S1024x64_0_0, p⟩] : List (View.Piece (Elt F) S1024x64 .f32)), y ∈ pc.1.set :=
  ⟨_, List.mem_singleton_self _, View.mem_set_unit_zero (S := S1024x64) zeros0 inb_S1024x64_S1024x64_0_0 y⟩

/-- So does the one store of the squared norms. -/
theorem cover0_5 (p : Vec F S1024x1 .f32) (y : S1024x1.Idx) :
    ∃ pc ∈ ([⟨Rect.unit (s := S1024x1) ![0, 0] S1024x1.size inb_S1024x1_S1024x1_0_0, p⟩] : List (View.Piece (Elt F) S1024x1 .f32)), y ∈ pc.1.set :=
  ⟨_, List.mem_singleton_self _, View.mem_set_unit_zero (S := S1024x1) zeros0 inb_S1024x1_S1024x1_0_0 y⟩

/-- A load of a whole buffer (the whole-shape rectangle at zero offsets) reads the buffer's contents. -/
theorem readAt_whole0 {sp : Space} {S : Shape} {e : EltTy} (v : View sig .tc sp S e) {off : Fin S.rank → ℕ}
    (h : off = fun _ => 0) (inb : ∀ a, off a + S.size a ≤ S.size a) (f : BufTy.Contents (Elt F) v.ty) :
    View.readAt (Elt F) v (Rect.unit (s := S) off S.size inb).toLoadRect f = View.read (Elt F) v f :=
  View.ld_unit_zero (S := S) h inb (View.read (Elt F) v f)

set_option maxHeartbeats 1000000 in
/-- The kernel body on whole buffers: with the logits `x0`, the noise `x1`, the weights `x2` and the bias `x3` in
    its four inputs and anything in its two outputs, it runs to the continuation with the inputs as they were, the
    embedding block of the four in the fifth buffer and its rows' squared norms in the sixth. It loads the four
    inputs whole (the noise first), then loads and overwrites each output whole: what a whole-buffer load reads is
    the contents, and what one whole-buffer store leaves is its payload. -/
theorem sound_kernel0 (c : Dev nD) (E : Set ℕ) (i : grid0.Coords)
    (arg1 : Memref sig .tc .vmem S1024x128 .f32) (harg1 : arg1.IsWhole)
    (arg2 : Memref sig .tc .vmem S1024x128 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S1024x64 .f32) (harg5 : arg5.IsWhole)
    (arg6 : Memref sig .tc .vmem S1024x1 .f32) (harg6 : arg6.IsWhole)
    (x0 : Vec F S1024x128 .f32) (x1 : Vec F S1024x128 .f32) (x2 : Vec F S128x64 .f32) (x3 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x1 x0 x2 x3)
            ∗ owns (c : Thread nD τ) arg6 fullShare (k0_pay2 x1 x0 x2 x3)) -∗ K ⟨⟩))
      ⊢ wp frame (wpE (defs₀ (F := F)) Variants.none c none) E
          (cc0__topic_kernel i arg1 harg1 arg2 harg2 arg3 harg3 arg4 harg4 arg5 harg5 arg6 harg6) K := by
  simp only [cc0__topic_kernel_eq_skeleton]; unfold cc0__topic_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover0_4 _),
      View.canon_unit_zero (S := S1024x64) zeros0 inb_S1024x64_S1024x64_0_0]
    rw [readAt_whole0 _ zeros0, readAt_whole0 _ zeros0, readAt_whole0 _ zeros0, readAt_whole0 _ zeros0]
  · iexists _; isplitr
    swap; · iexact H5
    ipureintro
    rw [View.read_writes_eq_canon _ _ _ (cover0_5 _),
      View.canon_unit_zero (S := S1024x1) zeros0 inb_S1024x1_S1024x1_0_0]
    rw [readAt_whole0 _ zeros0, readAt_whole0 _ zeros0, readAt_whole0 _ zeros0, readAt_whole0 _ zeros0]

/-! ## The body obligation, at a generic point -/

/-- What the body is called with at point `t`: the invariant, the core's debts, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the four inputs' buffers hold their blocks, so the kernel's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    keep0_0, keep0_1, keep0_2, keep0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The kernel body meets the pipeline's obligation at every grid point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.Topic1.lean ====
import proofs.«401426_j8332236554543_1_alg».proof.Proof.Gen.KernelIdeal.Launch
import proofs.«401426_j8332236554543_1_alg».proof.Proof.Gen.KernelIdeal.Skeleton
import proofs.«401426_j8332236554543_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of rows at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the topic kernel leaves at point `t`: every input's staging buffer at its block; the embedding block
    `softmax(logits + gumbel(noise)) · W + b` of the point's 1024 rows; and those rows' squared norms. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => k1_pay1 (blk1 V c 1 t) (blk1 V c 0 t) (blk1 V c 2 t) (blk1 V c 3 t)
    | ⟨5, _⟩ => k1_pay2 (blk1 V c 1 t) (blk1 V c 0 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = k1_pay1 (blk1 V c 1 t) (blk1 V c 0 t) (blk1 V c 2 t) (blk1 V c 3 t) := by dsimp only [dat1]
theorem after1_5 (c : Dev nD) (t : Fin cfg1.N) :
    (dat1 V c).after 5 t = k1_pay2 (blk1 V c 1 t) (blk1 V c 0 t) (blk1 V c 2 t) (blk1 V c 3 t) := by dsimp only [dat1]

/-! ## The inputs: left in place, and found at their blocks -/

/-- The body leaves each input's staging buffer as it found it: at the window's block. -/
theorem keep1_0 (c : Dev nD) (t : Fin cfg1.N) : (dat1 V c).after 0 t = blk1 V c 0 t := by dsimp only [dat1]
theorem keep1_1 (c : Dev nD) (t : Fin cfg1.N) : (dat1 V c).after 1 t = blk1 V c 1 t := by dsimp only [dat1]
theorem keep1_2 (c : Dev nD) (t : Fin cfg1.N) : (dat1 V c).after 2 t = blk1 V c 2 t := by dsimp only [dat1]
theorem keep1_3 (c : Dev nD) (t : Fin cfg1.N) : (dat1 V c).after 3 t = blk1 V c 3 t := by dsimp only [dat1]

/-- The logits block is fetched at every point, so the body finds it in the window's staging buffer. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [keep1_0]; unfold Dat.blockOf blk1; rw [A_eq1]; try rfl) t d).trans
    (by unfold Dat.fetched Dat.blockOf blk1; rw [A_eq1]; try rfl)

/-- So is the noise block. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [keep1_1]; unfold Dat.blockOf blk1; rw [A_eq1]; try rfl) t d).trans
    (by unfold Dat.fetched Dat.blockOf blk1; rw [A_eq1]; try rfl)

/-- The weight matrix is one block, fetched at the first point only: its block index never moves, the body leaves
    the buffer in place, so every later point still finds the matrix there. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [keep1_2]; unfold Dat.blockOf blk1; rw [A_eq1]; try rfl) t d).trans
    (by unfold Dat.fetched Dat.blockOf blk1; rw [A_eq1]; try rfl)

/-- The same of the bias row. -/
theorem before1_3 (c : Dev nD) (t : Fin cfg1.N) (d) : (dat1 V c).before 3 t d = blk1 V c 3 t :=
  ((dat1 V c).before_in_eq_fetched 3 rfl (fun _ => rfl) (fun _ _ _ => rfl)
    (fun t => by rw [keep1_3]; unfold Dat.blockOf blk1; rw [A_eq1]; try rfl) t d).trans
    (by unfold Dat.fetched Dat.blockOf blk1; rw [A_eq1]; try rfl)

/-! ## The body's triple -/

/-- The offsets of a whole-buffer access are all zero. -/
theorem zeros1 : (![0, 0] : Fin 2 → ℕ) = fun _ => 0 := by
  funext a
  match a with
  | ⟨0, _⟩ => rfl
  | ⟨1, _⟩ => rfl

/-- The one store of the embedding block is of the whole buffer, so it covers it. -/
theorem cover1_4 (p : Vec F S1024x64 .f32) (y : S1024x64.Idx) :
    ∃ pc ∈ ([⟨Rect.unit (s := S1024x64) ![0, 0] S1024x64.size inb_S1024x64_S1024x64_0_0, p⟩] : List (View.Piece (Elt F) S1024x64 .f32)), y ∈ pc.1.set :=
  ⟨_, List.mem_singleton_self _, View.mem_set_unit_zero (S := S1024x64) zeros1 inb_S1024x64_S1024x64_0_0 y⟩

/-- So does the one store of the squared norms. -/
theorem cover1_5 (p : Vec F S1024x1 .f32) (y : S1024x1.Idx) :
    ∃ pc ∈ ([⟨Rect.unit (s := S1024x1) ![0, 0] S1024x1.size inb_S1024x1_S1024x1_0_0, p⟩] : List (View.Piece (Elt F) S1024x1 .f32)), y ∈ pc.1.set :=
  ⟨_, List.mem_singleton_self _, View.mem_set_unit_zero (S := S1024x1) zeros1 inb_S1024x1_S1024x1_0_0 y⟩

/-- A load of a whole buffer (the whole-shape rectangle at zero offsets) reads the buffer's contents. -/
theorem readAt_whole1 {sp : Space} {S : Shape} {e : EltTy} (v : View sig .tc sp S e) {off : Fin S.rank → ℕ}
    (h : off = fun _ => 0) (inb : ∀ a, off a + S.size a ≤ S.size a) (f : BufTy.Contents (Elt F) v.ty) :
    View.readAt (Elt F) v (Rect.unit (s := S) off S.size inb).toLoadRect f = View.read (Elt F) v f :=
  View.ld_unit_zero (S := S) h inb (View.read (Elt F) v f)

set_option maxHeartbeats 1000000 in
/-- The kernel body on whole buffers: with the logits `x0`, the noise `x1`, the weights `x2` and the bias `x3` in
    its four inputs and anything in its two outputs, it runs to the continuation with the inputs as they were, the
    embedding block of the four in the fifth buffer and its rows' squared norms in the sixth. It loads the four
    inputs whole (the noise first), then loads and overwrites each output whole: what a whole-buffer load reads is
    the contents, and what one whole-buffer store leaves is its payload. The function's statements are one part,
    called once, which the run goes through where it meets the call. -/
theorem sound_kernel1 (c : Dev nD) (E : Set ℕ) (i : grid1.Coords)
    (arg1 : Memref sig .tc .vmem S1024x128 .f32) (harg1 : arg1.IsWhole)
    (arg2 : Memref sig .tc .vmem S1024x128 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S1024x64 .f32) (harg5 : arg5.IsWhole)
    (arg6 : Memref sig .tc .vmem S1024x1 .f32) (harg6 : arg6.IsWhole)
    (x0 : Vec F S1024x128 .f32) (x1 : Vec F S1024x128 .f32) (x2 : Vec F S128x64 .f32) (x3 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x1 x0 x2 x3)
            ∗ owns (c : Thread nD τ) arg6 fullShare (k1_pay2 x1 x0 x2 x3)) -∗ K ⟨⟩))
      ⊢ wp frame (wpE (defs₀ (F := F)) Variants.none c none) E
          (cc1__topic_kernel i arg1 harg1 arg2 harg2 arg3 harg3 arg4 harg4 arg5 harg5 arg6 harg6) K := by
  simp only [cc1__topic_kernel_eq_skeleton]; unfold cc1__topic_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1_4 _),
      View.canon_unit_zero (S := S1024x64) zeros1 inb_S1024x64_S1024x64_0_0]
    rw [readAt_whole1 _ zeros1, readAt_whole1 _ zeros1, readAt_whole1 _ zeros1, readAt_whole1 _ zeros1]
  · iexists _; isplitr
    swap; · iexact H5
    ipureintro
    rw [View.read_writes_eq_canon _ _ _ (cover1_5 _),
      View.canon_unit_zero (S := S1024x1) zeros1 inb_S1024x1_S1024x1_0_0]
    rw [readAt_whole1 _ zeros1, readAt_whole1 _ zeros1, readAt_whole1 _ zeros1, readAt_whole1 _ zeros1]

/-! ## The body obligation, at a generic point -/

/-- What the body is called with at point `t`: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the four inputs' buffers hold their blocks, so the kernel's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    keep1_0, keep1_1, keep1_2, keep1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The kernel body meets the pipeline's obligation at every grid point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.Topic2.lean ====
import proofs.«401426_j8332236554543_1_alg».proof.Proof.Gen.KernelIdeal.Launch
import proofs.«401426_j8332236554543_1_alg».proof.Proof.Gen.KernelIdeal.Skeleton
import proofs.«401426_j8332236554543_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of rows at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the topic kernel leaves at point `t`: every input's staging buffer at its block; the embedding block
    `softmax(logits + gumbel(noise)) · W + b` of the point's 1024 rows; and those rows' squared norms. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => k2_pay1 (blk2 V c 1 t) (blk2 V c 0 t) (blk2 V c 2 t) (blk2 V c 3 t)
    | ⟨5, _⟩ => k2_pay2 (blk2 V c 1 t) (blk2 V c 0 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = k2_pay1 (blk2 V c 1 t) (blk2 V c 0 t) (blk2 V c 2 t) (blk2 V c 3 t) := by dsimp only [dat2]
theorem after2_5 (c : Dev nD) (t : Fin cfg2.N) :
    (dat2 V c).after 5 t = k2_pay2 (blk2 V c 1 t) (blk2 V c 0 t) (blk2 V c 2 t) (blk2 V c 3 t) := by dsimp only [dat2]

/-! ## The inputs: left in place, and found at their blocks -/

/-- The body leaves each input's staging buffer as it found it: at the window's block. -/
theorem keep2_0 (c : Dev nD) (t : Fin cfg2.N) : (dat2 V c).after 0 t = blk2 V c 0 t := by dsimp only [dat2]
theorem keep2_1 (c : Dev nD) (t : Fin cfg2.N) : (dat2 V c).after 1 t = blk2 V c 1 t := by dsimp only [dat2]
theorem keep2_2 (c : Dev nD) (t : Fin cfg2.N) : (dat2 V c).after 2 t = blk2 V c 2 t := by dsimp only [dat2]
theorem keep2_3 (c : Dev nD) (t : Fin cfg2.N) : (dat2 V c).after 3 t = blk2 V c 3 t := by dsimp only [dat2]

/-- The logits block is fetched at every point, so the body finds it in the window's staging buffer. -/
theorem before2_0 (c : Dev nD) (t : Fin cfg2.N) (d) : (dat2 V c).before 0 t d = blk2 V c 0 t :=
  ((dat2 V c).before_in_eq_fetched 0 rfl (fun _ => rfl) (fun _ _ _ => rfl)
    (fun t => by rw [keep2_0]; unfold Dat.blockOf blk2; rw [A_eq2]; try rfl) t d).trans
    (by unfold Dat.fetched Dat.blockOf blk2; rw [A_eq2]; try rfl)

/-- So is the noise block. -/
theorem before2_1 (c : Dev nD) (t : Fin cfg2.N) (d) : (dat2 V c).before 1 t d = blk2 V c 1 t :=
  ((dat2 V c).before_in_eq_fetched 1 rfl (fun _ => rfl) (fun _ _ _ => rfl)
    (fun t => by rw [keep2_1]; unfold Dat.blockOf blk2; rw [A_eq2]; try rfl) t d).trans
    (by unfold Dat.fetched Dat.blockOf blk2; rw [A_eq2]; try rfl)

/-- The weight matrix is one block, fetched at the first point only: its block index never moves, the body leaves
    the buffer in place, so every later point still finds the matrix there. -/
theorem before2_2 (c : Dev nD) (t : Fin cfg2.N) (d) : (dat2 V c).before 2 t d = blk2 V c 2 t :=
  ((dat2 V c).before_in_eq_fetched 2 rfl (fun _ => rfl) (fun _ _ _ => rfl)
    (fun t => by rw [keep2_2]; unfold Dat.blockOf blk2; rw [A_eq2]; try rfl) t d).trans
    (by unfold Dat.fetched Dat.blockOf blk2; rw [A_eq2]; try rfl)

/-- The same of the bias row. -/
theorem before2_3 (c : Dev nD) (t : Fin cfg2.N) (d) : (dat2 V c).before 3 t d = blk2 V c 3 t :=
  ((dat2 V c).before_in_eq_fetched 3 rfl (fun _ => rfl) (fun _ _ _ => rfl)
    (fun t => by rw [keep2_3]; unfold Dat.blockOf blk2; rw [A_eq2]; try rfl) t d).trans
    (by unfold Dat.fetched Dat.blockOf blk2; rw [A_eq2]; try rfl)

/-! ## The body's triple -/

/-- The offsets of a whole-buffer access are all zero. -/
theorem zeros2 : (![0, 0] : Fin 2 → ℕ) = fun _ => 0 := by
  funext a
  match a with
  | ⟨0, _⟩ => rfl
  | ⟨1, _⟩ => rfl

/-- The one store of the embedding block is of the whole buffer, so it covers it. -/
theorem cover2_4 (p : Vec F S1024x64 .f32) (y : S1024x64.Idx) :
    ∃ pc ∈ ([⟨Rect.unit (s := S1024x64) ![0, 0] S1024x64.size inb_S1024x64_S1024x64_0_0, p⟩] : List (View.Piece (Elt F) S1024x64 .f32)), y ∈ pc.1.set :=
  ⟨_, List.mem_singleton_self _, View.mem_set_unit_zero (S := S1024x64) zeros2 inb_S1024x64_S1024x64_0_0 y⟩

/-- So does the one store of the squared norms. -/
theorem cover2_5 (p : Vec F S1024x1 .f32) (y : S1024x1.Idx) :
    ∃ pc ∈ ([⟨Rect.unit (s := S1024x1) ![0, 0] S1024x1.size inb_S1024x1_S1024x1_0_0, p⟩] : List (View.Piece (Elt F) S1024x1 .f32)), y ∈ pc.1.set :=
  ⟨_, List.mem_singleton_self _, View.mem_set_unit_zero (S := S1024x1) zeros2 inb_S1024x1_S1024x1_0_0 y⟩

/-- A load of a whole buffer (the whole-shape rectangle at zero offsets) reads the buffer's contents. -/
theorem readAt_whole2 {sp : Space} {S : Shape} {e : EltTy} (v : View sig .tc sp S e) {off : Fin S.rank → ℕ}
    (h : off = fun _ => 0) (inb : ∀ a, off a + S.size a ≤ S.size a) (f : BufTy.Contents (Elt F) v.ty) :
    View.readAt (Elt F) v (Rect.unit (s := S) off S.size inb).toLoadRect f = View.read (Elt F) v f :=
  View.ld_unit_zero (S := S) h inb (View.read (Elt F) v f)

set_option maxHeartbeats 1000000 in
/-- The kernel body on whole buffers: with the logits `x0`, the noise `x1`, the weights `x2` and the bias `x3` in
    its four inputs and anything in its two outputs, it runs to the continuation with the inputs as they were, the
    embedding block of the four in the fifth buffer and its rows' squared norms in the sixth. It loads the four
    inputs whole (the noise first), then loads and overwrites each output whole: what a whole-buffer load reads is
    the contents, and what one whole-buffer store leaves is its payload. The function's statements are one part,
    called once, which the run goes through where it meets the call. -/
theorem sound_kernel2 (c : Dev nD) (E : Set ℕ) (i : grid2.Coords)
    (arg1 : Memref sig .tc .vmem S1024x128 .f32) (harg1 : arg1.IsWhole)
    (arg2 : Memref sig .tc .vmem S1024x128 .f32) (harg2 : arg2.IsWhole)
    (arg3 : Memref sig .tc .vmem S128x64 .f32) (harg3 : arg3.IsWhole)
    (arg4 : Memref sig .tc .vmem S1x64 .f32) (harg4 : arg4.IsWhole)
    (arg5 : Memref sig .tc .vmem S1024x64 .f32) (harg5 : arg5.IsWhole)
    (arg6 : Memref sig .tc .vmem S1024x1 .f32) (harg6 : arg6.IsWhole)
    (x0 : Vec F S1024x128 .f32) (x1 : Vec F S1024x128 .f32) (x2 : Vec F S128x64 .f32) (x3 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k2_pay1 x1 x0 x2 x3)
            ∗ owns (c : Thread nD τ) arg6 fullShare (k2_pay2 x1 x0 x2 x3)) -∗ K ⟨⟩))
      ⊢ wp frame (wpE (defs₀ (F := F)) Variants.none c none) E
          (cc2__topic_kernel i arg1 harg1 arg2 harg2 arg3 harg3 arg4 harg4 arg5 harg5 arg6 harg6) K := by
  simp only [cc2__topic_kernel_eq_skeleton]; unfold cc2__topic_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover2_4 _),
      View.canon_unit_zero (S := S1024x64) zeros2 inb_S1024x64_S1024x64_0_0]
    rw [readAt_whole2 _ zeros2, readAt_whole2 _ zeros2, readAt_whole2 _ zeros2, readAt_whole2 _ zeros2]
  · iexists _; isplitr
    swap; · iexact H5
    ipureintro
    rw [View.read_writes_eq_canon _ _ _ (cover2_5 _),
      View.canon_unit_zero (S := S1024x1) zeros2 inb_S1024x1_S1024x1_0_0]
    rw [readAt_whole2 _ zeros2, readAt_whole2 _ zeros2, readAt_whole2 _ zeros2, readAt_whole2 _ zeros2]

/-! ## The body obligation, at a generic point -/

/-- What the body is called with at point `t`: the invariant, the core's debts, and each window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the four inputs' buffers hold their blocks, so the kernel's triple applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    keep2_0, keep2_1, keep2_2, keep2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The kernel body meets the pipeline's obligation at every grid point. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.KI.Pair.lean ====
import proofs.«401426_j8332236554543_1_alg».proof.Proof.Gen.KernelIdeal.Launch
import proofs.«401426_j8332236554543_1_alg».proof.Proof.Gen.KernelIdeal.Skeleton
import proofs.«401426_j8332236554543_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of rows at grid point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The 1x1 accumulator after grid point `t`: reset to zero at the first point, then at every point the
    point's block total `Σ_r Σ_c 1 / (1 + (|x_r|² + |x_c|² - 2 x_r·x_c))` added to what the point before left. -/
def acc3 (c : Dev nD) : (t : ℕ) → t < cfg3.N → Vec F S1x1 .f32
  | 0, h => k3_pay2 (blk3 V c 0 ⟨0, h⟩) (blk3 V c 1 ⟨0, h⟩) (k3_pay1 (F := F))
  | t + 1, h => k3_pay2 (blk3 V c 0 ⟨t + 1, h⟩) (blk3 V c 1 ⟨t + 1, h⟩) (acc3 c t (Nat.lt_of_succ_lt h))

theorem acc3_zero (c : Dev nD) (h : 0 < cfg3.N) :
    acc3 V c 0 h = k3_pay2 (blk3 V c 0 ⟨0, h⟩) (blk3 V c 1 ⟨0, h⟩) (k3_pay1 (F := F)) := rfl
theorem acc3_succ (c : Dev nD) (t : ℕ) (h : t + 1 < cfg3.N) :
    acc3 V c (t + 1) h = k3_pay2 (blk3 V c 0 ⟨t + 1, h⟩) (blk3 V c 1 ⟨t + 1, h⟩) (acc3 V c t (Nat.lt_of_succ_lt h)) := rfl

/-- The pairwise kernel's proof data: both row-block windows read ONE array, each at half of its share; the
    accumulator window holds `acc3` after each point. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => acc3 V c t.val t.isLt
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_2 (c : Dev nD) (t : Fin cfg3.N) : (dat3 V c).after 2 t = acc3 V c t.val t.isLt := by dsimp only [dat3]

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]

/-! ## The accumulator's recursion read at a grid point -/

/-- At the first point the accumulator holds the point's total over the reset value. -/
theorem acc3_first (c : Dev nD) (t : Fin cfg3.N) (h0 : t.val = 0) :
    acc3 V c t.val t.isLt = k3_pay2 (blk3 V c 0 t) (blk3 V c 1 t) (k3_pay1 (F := F)) := by
  obtain ⟨n, hn⟩ := t
  cases n with
  | zero => exact acc3_zero V c hn
  | succ n => exact absurd h0 (Nat.succ_ne_zero n)

/-- At a later point it holds the point's total over what the point before left. -/
theorem acc3_later (c : Dev nD) (t : Fin cfg3.N) (h0 : t.val ≠ 0) :
    acc3 V c t.val t.isLt = k3_pay2 (blk3 V c 0 t) (blk3 V c 1 t)
      (acc3 V c (t.val - 1) (Nat.lt_of_le_of_lt (Nat.sub_le _ _) t.isLt)) := by
  obtain ⟨n, hn⟩ := t
  cases n with
  | zero => exact absurd rfl h0
  | succ n => exact acc3_succ V c n hn

/-! ## What the body finds in each window's staging buffer -/

/-- Row-block window 0 holds its block at every point, fetched there or not: between two fetches its block index
    does not move. -/
theorem before3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [A_eq3]; try rfl) t d).trans
    (by unfold Dat.fetched Dat.blockOf blk3; rw [A_eq3]; try rfl)

/-- Row-block window 1 holds its block at every point. -/
theorem before3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [A_eq3]; try rfl) t d).trans
    (by unfold Dat.fetched Dat.blockOf blk3; rw [A_eq3]; try rfl)

/-- After the first point the accumulator's buffer holds what the body left at the point before: it is never
    fetched, and it is written back at the last point only. -/
theorem before3_2_later (c : Dev nD) (t : Fin cfg3.N) (h0 : t.val ≠ 0) (d) :
    (dat3 V c).before 2 t d = acc3 V c (t.val - 1) (Nat.lt_of_le_of_lt (Nat.sub_le _ _) t.isLt) := by
  have hN : t.val < 64 := lt_of_lt_of_eq t.isLt (show cfg3.N = 64 from N_3)
  rw [Dat.before_out_kept _ 2 rfl t h0 (Bool.eq_false_iff.mpr fun h => by have := (flush3_2 _).mp h; dsimp only at this; omega)
    (fun _ => rfl) (fun _ _ => rfl)]
  dsimp only [dat3]

/-! ## The branch condition over the grid -/

/-- The condition of the body's one conditional, from the grid coordinates: both coordinates are zero. -/
abbrev cond3 (i : grid3.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only: decided over the 64 points. -/
theorem hcond3 : ∀ t : Fin cfg3.N, cond3 (grid3.coords t) ↔ t.val = 0 :=
  (by decide +kernel : ∀ t : Fin grid3.N, cond3 (grid3.coords t) ↔ t.val = 0)

theorem hz2 : (![0, 0] : Fin 2 → Nat) = fun _ => 0 := funext fun a => by fin_cases a <;> rfl

/-! ## The kernel on any whole memrefs, one run per control case -/

set_option maxHeartbeats 1000000 in
/-- The branch taken (both coordinates zero): the accumulator, whatever it held, is reset and then updated; the
    later store covers the 1x1 buffer, and the value it read back is the reset value. -/
theorem run3_first (c : Dev nD) (i : grid3.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc : cond3 i) (x0 x1 : Vec F S1024x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k3_pay2 x0 x1 (k3_pay1 (F := F)))) -∗ K ⟨⟩))
      ⊢ wp frame (wpE (defs₀ (F := F)) Variants.none c none) E (cc3__pairwise_kernel i arg2 harg2 arg3 harg3 arg4 harg4) K := by
  simp only [cc3__pairwise_kernel_eq_skeleton]; unfold cc3__pairwise_kernel_skel
  simp only [k3_part1_eq_skeleton]; unfold k3_part1_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [View.read_writes_eq_canon _ _ _ (fun y => ⟨_, List.mem_cons_self, View.mem_set_unit_zero hz2 inb_S1x1_S1x1_0_0 y⟩)]
  rw [View.canon_cons_unit_zero (S := S1x1) hz2]
  sl_unfold_run_names
  simp only [View.readAt_eq_ld, harg2.read_unread, harg3.read_unread, View.ld_unit_zero (S := S1024x64) hz2,
    View.readCov_unit_zero (S := S1x1) _ hz2]

set_option maxHeartbeats 1000000 in
/-- The branch not taken: the accumulator, holding `xo`, is updated by the point's total. -/
theorem run3_later (c : Dev nD) (i : grid3.Coords) (arg2 : Memref sig .tc .vmem S1024x64 .f32) (harg2 : arg2.IsWhole)
    (arg3 : Memref sig .tc .vmem S1024x64 .f32) (harg3 : arg3.IsWhole) (arg4 : Memref sig .tc .vmem S1x1 .f32) (harg4 : arg4.IsWhole)
    (hc : ¬cond3 i) (x0 x1 : Vec F S1024x64 .f32) (xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k3_pay2 x0 x1 xo)) -∗ K ⟨⟩))
      ⊢ wp frame (wpE (defs₀ (F := F)) Variants.none c none) E (cc3__pairwise_kernel i arg2 harg2 arg3 harg3 arg4 harg4) K := by
  simp only [cc3__pairwise_kernel_eq_skeleton]; unfold cc3__pairwise_kernel_skel
  simp only [k3_part1_eq_skeleton]; unfold k3_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [View.read_writes_eq_canon _ _ _ (fun y => ⟨_, List.mem_cons_self, View.mem_set_unit_zero hz2 inb_S1x1_S1x1_0_0 y⟩)]
  rw [View.canon_cons_unit_zero (S := S1x1) hz2]
  sl_unfold_run_names
  simp only [View.readAt_eq_ld, harg2.read_unread, harg3.read_unread, harg4.read_unread, View.ld_unit_zero (S := S1024x64) hz2,
    View.ld_unit_zero (S := S1x1) hz2]

/-! ## The body obligation at a generic point -/

/-- Each window's current staging memref at point `t`, as the pipeline passes it to the body, and its wholeness. -/
abbrev ms3_0 (t : Fin cfg3.N) : Memref sig .tc .vmem S1024x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1 .f32 := win3_2.stage (cfg3.slots t 2)
abbrev hs3_2 (t : Fin cfg3.N) : (ms3_2 t).IsWhole := hstage3_2 ((cfg3.slots t 2).cast nbuf3_2)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 800000 in
/-- The body at any point: the row-block windows hold their blocks; at the first point the accumulator holds
    anything and the reset branch is taken, at a later point it holds what the point before left and the branch
    is not taken; the invariant and the core's debt pass through unchanged. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  by_cases h0 : t.val = 0
  · rw [acc3_first V c t h0]
    iintro ⟨HΦ, Ho, ⟨%d0, H0⟩, ⟨%d1, H1⟩, ⟨%d2, H2⟩⟩
    iapply (run3_first c (grid3.coords t) (ms3_0 t) (hs3_0 t) (ms3_1 t) (hs3_1 t) (ms3_2 t) (hs3_2 t) ((hcond3 t).mpr h0)
      (blk3 V c 0 t) (blk3 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc3_later V c t h0]
    simp only [before3_2_later V c t h0]
    iintro ⟨HΦ, Ho, ⟨%d0, H0⟩, ⟨%d1, H1⟩, ⟨%d2, H2⟩⟩
    iapply (run3_later c (grid3.coords t) (ms3_0 t) (hs3_0 t) (ms3_1 t) (hs3_1 t) (ms3_2 t) (hs3_2 t) (fun h => h0 ((hcond3 t).mp h))
      (blk3 V c 0 t) (blk3 V c 1 t) (acc3 V c (t.val - 1) (Nat.lt_of_le_of_lt (Nat.sub_le _ _) t.isLt)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The kernel body meets the pipeline's obligation at every grid point. -/
theorem body_obligation3 (c : Dev nD) :
    BodyObligation (dat3 (F := F) V c) (defs₀ (F := F)) Variants.none () Set.univ := fun t => by
  rw [bigSep_W3, bigSep_W3]
  exact sound_body3 V c t

end Cert.KernelIdeal.Hand

end
-- ==== Proof.KI.Segs.Base.lean ====
import proofs.«401426_j8332236554543_1_alg».proof.Proof.KI.Topic0
import proofs.«401426_j8332236554543_1_alg».proof.Proof.KI.Topic1
import proofs.«401426_j8332236554543_1_alg».proof.Proof.KI.Topic2
import proofs.«401426_j8332236554543_1_alg».proof.Proof.KI.Pair
import proofs.«401426_j8332236554543_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! The contents of the TensorCore's buffers at the four region boundaries. Region 0 is entered after the three host
    stretches (transpose and reshape of the parameters, the two row lookups); each region leaves its arrays at what
    its write-backs fold to and every other buffer as it found it. -/

/-- Region 0's entry contents, read at the core's references. -/
abbrev B3 : (c : Dev nD) → (b : Ref sig .tc) → Buf (Elt F) ((c : Thread nD τ).loc b) := fun c b => V3 m c b
/-- After region 0 (the embedding of the full table). -/
def W4 (c : Dev nD) : Valuation τ sig (Elt F) :=
  Pipeline.withArrays spec0 c (V3 m c) fun w => (dat0 (B3 m) c).arrAt w cfg0.N
abbrev B4 : (c : Dev nD) → (b : Ref sig .tc) → Buf (Elt F) ((c : Thread nD τ).loc b) := fun c b => W4 m c b
/-- After region 1 (the embedding of the rows looked up by the first index input). -/
def W5 (c : Dev nD) : Valuation τ sig (Elt F) :=
  Pipeline.withArrays spec1 c (W4 m c) fun w => (dat1 (B4 m) c).arrAt w cfg1.N
abbrev B5 : (c : Dev nD) → (b : Ref sig .tc) → Buf (Elt F) ((c : Thread nD τ).loc b) := fun c b => W5 m c b
/-- After region 2 (the embedding of the rows looked up by the second index input). -/
def W6 (c : Dev nD) : Valuation τ sig (Elt F) :=
  Pipeline.withArrays spec2 c (W5 m c) fun w => (dat2 (B5 m) c).arrAt w cfg2.N
abbrev B6 : (c : Dev nD) → (b : Ref sig .tc) → Buf (Elt F) ((c : Thread nD τ).loc b) := fun c b => W6 m c b
/-- After region 3 (the pair total): only its 1x1 result changes; both its windows read one array, which it leaves. -/
def W7 (c : Dev nD) : Valuation τ sig (Elt F) :=
  Function.update (W6 m c) main_v7 ((dat3 (B6 m) c).arrAt 2 cfg3.N)
abbrev B7 : (c : Dev nD) → (b : Ref sig .tc) → Buf (Elt F) ((c : Thread nD τ).loc b) := fun c b => W7 m c b

/-- What the regions leave in the buffers they may change, as the host side's frame takes it. -/
def outs : Outs (F := F) := fun j r c =>
  match j with
  | 4 => W4 m c r
  | 5 => W5 m c r
  | 6 => W6 m c r
  | _ => W7 m c r

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (B3 m) c
  | ⟨1, _⟩ => fun c => dat1 (B4 m) c
  | ⟨2, _⟩ => fun c => dat2 (B5 m) c
  | ⟨3, _⟩ => fun c => dat3 (B6 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

end Cert.KernelIdeal.Hand

end
-- ==== Proof.KI.Segs.Reg0.lean ====
import proofs.«401426_j8332236554543_1_alg».proof.Proof.KI.Segs.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The boundary after region 0, buffer by buffer

The contents after the region are the entry contents with the region's six arrays replaced. The arrays are six
distinct buffers, so each of them reads what was put there and every other buffer reads what it held. -/

/-- After region 0 each of its arrays holds what the region's write-backs fold to (for an input: what it held). -/
theorem exitArr0 (c : Dev nD) (w : Fin cfg0.W) :
    (dat0 (B3 m) c).arrAt w cfg0.N = B4 m c (Pipeline.arrRef spec0 w) := by
  show _ = W4 m c (Proc.devRef .tc (Pipeline.arrRef spec0 w))
  unfold W4
  exact (Pipeline.withArrays_arr spec0 launch0.win.arr_inj c (V3 m c)
    (fun w => (dat0 (B3 m) c).arrAt w cfg0.N) w).symm

/-- Every buffer that is none of the region's arrays holds after it what it held before. -/
theorem exitRest0 (c : Dev nD) (b : Ref sig .tc) (hb : b ∉ Finset.univ.image (Pipeline.arrRef spec0)) :
    B4 m c b = B3 m c b := by
  show W4 m c (Proc.devRef .tc b) = V3 m c (Proc.devRef .tc b)
  unfold W4
  exact Pipeline.withArrays_of_ne spec0 c (V3 m c) (fun w => (dat0 (B3 m) c).arrAt w cfg0.N) b
    fun w e => hb (Finset.mem_image.mpr ⟨w, Finset.mem_univ _, e⟩)

-- a library lemma stated over the pinned configuration unifies with the printed one only when unification may unfold
-- plain definitions in a metavariable's type
set_option backward.isDefEq.respectTransparency.types false in
/-- Region 0 as a segment of the program: entered with every unscoped buffer held at the boundary's contents, left
    with them at the next boundary's; its arrays are split out of the unscoped buffers at entry and put back at exit,
    the generator register goes into the kernel's invariant and comes back, nothing is owed, and the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (B3 m c)
  hentry c := by
    -- the unscoped buffers at the entry contents are the six arrays at those contents beside all the others
    have hsplit := Pipeline.arrays_of_unscopedBufs (p := 0) (pcfgs (F := F)) adm (pdats m) launch0.win launch0.arr_whole c
      ((pdats m 0 c).share_full fun _ => rfl) (B3 m c) fun _ => rfl
    rw [Pipeline.unscopedBufs_held] at hsplit
    iintro ⟨⟨Hheld, Hreg, ⟨%T, Howes⟩⟩, -, -⟩
    imodintro
    ihave Hparts := hsplit $$ Hheld
    icases Hparts with ⟨Harr, Hrest⟩
    isplitl [Harr]; · iexact Harr
    isplitr
    · -- the region prefetches no table
      unfold Pipeline.prefHeld
      rw [show (Finset.univ : Finset (Fin 0)) = ∅ from rfl, BI.bigSep_empty]
      iempintro
    isplitl [Howes]
    · -- owing nothing is within any allowance
      unfold Pipeline.Dat.owesAt Pipeline.owesWithin
      iexists T
      isplitr; · ipureintro; exact fun _ _ => Or.inl trivial
      iexact Howes
    isplitl [Hreg]; · iexact Hreg
    iexact Hrest
  hin c := by
    rw [show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]
    unfold Pipeline.ΦA
    iintro ⟨Hscoped, Hreg⟩
    isplitl [Hreg]; · iexact Hreg
    isplitr; · iempintro
    iexact Hscoped
  hexit c := by
    -- the six arrays at their final contents beside all the other buffers as entered are the unscoped buffers at
    -- the next boundary's contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B3 m c) (B4 m c) ((pdats m 0 c).arrAt · cfg0.N) (exitArr0 m c) (exitRest0 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%T, -, Howes⟩
    iexists T
    iexact Howes

end Cert.KernelIdeal.Hand

end
-- ==== Proof.KI.Segs.Reg1.lean ====
import proofs.«401426_j8332236554543_1_alg».proof.Proof.KI.Segs.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The boundary after region 1, buffer by buffer

The contents after the region are the entry contents with the region's six arrays replaced. The arrays are six
distinct buffers, so each of them reads what was put there and every other buffer reads what it held. -/

/-- After region 1 each of its arrays holds what the region's write-backs fold to (for an input: what it held). -/
theorem exitArr1 (c : Dev nD) (w : Fin cfg1.W) :
    (dat1 (B4 m) c).arrAt w cfg1.N = B5 m c (Pipeline.arrRef spec1 w) := by
  show _ = W5 m c (Proc.devRef .tc (Pipeline.arrRef spec1 w))
  unfold W5
  exact (Pipeline.withArrays_arr spec1 launch1.win.arr_inj c (W4 m c)
    (fun w => (dat1 (B4 m) c).arrAt w cfg1.N) w).symm

/-- Every buffer that is none of the region's arrays holds after it what it held before. -/
theorem exitRest1 (c : Dev nD) (b : Ref sig .tc) (hb : b ∉ Finset.univ.image (Pipeline.arrRef spec1)) :
    B5 m c b = B4 m c b := by
  show W5 m c (Proc.devRef .tc b) = W4 m c (Proc.devRef .tc b)
  unfold W5
  exact Pipeline.withArrays_of_ne spec1 c (W4 m c) (fun w => (dat1 (B4 m) c).arrAt w cfg1.N) b
    fun w e => hb (Finset.mem_image.mpr ⟨w, Finset.mem_univ _, e⟩)

-- a library lemma stated over the pinned configuration unifies with the printed one only when unification may unfold
-- plain definitions in a metavariable's type
set_option backward.isDefEq.respectTransparency.types false in
/-- Region 1 as a segment of the program: entered with every unscoped buffer held at the boundary's contents, left
    with them at the next boundary's; its arrays are split out of the unscoped buffers at entry and put back at exit,
    the generator register goes into the kernel's invariant and comes back, nothing is owed, and the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (B4 m c)
  hentry c := by
    -- the unscoped buffers at the entry contents are the six arrays at those contents beside all the others
    have hsplit := Pipeline.arrays_of_unscopedBufs (p := 1) (pcfgs (F := F)) adm (pdats m) launch1.win launch1.arr_whole c
      ((pdats m 1 c).share_full fun _ => rfl) (B4 m c) fun _ => rfl
    rw [Pipeline.unscopedBufs_held] at hsplit
    iintro ⟨⟨Hheld, Hreg, ⟨%T, Howes⟩⟩, -, -⟩
    imodintro
    ihave Hparts := hsplit $$ Hheld
    icases Hparts with ⟨Harr, Hrest⟩
    isplitl [Harr]; · iexact Harr
    isplitr
    · -- the region prefetches no table
      unfold Pipeline.prefHeld
      rw [show (Finset.univ : Finset (Fin 0)) = ∅ from rfl, BI.bigSep_empty]
      iempintro
    isplitl [Howes]
    · -- owing nothing is within any allowance
      unfold Pipeline.Dat.owesAt Pipeline.owesWithin
      iexists T
      isplitr; · ipureintro; exact fun _ _ => Or.inl trivial
      iexact Howes
    isplitl [Hreg]; · iexact Hreg
    iexact Hrest
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    -- the six arrays at their final contents beside all the other buffers as entered are the unscoped buffers at
    -- the next boundary's contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B4 m c) (B5 m c) ((pdats m 1 c).arrAt · cfg1.N) (exitArr1 m c) (exitRest1 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%T, -, Howes⟩
    iexists T
    iexact Howes

end Cert.KernelIdeal.Hand

end
-- ==== Proof.KI.Segs.Reg2.lean ====
import proofs.«401426_j8332236554543_1_alg».proof.Proof.KI.Segs.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The boundary after region 2, buffer by buffer

The contents after the region are the entry contents with the region's six arrays replaced. The arrays are six
distinct buffers, so each of them reads what was put there and every other buffer reads what it held. -/

/-- After region 2 each of its arrays holds what the region's write-backs fold to (for an input: what it held). -/
theorem exitArr2 (c : Dev nD) (w : Fin cfg2.W) :
    (dat2 (B5 m) c).arrAt w cfg2.N = B6 m c (Pipeline.arrRef spec2 w) := by
  show _ = W6 m c (Proc.devRef .tc (Pipeline.arrRef spec2 w))
  unfold W6
  exact (Pipeline.withArrays_arr spec2 launch2.win.arr_inj c (W5 m c)
    (fun w => (dat2 (B5 m) c).arrAt w cfg2.N) w).symm

/-- Every buffer that is none of the region's arrays holds after it what it held before. -/
theorem exitRest2 (c : Dev nD) (b : Ref sig .tc) (hb : b ∉ Finset.univ.image (Pipeline.arrRef spec2)) :
    B6 m c b = B5 m c b := by
  show W6 m c (Proc.devRef .tc b) = W5 m c (Proc.devRef .tc b)
  unfold W6
  exact Pipeline.withArrays_of_ne spec2 c (W5 m c) (fun w => (dat2 (B5 m) c).arrAt w cfg2.N) b
    fun w e => hb (Finset.mem_image.mpr ⟨w, Finset.mem_univ _, e⟩)

-- a library lemma stated over the pinned configuration unifies with the printed one only when unification may unfold
-- plain definitions in a metavariable's type
set_option backward.isDefEq.respectTransparency.types false in
/-- Region 2 as a segment of the program: entered with every unscoped buffer held at the boundary's contents, left
    with them at the next boundary's; its arrays are split out of the unscoped buffers at entry and put back at exit,
    the generator register goes into the kernel's invariant and comes back, nothing is owed, and the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    -- the unscoped buffers at the entry contents are the six arrays at those contents beside all the others
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hheld, Hreg, ⟨%T, Howes⟩⟩, -, -⟩
    imodintro
    ihave Hparts := hsplit $$ Hheld
    icases Hparts with ⟨Harr, Hrest⟩
    isplitl [Harr]; · iexact Harr
    isplitr
    · -- the region prefetches no table
      unfold Pipeline.prefHeld
      rw [show (Finset.univ : Finset (Fin 0)) = ∅ from rfl, BI.bigSep_empty]
      iempintro
    isplitl [Howes]
    · -- owing nothing is within any allowance
      unfold Pipeline.Dat.owesAt Pipeline.owesWithin
      iexists T
      isplitr; · ipureintro; exact fun _ _ => Or.inl trivial
      iexact Howes
    isplitl [Hreg]; · iexact Hreg
    iexact Hrest
  hin c := by
    rw [show (pdats m 2 c).Φ 0 = Pipeline.ΦA spec2 c from rfl]
    unfold Pipeline.ΦA
    iintro ⟨Hreg, -, Hscoped⟩
    isplitl [Hscoped]; · iexact Hscoped
    iexact Hreg
  hout c := by
    rw [Pipeline.ownSems0_none, show (pdats m 2 c).Φ (Fin.last _) = Pipeline.ΦA spec2 c from rfl]
    unfold Pipeline.ΦA
    iintro ⟨Hscoped, Hreg⟩
    isplitl [Hreg]; · iexact Hreg
    isplitr; · iempintro
    iexact Hscoped
  hexit c := by
    -- the six arrays at their final contents beside all the other buffers as entered are the unscoped buffers at
    -- the next boundary's contents
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (exitArr2 m c) (exitRest2 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%T, -, Howes⟩
    iexists T
    iexact Howes

end Cert.KernelIdeal.Hand

end
-- ==== Proof.KI.Segs.Reg3.lean ====
import proofs.«401426_j8332236554543_1_alg».proof.Proof.KI.Segs.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The windows' arrays are two buffers: both row-block windows read the embedding, the result is the 1x1 total. -/
theorem image_arr3 : Finset.univ.image (Pipeline.arrRef spec3) = {main_v4_0, main_v7} := by decide

/-- A separating conjunction over those two buffers, written out. -/
theorem bigSep_arr3 {M : Type} [URA M] (Φ : Ref sig .tc → sProp M) :
    bigSep ({main_v4_0, main_v7} : Finset (Ref sig .tc)) Φ = iprop(Φ main_v4_0 ∗ Φ main_v7) :=
  bigSep_eq_bigSepL_of_eq [main_v4_0, main_v7] (by decide) (by decide) Φ

theorem share3_0 (V : (c : Dev nD) → (b : Ref sig .tc) → Buf (Elt F) ((c : Thread nD τ).loc b)) (c : Dev nD) :
    (dat3 V c).share 0 = fullShare.left := rfl
theorem share3_1 (V : (c : Dev nD) → (b : Ref sig .tc) → Buf (Elt F) ((c : Thread nD τ).loc b)) (c : Dev nD) :
    (dat3 V c).share 1 = fullShare.right := rfl
theorem share3_2 (V : (c : Dev nD) → (b : Ref sig .tc) → Buf (Elt F) ((c : Thread nD τ).loc b)) (c : Dev nD) :
    (dat3 V c).share 2 = fullShare := rfl

/-- The pipeline's arrays are the two distinct buffers behind them, each whole at the full share: the shared input's
    full share is dealt in halves to its two windows. -/
theorem arrays3_iff (V : (c : Dev nD) → (b : Ref sig .tc) → Buf (Elt F) ((c : Thread nD τ).loc b)) (c : Dev nD)
    (A : (w : Fin cfg3.W) → Buf (Elt F) ((cfg3.win w).arr.view.loc (c.tc : Thread nD τ)))
    (G : (b : Ref sig .tc) → Buf (Elt F) ((c.tc : Thread nD τ).loc b))
    (h0 : A 0 = G main_v4_0) (h1 : A 1 = G main_v4_0) (h2 : A 2 = G main_v7) :
    ((dat3 V c).arrays A : sProp 𝕄) ⊣⊢ Pipeline.arrBufs spec3 c G := by
  unfold Dat.arrays Pipeline.arrBufs
  rw [bigSep_W3, image_arr3, share3_0, share3_1, share3_2, h0, h1, h2]
  have e0 : (cfg3.win 0).arr.view.set = Finset.univ := (arr_whole3 0).set_eq_univ
  have e2 : (cfg3.win 2).arr.view.set = Finset.univ := (arr_whole3 2).set_eq_univ
  rw [e0, e2, bigSep_arr3]
  constructor
  · iintro ⟨Hl, Hr, H7⟩
    isplitl [Hl Hr]
    · iapply (pointsTo_share (PosShare.mem_left_op_right fullShare)).2
      isplitl [Hl]; · iexact Hl
      iexact Hr
    iexact H7
  · have hdeal : ((c.tc : Thread nD τ).loc main_v4_0 ↦{fullShare} G main_v4_0 : sProp 𝕄)
        ⊢ iprop(((c.tc : Thread nD τ).loc main_v4_0 ↦{fullShare.left} G main_v4_0) ∗ ((c.tc : Thread nD τ).loc main_v4_0 ↦{fullShare.right} G main_v4_0)) :=
      (pointsTo_share (PosShare.mem_left_op_right fullShare)).1
    iintro ⟨Hw, H7⟩
    ihave H := hdeal $$ Hw
    icases H with ⟨Hl, Hr⟩
    isplitl [Hl]; · iexact Hl
    isplitl [Hr]; · iexact Hr
    iexact H7

-- a library lemma stated over the pinned configuration unifies with the printed one only when unification may unfold
-- plain definitions in a metavariable's type
set_option backward.isDefEq.respectTransparency.types false in
/-- Region 3 as a segment of the program: entered with every unscoped buffer held at the boundary's contents, left
    with them at the next boundary's; its two row-block windows read ONE array, whose buffer is held at entry whole and is dealt to them in two halves of its share (joined again at exit); the 1x1 result is held whole;
    the generator register goes into the kernel's invariant and comes back, nothing is owed, and the kernel has no
    semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (B6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (B6 m c)
  hentry c := by
    rw [Pipeline.ownSems0_none]
    have hub := Pipeline.unscopedBufs_split₀ (Pipeline.pin (pcfgs (F := F)) adm) 3 winFacts₀3.arr_unscoped c (Ix := Unit) (Name := ℕ) (U := UR sig nD τ) (Lvl := ℕ) (B6 m c)
    rw [Pipeline.unscopedBufs_held] at hub
    have harr := (arrays3_iff (B6 m) c (fun w => (pdats m 3 c).arrAt w 0) (B6 m c) rfl rfl rfl).2
    rw [hub]
    iintro ⟨⟨⟨Ha, Hrest⟩, Hp, HO⟩, -, -⟩
    imodintro
    isplitl [Ha]; · iapply harr; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hub : StableHlo.held (c.tc : Thread nD τ) (Pipeline.ucRefs τ sig) (W7 m c)
        = iprop((Pipeline.arrBufs spec3 c (B7 m c) : sProp 𝕄) ∗ Pipeline.unscopedRest spec3 c (B7 m c)) := by
      rw [← Pipeline.unscopedBufs_held]
      exact Pipeline.unscopedBufs_split₀ (Pipeline.pin (pcfgs (F := F)) adm) 3 winFacts₀3.arr_unscoped c (Ix := Unit) (Name := ℕ) (U := UR sig nD τ) (Lvl := ℕ) (B7 m c)
    have hoff : ∀ b : Ref sig .tc, b ≠ main_v7 → B7 m c b = B6 m c b := fun b hne => by
      show W7 m c _ = W6 m c _
      unfold W7
      exact Function.update_of_ne (StableHlo.devRef_ne_of_ne hne) _ _
    have hon : B7 m c main_v7 = (dat3 (B6 m) c).arrAt 2 cfg3.N := by
      show W7 m c _ = _
      unfold W7
      exact Function.update_self _ _ _
    have h0 : (pdats m 3 c).arrAt 0 cfg3.N = B7 m c main_v4_0 :=
      ((pdats m 3 c).arrAt_in 0 rfl cfg3.N).trans (hoff main_v4_0 (by decide)).symm
    have h1 : (pdats m 3 c).arrAt 1 cfg3.N = B7 m c main_v4_0 :=
      ((pdats m 3 c).arrAt_in 1 rfl cfg3.N).trans (hoff main_v4_0 (by decide)).symm
    have h2 : (pdats m 3 c).arrAt 2 cfg3.N = B7 m c main_v7 := hon.symm
    have harr := (arrays3_iff (B6 m) c (fun w => (pdats m 3 c).arrAt w cfg3.N) (B7 m c) h0 h1 h2).1
    have hrest : (Pipeline.unscopedRest (Ix := Unit) (Name := ℕ) (U := UR sig nD τ) (Lvl := ℕ) spec3 c (B7 m c) : sProp 𝕄)
        = Pipeline.unscopedRest spec3 c (B6 m c) := by
      unfold Pipeline.unscopedRest
      refine bigSep_congr fun b hb => ?_
      have hne : b ≠ main_v7 := fun e => (Finset.mem_sdiff.mp hb).2 (by rw [e, image_arr3]; decide)
      rw [hoff b hne]
    rw [hub, hrest]
    iintro ⟨Ha, HO, HY, Hrest⟩
    imodintro
    isplitl [Ha Hrest]
    · isplitl [Ha]; · iapply harr; iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Segs.Veq.lean ====
import proofs.«401426_j8332236554543_1_alg».proof.Proof.KI.Segs.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! The generated host side states the boundary contents as the entry contents updated at the buffers a region may
    change; the regions' records state them as the region's arrays at what the write-backs fold to. They are the same
    valuations: an input array is never written, and a region changes no buffer but its output arrays. -/

/-- A valuation that agrees with `V` away from two buffers is `V` updated at those two with its own contents there. -/
theorem veq_update2 (V W : Valuation τ sig (Elt F)) (r0 r1 : DevRef τ sig) (h : ∀ b, b ≠ r0 → b ≠ r1 → W b = V b) :
    Function.update (Function.update V r0 (W r0)) r1 (W r1) = W := by
  funext b
  by_cases h1 : b = r1
  · subst h1; rw [Function.update_self]
  · rw [Function.update_of_ne h1]
    by_cases h0 : b = r0
    · subst h0; rw [Function.update_self]
    · rw [Function.update_of_ne h0, h b h0 h1]

/-- Region 0 leaves every buffer but its two output arrays as it found it: the four input arrays are never written
    back, and a buffer that is none of its arrays is not the region's to change. -/
theorem veq_agree0 (c : Dev nD) (b : DevRef τ sig) (h0 : b ≠ Proc.devRef .tc main_v4_0) (h1 : b ≠ Proc.devRef .tc main_v4_1) :
    W4 m c b = V3 m c b := by
  unfold W4
  by_cases h : ∃ w, Proc.devRef .tc (Pipeline.arrRef spec0 w) = b
  · obtain ⟨w, rfl⟩ := h
    rw [Pipeline.withArrays_arr spec0 launch0.win.arr_inj]
    fin_cases w
    · exact ((dat0 (B3 m) c).arrAt_in 0 rfl _).trans (A_eq0 (B3 m) c 0)
    · exact ((dat0 (B3 m) c).arrAt_in 1 rfl _).trans (A_eq0 (B3 m) c 1)
    · exact ((dat0 (B3 m) c).arrAt_in 2 rfl _).trans (A_eq0 (B3 m) c 2)
    · exact ((dat0 (B3 m) c).arrAt_in 3 rfl _).trans (A_eq0 (B3 m) c 3)
    · exact absurd rfl h0
    · exact absurd rfl h1
  · unfold Pipeline.withArrays
    rw [dif_neg h]

/-- Region 1 leaves every buffer but its two output arrays as it found it: the four input arrays are never written
    back, and a buffer that is none of its arrays is not the region's to change. -/
theorem veq_agree1 (c : Dev nD) (b : DevRef τ sig) (h0 : b ≠ Proc.devRef .tc main_v5_0) (h1 : b ≠ Proc.devRef .tc main_v5_1) :
    W5 m c b = W4 m c b := by
  unfold W5
  by_cases h : ∃ w, Proc.devRef .tc (Pipeline.arrRef spec1 w) = b
  · obtain ⟨w, rfl⟩ := h
    rw [Pipeline.withArrays_arr spec1 launch1.win.arr_inj]
    fin_cases w
    · exact ((dat1 (B4 m) c).arrAt_in 0 rfl _).trans (A_eq1 (B4 m) c 0)
    · exact ((dat1 (B4 m) c).arrAt_in 1 rfl _).trans (A_eq1 (B4 m) c 1)
    · exact ((dat1 (B4 m) c).arrAt_in 2 rfl _).trans (A_eq1 (B4 m) c 2)
    · exact ((dat1 (B4 m) c).arrAt_in 3 rfl _).trans (A_eq1 (B4 m) c 3)
    · exact absurd rfl h0
    · exact absurd rfl h1
  · unfold Pipeline.withArrays
    rw [dif_neg h]

/-- Region 2 leaves every buffer but its two output arrays as it found it: the four input arrays are never written
    back, and a buffer that is none of its arrays is not the region's to change. -/
theorem veq_agree2 (c : Dev nD) (b : DevRef τ sig) (h0 : b ≠ Proc.devRef .tc main_v6_0) (h1 : b ≠ Proc.devRef .tc main_v6_1) :
    W6 m c b = W5 m c b := by
  unfold W6
  by_cases h : ∃ w, Proc.devRef .tc (Pipeline.arrRef spec2 w) = b
  · obtain ⟨w, rfl⟩ := h
    rw [Pipeline.withArrays_arr spec2 launch2.win.arr_inj]
    fin_cases w
    · exact ((dat2 (B5 m) c).arrAt_in 0 rfl _).trans (A_eq2 (B5 m) c 0)
    · exact ((dat2 (B5 m) c).arrAt_in 1 rfl _).trans (A_eq2 (B5 m) c 1)
    · exact ((dat2 (B5 m) c).arrAt_in 2 rfl _).trans (A_eq2 (B5 m) c 2)
    · exact ((dat2 (B5 m) c).arrAt_in 3 rfl _).trans (A_eq2 (B5 m) c 3)
    · exact absurd rfl h0
    · exact absurd rfl h1
  · unfold Pipeline.withArrays
    rw [dif_neg h]

theorem V4_eq (c : Dev nD) : V4 m (outs m) c = W4 m c := by
  show Function.update (Function.update (V3 m c) (Proc.devRef .tc main_v4_0) (W4 m c (Proc.devRef .tc main_v4_0)))
    (Proc.devRef .tc main_v4_1) (W4 m c (Proc.devRef .tc main_v4_1)) = W4 m c
  exact veq_update2 _ _ _ _ (veq_agree0 m c)
theorem V5_eq (c : Dev nD) : V5 m (outs m) c = W5 m c := by
  show Function.update (Function.update (V4 m (outs m) c) (Proc.devRef .tc main_v5_0) (W5 m c (Proc.devRef .tc main_v5_0)))
    (Proc.devRef .tc main_v5_1) (W5 m c (Proc.devRef .tc main_v5_1)) = W5 m c
  rw [V4_eq]
  exact veq_update2 _ _ _ _ (veq_agree1 m c)
theorem V6_eq (c : Dev nD) : V6 m (outs m) c = W6 m c := by
  show Function.update (Function.update (V5 m (outs m) c) (Proc.devRef .tc main_v6_0) (W6 m c (Proc.devRef .tc main_v6_0)))
    (Proc.devRef .tc main_v6_1) (W6 m c (Proc.devRef .tc main_v6_1)) = W6 m c
  rw [V5_eq]
  exact veq_update2 _ _ _ _ (veq_agree2 m c)
theorem V7_eq (c : Dev nD) : V7 m (outs m) c = W7 m c := by
  show Function.update (V6 m (outs m) c) (Proc.devRef .tc main_v7) (W7 m c (Proc.devRef .tc main_v7)) = W7 m c
  rw [V6_eq]
  have e : W7 m c (Proc.devRef .tc main_v7) = (dat3 (B6 m) c).arrAt 2 cfg3.N := by
    unfold W7; exact Function.update_self _ _ _
  rw [e]
  rfl

end Cert.KernelIdeal.Hand

end
-- ==== Proof.KI.Run.lean ====
import proofs.«401426_j8332236554543_1_alg».proof.Proof.KI.Segs.Reg0
import proofs.«401426_j8332236554543_1_alg».proof.Proof.KI.Segs.Reg1
import proofs.«401426_j8332236554543_1_alg».proof.Proof.KI.Segs.Reg2
import proofs.«401426_j8332236554543_1_alg».proof.Proof.KI.Segs.Reg3
import proofs.«401426_j8332236554543_1_alg».proof.Proof.KI.RunCond
import proofs.«401426_j8332236554543_1_alg».proof.Proof.KI.Segs.Veq

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The whole program runs: every weakly fair execution from `m` terminates, nothing faults, and every unscoped buffer
    ends at the last boundary's contents — the three host stretches, the four regions in order, the host tail. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) :=
  Cert.KernelIdeal.GenP.run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by
      iintro ⟨-, HO⟩
      iexact HO)
    (R0 := reg0 m) (hpre0 := fun c => .rfl) (hpost0 := fun c => by rw [V4_eq]; exact .rfl)
    (R1 := reg1 m) (hpre1 := fun c => by rw [V4_eq]; exact .rfl) (hpost1 := fun c => by rw [V5_eq]; exact .rfl)
    (R2 := reg2 m) (hpre2 := fun c => by rw [V5_eq]; exact .rfl) (hpost2 := fun c => by rw [V6_eq]; exact .rfl)
    (R3 := reg3 m) (hpre3 := fun c => by rw [V6_eq]; exact .rfl) (hpost3 := fun c => by rw [V7_eq]; exact .rfl)

end Cert.KernelIdeal.Hand

end
-- ==== Proof.KI.Segs.Chain.lean ====
import proofs.«401426_j8332236554543_1_alg».proof.Proof.KI.Segs.Veq
import proofs.«401426_j8332236554543_1_alg».proof.Proof.KI.Segs.Reg0
import proofs.«401426_j8332236554543_1_alg».proof.Proof.KI.Segs.Reg1
import proofs.«401426_j8332236554543_1_alg».proof.Proof.KI.Segs.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! Where each later item finds what an earlier one left: a buffer no later region may change still holds it. -/

/-- The host tail reads the embedding of the first looked-up rows as region 1's write-backs left it: neither region 3's
    result nor region 2's two are that buffer, and it is region 1's fifth array. -/
theorem tail_v5_0 (c : Dev nD) : V7 m (outs m) c main_v5_0 = (dat1 (B4 m) c).arrAt 4 cfg1.N :=
  (V7_of m (outs m) c main_v5_0 (by decide)).trans <|
    (V6_of m (outs m) c main_v5_0 (by decide)).trans <|
      (congrFun (V5_eq m c) (Proc.devRef .tc main_v5_0)).trans (exitArr1 m c 4).symm
/-- … and of the second looked-up rows as region 2's left it, -/
theorem tail_v6_0 (c : Dev nD) : V7 m (outs m) c main_v6_0 = (dat2 (B5 m) c).arrAt 4 cfg2.N :=
  (V7_of m (outs m) c main_v6_0 (by decide)).trans <|
    (congrFun (V6_eq m c) (Proc.devRef .tc main_v6_0)).trans (exitArr2 m c 4).symm
/-- … and the pair total as region 3's one write-back left it. -/
theorem tail_v7 (c : Dev nD) : V7 m (outs m) c main_v7 = (dat3 (B6 m) c).arrAt 2 cfg3.N := by
  refine (congrFun (V7_eq m c) (Proc.devRef .tc main_v7)).trans ?_
  unfold W7
  exact Function.update_self _ _ _
/-- Region 3 reads the full-table embedding as region 0's write-backs left it: regions 1 and 2 change only their own
    two results each, and it is region 0's fifth array. -/
theorem pair_in (c : Dev nD) : B6 m c main_v4_0 = (dat0 (B3 m) c).arrAt 4 cfg0.N :=
  (congrFun (V6_eq m c) (Proc.devRef .tc main_v4_0)).symm.trans <|
    (V6_of m (outs m) c main_v4_0 (by decide)).trans <|
      (V5_of m (outs m) c main_v4_0 (by decide)).trans <|
        (congrFun (V4_eq m c) (Proc.devRef .tc main_v4_0)).trans (exitArr0 m c 4).symm
/-- Regions 0 changes nothing but its two results, -/
theorem B4_keep (c : Dev nD) (b : Ref sig .tc) (h : b ∉ ([main_v4_0, main_v4_1] : List (Ref sig .tc))) : B4 m c b = V3 m c b :=
  (congrFun (V4_eq m c) (Proc.devRef .tc b)).symm.trans (V4_of m (outs m) c b h)
/-- … nor does region 1 besides its own two. -/
theorem B5_keep (c : Dev nD) (b : Ref sig .tc) (h : b ∉ ([main_v4_0, main_v4_1, main_v5_0, main_v5_1] : List (Ref sig .tc))) : B5 m c b = V3 m c b :=
  (congrFun (V5_eq m c) (Proc.devRef .tc b)).symm.trans <|
    (V5_of m (outs m) c b fun hm => h (List.mem_append_right [main_v4_0, main_v4_1] hm)).trans
      (V4_of m (outs m) c b fun hm => h (List.mem_append_left [main_v5_0, main_v5_1] hm))
/-- The host stretches before the regions write no argument. -/
theorem V3_arg (c : Dev nD) (b : Ref sig .tc) (h : b ∈ ([main_arg0, main_arg1, main_arg2, main_arg3, main_arg4, main_arg5, main_arg6, main_arg7, main_arg8] : List (Ref sig .tc))) :
    V3 m c b = m ((c : Thread nD τ).loc b) := by
  simp only [List.mem_cons, List.not_mem_nil, or_false] at h
  rcases h with rfl | rfl | rfl | rfl | rfl | rfl | rfl | rfl | rfl <;>
    exact (V3_of m c _ (by decide)).trans <| (V2_of m c _ (by decide)).trans <| (V1_of m c _ (by decide)).trans rfl
/-- The first argument reaches the host tail as launched: no region's result is that buffer, and no host stretch
    before the regions writes it. -/
theorem tail_arg0 (c : Dev nD) : V7 m (outs m) c main_arg0 = m ((c : Thread nD τ).loc main_arg0) :=
  (V7_of m (outs m) c main_arg0 (by decide)).trans <| (V6_of m (outs m) c main_arg0 (by decide)).trans <|
    (V5_of m (outs m) c main_arg0 (by decide)).trans <| (V4_of m (outs m) c main_arg0 (by decide)).trans <|
      V3_arg m c main_arg0 (by decide)

end Cert.KernelIdeal.Hand

end
-- ==== Proof.Spec.lean ====
import proofs.«401426_j8332236554543_1_alg».proof.ReferenceIdeal
import Idealize.ShloMosaic.PureOps.Ideal

noncomputable section

/-! The mathematics both programs compute, written once over whole arrays of extended reals.

topic maps a table of logits and a table of uniform noise, row by row, to an embedding:
g = -log(-log(u + ε) + ε), p = softmax(logits + g) along the 128 topics, x = p · Wᵀ + b.
pairTotal x is Σ_{i,j} 1 / (1 + (|x_i|² + |x_j|² - 2 x_i·x_j)) over all 8192² pairs of rows.
loss pij xi xj part is pij · (log pij - log((1 / Σ_d (1 + (xi - xj)²_d)) / part)), row by row.
takeRows table idx reads row idx[r] (a negative index counted from the end) of the table. -/

namespace Cert.Spec

open Idealize.ShloMosaic Cert.ReferenceIdeal

variable [Cert.ReferenceIdeal.Facts]
open Cert.ReferenceIdeal.Facts₀ Cert.ReferenceIdeal.Facts

abbrev A (S : Shape) : Type := FVec Ideal S .f32
abbrev AI (S : Shape) : Type := IVec S 32

/-- The small constant ε both programs add inside the logarithms, as a full table. -/
def epsTable : A S8192x128 := broadcastInDim S8192x128 ![] bcast_S_S8192x128 (constant (F := Ideal) S_ .f32 0x3089705F#32)

/-- Gumbel perturbation of uniform noise: -log(-log(u + ε) + ε). -/
def gumbel (u : A S8192x128) : A S8192x128 :=
  Host.negf (F := Ideal) (Host.log (F := Ideal) (addf (Host.negf (F := Ideal) (Host.log (F := Ideal) (addf u epsTable))) epsTable))

/-- Softmax along the 128 topics of every row: the row's maximum subtracted before exponentiating. -/
def softmaxRows (z : A S8192x128) : A S8192x128 :=
  let mx : A S8192 := maximumf (broadcastInDim S8192 ![] bcast_S_S8192 (constant (F := Ideal) S_ .f32 0xFF800000#32))
    (Host.reduce (FloatOps.maximumf (F := Ideal) (φ := .f32)) z (constant (F := Ideal) S_ .f32 0xFF800000#32) reducesTo_S8192x128_S8192_d1 h_S_)
  let e : A S8192x128 := Host.exp (F := Ideal) (subf z (broadcastInDim S8192x128 ![0, 1] bcast_S8192x1_S8192x128_0_1 (broadcastInDim S8192x1 ![0] bcast_S8192_S8192x1_0 mx)))
  let s : A S8192 := Host.reduceAdd (F := Ideal) e (constant (F := Ideal) S_ .f32 0x00000000#32) reducesTo_S8192x128_S8192_d1 h_S_
  Host.divf (F := Ideal) e (broadcastInDim S8192x128 ![0, 1] bcast_S8192x1_S8192x128_0_1 (broadcastInDim S8192x1 ![0] bcast_S8192_S8192x1_0 s))

/-- The linear layer p · Wᵀ + b (W is 64x128, b has 64 entries). -/
def project (p : A S8192x128) (w : A S64x128) (b : A S64) : A S8192x64 :=
  addf (Host.dotGeneral (F := Ideal) dot_S8192x128_S128x64_S8192x64_1_0_0_1_n_n none p (transpose S128x64 [1, 0] w transposes_S64x128_S128x64_1_0))
    (broadcastInDim S8192x64 ![0, 1] bcast_S1x64_S8192x64_0_1 (broadcastInDim S1x64 ![1] bcast_S64_S1x64_1 b))

/-- The topic embedding of every row. -/
def topic (logits noise : A S8192x128) (w : A S64x128) (b : A S64) : A S8192x64 :=
  project (softmaxRows (addf logits (gumbel noise))) w b

/-- The Student-t kernel summed over all pairs of rows, by the norm trick. -/
def pairTotal (x : A S8192x64) : A S_ :=
  let sq : A S8192 := Host.reduceAdd (F := Ideal) (mulf x x) (constant (F := Ideal) S_ .f32 0x00000000#32) reducesTo_S8192x64_S8192_d1 h_S_
  let d : A S8192x8192 := subf
    (addf (broadcastInDim S8192x8192 ![0, 1] bcast_S8192x1_S8192x8192_0_1 (broadcastInDim S8192x1 ![0] bcast_S8192_S8192x1_0 sq))
      (broadcastInDim S8192x8192 ![0, 1] bcast_S1x8192_S8192x8192_0_1 (broadcastInDim S1x8192 ![1] bcast_S8192_S1x8192_1 sq)))
    (mulf (broadcastInDim S8192x8192 ![] bcast_S_S8192x8192 (constant (F := Ideal) S_ .f32 0x40000000#32))
      (Host.dotGeneral (F := Ideal) dot_S8192x64_S64x8192_S8192x8192_1_0_0_1_n_n none x (transpose S64x8192 [1, 0] x transposes_S8192x64_S64x8192_1_0)))
  let st : A S8192x8192 := Host.divf (F := Ideal) (broadcastInDim S8192x8192 ![] bcast_S_S8192x8192 (constant (F := Ideal) S_ .f32 0x3F800000#32))
    (addf (broadcastInDim S8192x8192 ![] bcast_S_S8192x8192 (constant (F := Ideal) S_ .f32 0x3F800000#32)) d)
  Host.reduceAdd (F := Ideal) st (constant (F := Ideal) S_ .f32 0x00000000#32) reducesTo_S8192x8192_S_d0_1 h_S_

/-- The normaliser: the pair total less the 8192 diagonal terms. -/
def part (total : A S_) : A S_ := subf total (constant (F := Ideal) S_ .f32 0x46000000#32)

/-- The per-observation loss. -/
def loss (pij : A S8192) (xi xj : A S8192x64) (prt : A S_) : A S8192 :=
  let dd : A S8192x64 := subf xi xj
  let num : A S8192 := Host.divf (F := Ideal) (broadcastInDim S8192 ![] bcast_S_S8192 (constant (F := Ideal) S_ .f32 0x3F800000#32))
    (Host.reduceAdd (F := Ideal) (addf (broadcastInDim S8192x64 ![] bcast_S_S8192x64 (constant (F := Ideal) S_ .f32 0x3F800000#32)) (mulf dd dd))
      (constant (F := Ideal) S_ .f32 0x00000000#32) reducesTo_S8192x64_S8192_d1 h_S_)
  let q : A S8192 := Host.divf (F := Ideal) num (broadcastInDim S8192 ![] bcast_S_S8192 prt)
  mulf pij (subf (Host.log (F := Ideal) pij) (Host.log (F := Ideal) q))

/-- An index counted from the end when negative. -/
def wrapIdx (idx : AI S8192) : AI S8192 :=
  select (cmpi .slt idx (broadcastInDim S8192 ![] bcast_S_S8192 (constantI S_ 32 0#32)))
    (addi idx (broadcastInDim S8192 ![] bcast_S_S8192 (constantI S_ 32 8192#32))) idx

/-- Row idx[r] of the table, for every r. -/
def takeRows (table : A S8192x128) (idx : AI S8192) : A S8192x128 :=
  Host.gather gather_S8192x128_S8192x1_S8192x128_1_0_n_n_0_1_1128 table (broadcastInDim S8192x1 ![0] bcast_S8192_S8192x1_0 (wrapIdx idx))

/-- The whole computation as one function of the nine inputs. -/
def G (pij : A S8192) (nf ni nj lw : A S8192x128) (w : A S64x128) (b : A S64) (i j : AI S8192) : A S8192 :=
  loss pij (topic (takeRows lw i) ni w b) (topic (takeRows lw j) nj w b) (part (pairTotal (topic lw nf w b)))

end Cert.Spec

end
-- ==== Proof.TopicRowLib.lean ====
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws
import Idealize.ShloMosaic.PureOps.Reduce

/-! Rows of a matrix, read one at a time.

A column of row statistics (a maximum, a sum) laid back along the rows, and a reduction along the rows' axis, each read
at an entry (r, k) of an a × b matrix: the entry depends on row r alone. Then the embedding of ONE row of logits and
noise as a function of that row, the weight column and the bias entry. -/

noncomputable section

namespace Cert.TopicRow

open Idealize.ShloMosaic Idealize.ShloMosaic.ValueIdx

section Layout
variable {α : Type}

/-- A vector of a entries cast to a column of a rows: entry (r, u) is entry r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column of a rows broadcast along b lanes: entry (r, k) is the column's entry (r, 0). -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The host's form of the same column: a vector of a entries laid on axis 0 of an a × 1 array. -/
theorem broadcastInDim_a_a1_apply {a : ℕ} (h : (⟨1, ![a]⟩ : Shape).BroadcastsInDim ⟨2, ![a, 1]⟩ ![0])
    (x : (⟨1, ![a]⟩ : Shape).Idx → α) (r : Fin a) (u : Fin 1) :
    broadcastInDim ⟨2, ![a, 1]⟩ ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- The host's broadcast of an a × 1 column along b lanes: entry (r, k) is the column's entry (r, 0). -/
theorem broadcastInDim_a1_ab_apply {a b : ℕ} (h : (⟨2, ![a, 1]⟩ : Shape).BroadcastsInDim ⟨2, ![a, b]⟩ ![0, 1])
    (y : (⟨2, ![a, 1]⟩ : Shape).Idx → α) (r : Fin a) (k : Fin b) :
    broadcastInDim ⟨2, ![a, b]⟩ ![0, 1] h y (ix2 r k) = y (ix2 r (0 : Fin 1)) := by
  refine broadcastInDim_apply ![0, 1] h y (ix2 r k) (ix2 r (0 : Fin 1)) fun ax => ?_
  match ax with
  | ⟨0, _⟩ =>
    show r.val = if a = 1 then 0 else r.val
    split
    · have := r.isLt; omega
    · rfl
  | ⟨1, _⟩ => rfl

/-- The host's one-row form of a vector of b entries, laid on axis 1 of a 1 × b array: entry (u, d) is entry d. -/
theorem broadcastInDim_b_1b_apply {b : ℕ} (h : (⟨1, ![b]⟩ : Shape).BroadcastsInDim ⟨2, ![1, b]⟩ ![1])
    (x : (⟨1, ![b]⟩ : Shape).Idx → α) (u : Fin 1) (d : Fin b) :
    broadcastInDim ⟨2, ![1, b]⟩ ![1] h x (ix2 u d) = x (ix1 d) := by
  refine broadcastInDim_apply ![1] h x (ix2 u d) (ix1 d) fun ax => ?_
  match ax with
  | ⟨0, _⟩ =>
    show d.val = if b = 1 then 0 else d.val
    split
    · have := d.isLt; omega
    · rfl

/-- Row r with lane k put back on the reduced axis is the entry (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Layout

/-! ## A reduction along the lanes, read at a row -/

section Reductions

/-- The word 0xFF800000 read as an extended real: the value every running maximum starts from. It is never evaluated:
    a maximum folded from it is at least it, which is all that is used. -/
def startMax : EReal := Ideal.ofBits .f32 0xFF800000#32

/-- The maximum of a row's b values, folded from the starting value. -/
def rowMax {b : ℕ} (z : Fin b → EReal) : EReal := (Finset.univ : Finset (Fin b)).fold max startMax z

/-- The starting value is below every row maximum, so taking the maximum with it once more changes nothing. -/
theorem max_start_rowMax {b : ℕ} (z : Fin b → EReal) : max startMax (rowMax z) = rowMax z :=
  max_eq_right ((Finset.le_fold_max (s := (Finset.univ : Finset (Fin b))) (f := z) (b := startMax) (c := startMax)).2 (Or.inl le_rfl))

/-- The kernel's maximum along the lanes of an a × b matrix, at row r, is the maximum of that row's entries. -/
theorem multiReduction_max_row {a b : ℕ} (x : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ) (r : Fin a) :
    multiReduction (F := Ideal) .maximumf [1] ⟨1, ![a]⟩ x 0xFF800000#32 h hφ hacc (ix1 r)
      = rowMax fun k : Fin b => x (ix2 r k) := by
  refine (Ideal.multiReduction_maximumf_single x _ h hφ hacc (ix1 r)).trans ?_
  have hf : (x ∘ h.lift (ix1 r)) = fun k : Fin b => x (ix2 r k) := funext fun k => congrArg x (lift_row h r k)
  exact congrArg (fun f => Finset.fold max (Ideal.ofBits .f32 0xFF800000#32) f (Finset.univ : Finset (Fin b))) hf

/-- The host's reduce with a maximum body along axis 1, from the same starting word, at row r, is the same maximum. -/
theorem hostReduce_max_row {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce (FloatOps.maximumf (F := Ideal) (φ := .f32)) x (constant (F := Ideal) (⟨0, ![]⟩ : Shape) .f32 0xFF800000#32) h' hu (ix1 r)
      = rowMax fun k : Fin b => x (ix2 r k) := by
  rw [Host.reduce_eq_fold_single FloatOps.maximumf x _ h' h hu]
  have hf : (x ∘ h.lift (ix1 r)) = fun k : Fin b => x (ix2 r k) := funext fun k => congrArg x (lift_row h r k)
  exact congrArg (fun f => Finset.fold max (Ideal.ofBits .f32 0xFF800000#32) f (Finset.univ : Finset (Fin b))) hf

/-- The kernel's sum along the lanes, at row r, is the sum of that row's entries. -/
theorem multiReduction_add_row {a b : ℕ} (x : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (r : Fin a) :
    multiReduction (F := Ideal) .add [1] ⟨1, ![a]⟩ x 0x00000000#32 h hφ hacc (ix1 r) = ∑ k : Fin b, x (ix2 r k) := by
  refine (Ideal.multiReduction_add_single x _ h hφ hacc (ix1 r)).trans ?_
  exact Finset.sum_congr rfl fun k _ => congrArg x (lift_row h r k)

/-- The host's sum along axis 1 from the zero word, at row r, is the same sum. -/
theorem hostReduceAdd_row {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduceAdd (F := Ideal) x (constant (F := Ideal) (⟨0, ![]⟩ : Shape) .f32 0x00000000#32) h' hu (ix1 r)
      = ∑ k : Fin b, x (ix2 r k) := by
  rw [hostReduceAdd_apply, Ideal.hostReduceAdd_single h' h]
  show Ideal.ofBits .f32 0x00000000#32 + _ = _
  rw [Ideal.ofBits_zero_f32, zero_add]
  exact Finset.sum_congr rfl fun k _ => congrArg x (lift_row h r k)

end Reductions

/-! ## One row's embedding -/

section Row

/-- The small constant both programs add inside the logarithms (the word 0x3089705F, never evaluated). -/
def eps : EReal := Ideal.ofBits .f32 0x3089705F#32

/-- The Gumbel perturbation of one uniform sample: -log(-log(u + ε) + ε). -/
def gumbelOf (u : EReal) : EReal := -(Ideal.log (-(Ideal.log (u + eps)) + eps))

/-- A row's perturbed logits. -/
def rowLogit {b : ℕ} (l n : Fin b → EReal) : Fin b → EReal := fun k => l k + gumbelOf (n k)

/-- A row's exponentials, the row's maximum subtracted first. -/
def rowExp {b : ℕ} (z : Fin b → EReal) : Fin b → EReal := fun k => Ideal.exp (z k - rowMax z)

/-- A row's softmax. -/
def rowSoftmax {b : ℕ} (z : Fin b → EReal) : Fin b → EReal := fun k => Ideal.div (rowExp z k) (∑ k', rowExp z k')

/-- One entry of a row's embedding: the row's softmax against one column of weights, plus that column's bias. -/
def topicEntry {b : ℕ} (l n wcol : Fin b → EReal) (bd : EReal) : EReal :=
  (∑ k, rowSoftmax (rowLogit l n) k * wcol k) + bd

end Row

end Cert.TopicRow

end
-- ==== Proof.TopicRowDot.lean ====
import proofs.«401426_j8332236554543_1_alg».proof.Proof.Gen.KernelIdeal.Skeleton
import proofs.«401426_j8332236554543_1_alg».proof.Proof.Spec
import proofs.«401426_j8332236554543_1_alg».proof.Proof.Gen.ReferenceIdeal
import Idealize.ShloMosaic.Lib.ValueIdx
import Idealize.ShloMosaic.Lib.ValueLayout
import Idealize.ShloMosaic.PureOps.Ideal.Laws

noncomputable section

namespace Cert.TopicRow

open Idealize.ShloMosaic Idealize.ShloMosaic.ValueIdx

variable [Cert.KernelIdeal.Facts] [Cert.ReferenceIdeal.Facts]

/-! ## The two products, read at an entry -/

theorem lhsK_0 (i : Cert.KernelIdeal.S1024x64.Idx) (q : Cert.KernelIdeal.dot_S1024x128_S128x64_S1024x64_1_0_0_1_n_n.contr.Idx) :
    (Cert.KernelIdeal.dot_S1024x128_S128x64_S1024x64_1_0_0_1_n_n.lhsIdx i q 0).val = (i 0).val := by
  unfold DotDims.lhsIdx
  rw [dif_neg (show ¬(0 : Fin Cert.KernelIdeal.S1024x128.rank) ∈ Cert.KernelIdeal.dot_S1024x128_S128x64_S1024x64_1_0_0_1_n_n.lhsBatch by decide),
    dif_pos (show (0 : Fin Cert.KernelIdeal.S1024x128.rank) ∈ Cert.KernelIdeal.dot_S1024x128_S128x64_S1024x64_1_0_0_1_n_n.lhsNonContracting by decide)]
  rfl

theorem lhsK_1 (i : Cert.KernelIdeal.S1024x64.Idx) (q : Cert.KernelIdeal.dot_S1024x128_S128x64_S1024x64_1_0_0_1_n_n.contr.Idx) :
    (Cert.KernelIdeal.dot_S1024x128_S128x64_S1024x64_1_0_0_1_n_n.lhsIdx i q 1).val = (q ⟨0, by decide⟩).val :=
  Cert.KernelIdeal.dot_S1024x128_S128x64_S1024x64_1_0_0_1_n_n.lhsIdx_val_of_single rfl i q

theorem rhsK_0 (i : Cert.KernelIdeal.S1024x64.Idx) (q : Cert.KernelIdeal.dot_S1024x128_S128x64_S1024x64_1_0_0_1_n_n.contr.Idx) :
    (Cert.KernelIdeal.dot_S1024x128_S128x64_S1024x64_1_0_0_1_n_n.rhsIdx i q 0).val = (q ⟨0, by decide⟩).val :=
  Cert.KernelIdeal.dot_S1024x128_S128x64_S1024x64_1_0_0_1_n_n.rhsIdx_val_of_single rfl i q

theorem rhsK_1 (i : Cert.KernelIdeal.S1024x64.Idx) (q : Cert.KernelIdeal.dot_S1024x128_S128x64_S1024x64_1_0_0_1_n_n.contr.Idx) :
    (Cert.KernelIdeal.dot_S1024x128_S128x64_S1024x64_1_0_0_1_n_n.rhsIdx i q 1).val = (i 1).val := by
  unfold DotDims.rhsIdx
  rw [dif_neg (show ¬(1 : Fin Cert.KernelIdeal.S128x64.rank) ∈ Cert.KernelIdeal.dot_S1024x128_S128x64_S1024x64_1_0_0_1_n_n.rhsBatch by decide),
    dif_pos (show (1 : Fin Cert.KernelIdeal.S128x64.rank) ∈ Cert.KernelIdeal.dot_S1024x128_S128x64_S1024x64_1_0_0_1_n_n.rhsNonContracting by decide)]
  rfl

/-- The kernel's product into a zero accumulator, at entry (r, d): row r of the left operand against column d of the right. -/
theorem matmul_entry (A : FVec Ideal Cert.KernelIdeal.S1024x128 .bf16) (B : FVec Ideal Cert.KernelIdeal.S128x64 .bf16) (r : Fin 1024) (d : Fin 64) :
    matmul Cert.KernelIdeal.dot_S1024x128_S128x64_S1024x64_1_0_0_1_n_n none A B (constant (F := Ideal) Cert.KernelIdeal.S1024x64 .f32 0x00000000#32) (ix2 r d)
      = ∑ k : Fin 128, A (ix2 r k) * B (ix2 k d) := by
  show FloatOps.matmul _ none A B _ (ix2 r d) = _
  rw [Ideal.matmul_constant_zero_apply,
    ← Equiv.sum_comp (contrEquiv1 Cert.KernelIdeal.dot_S1024x128_S128x64_S1024x64_1_0_0_1_n_n 128 rfl rfl).symm]
  refine Finset.sum_congr rfl fun k _ => ?_
  have hk := contrEquiv1_symm_val Cert.KernelIdeal.dot_S1024x128_S128x64_S1024x64_1_0_0_1_n_n 128 rfl rfl k
  have el : Cert.KernelIdeal.dot_S1024x128_S128x64_S1024x64_1_0_0_1_n_n.lhsIdx (ix2 r d)
      ((contrEquiv1 Cert.KernelIdeal.dot_S1024x128_S128x64_S1024x64_1_0_0_1_n_n 128 rfl rfl).symm k) = ix2 r k := funext fun a => Fin.ext (by
    match a with
    | ⟨0, _⟩ => exact lhsK_0 _ _
    | ⟨1, _⟩ => exact (lhsK_1 _ _).trans hk)
  have er : Cert.KernelIdeal.dot_S1024x128_S128x64_S1024x64_1_0_0_1_n_n.rhsIdx (ix2 r d)
      ((contrEquiv1 Cert.KernelIdeal.dot_S1024x128_S128x64_S1024x64_1_0_0_1_n_n 128 rfl rfl).symm k) = ix2 k d := funext fun a => Fin.ext (by
    match a with
    | ⟨0, _⟩ => exact (rhsK_0 _ _).trans hk
    | ⟨1, _⟩ => exact rhsK_1 _ _)
  rw [el, er]

theorem lhsH_0 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.lhsIdx i q 0).val = (i 0).val := by
  unfold DotDims.lhsIdx
  rw [dif_neg (show ¬(0 : Fin Cert.ReferenceIdeal.S8192x128.rank) ∈ Cert.ReferenceIdeal.dot_S8192x128_S128x64_S8192x64_1_0_0_1_n_n.lhsBatch by decide),
    dif_pos (show (0 : Fin Cert.ReferenceIdeal.S8192x128.rank) ∈ Cert.ReferenceIdeal.dot_S8192x128_S128x64_S8192x64_1_0_0_1_n_n.lhsNonContracting by decide)]
  rfl

theorem lhsH_1 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.lhsIdx i q 1).val = (q ⟨0, by decide⟩).val :=
  Cert.ReferenceIdeal.dot_S8192x128_S128x64_S8192x64_1_0_0_1_n_n.lhsIdx_val_of_single rfl i q

theorem rhsH_0 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.rhsIdx i q 0).val = (q ⟨0, by decide⟩).val :=
  Cert.ReferenceIdeal.dot_S8192x128_S128x64_S8192x64_1_0_0_1_n_n.rhsIdx_val_of_single rfl i q

theorem rhsH_1 (i : Cert.ReferenceIdeal.S8192x64.Idx) (q : Cert.ReferenceIdeal.dot_S8192x128_S128x64_S8192x64_1_0_0_1_n_n.contr.Idx) :
    (Cert.ReferenceIdeal.dot_S8192x128_S128x64_S8192x64_1_0_0_1_n_n.rhsIdx i q 1).val = (i 1).val := by
  unfold DotDims.rhsIdx
  rw [dif_neg (show ¬(1 : Fin Cert.ReferenceIdeal.S128x64.rank) ∈ Cert.ReferenceIdeal.dot_S8192x128_S128x64_S8192x64_1_0_0_1_n_n.rhsBatch by decide),
    dif_pos (show (1 : Fin Cert.ReferenceIdeal.S128x64.rank) ∈ Cert.ReferenceIdeal.dot_S8192x128_S128x64_S8192x64_1_0_0_1_n_n.rhsNonContracting by decide)]
  rfl

/-- The host's product, at entry (R, d): row R of the left operand against column d of the right. -/
theorem dotGeneral_entry (A : FVec Ideal Cert.ReferenceIdeal.S8192x128 .f32) (B : FVec Ideal Cert.ReferenceIdeal.S128x64 .f32) (R : Fin 8192) (d : Fin 64) :
    Host.dotGeneral (F := Ideal) Cert.ReferenceIdeal.dot_S8192x128_S128x64_S8192x64_1_0_0_1_n_n none A B (ix2 R d)
      = ∑ k : Fin 128, A (ix2 R k) * B (ix2 k d) := by
  show FloatOps.dotGeneral _ none _ A B (ix2 R d) = _
  rw [Ideal.dotGeneral_apply,
    ← Equiv.sum_comp (contrEquiv1 Cert.ReferenceIdeal.dot_S8192x128_S128x64_S8192x64_1_0_0_1_n_n 128 rfl rfl).symm]
  refine Finset.sum_congr rfl fun k _ => ?_
  have hk := contrEquiv1_symm_val Cert.ReferenceIdeal.dot_S8192x128_S128x64_S8192x64_1_0_0_1_n_n 128 rfl rfl k
  have el : Cert.ReferenceIdeal.dot_S8192x128_S128x64_S8192x64_1_0_0_1_n_n.lhsIdx (ix2 R d)
      ((contrEquiv1 Cert.ReferenceIdeal.dot_S8192x128_S128x64_S8192x64_1_0_0_1_n_n 128 rfl rfl).symm k) = ix2 R k := funext fun a => Fin.ext (by
    match a with
    | ⟨0, _⟩ => exact lhsH_0 _ _
    | ⟨1, _⟩ => exact (lhsH_1 _ _).trans hk)
  have er : Cert.ReferenceIdeal.dot_S8192x128_S128x64_S8192x64_1_0_0_1_n_n.rhsIdx (ix2 R d)
      ((contrEquiv1 Cert.ReferenceIdeal.dot_S8192x128_S128x64_S8192x64_1_0_0_1_n_n 128 rfl rfl).symm k) = ix2 k d := funext fun a => Fin.ext (by
    match a with
    | ⟨0, _⟩ => exact (rhsH_0 _ _).trans hk
    | ⟨1, _⟩ => exact rhsH_1 _ _)
  rw [el, er]

end Cert.TopicRow

end
-- ==== Proof.TopicRow.lean ====
import proofs.«401426_j8332236554543_1_alg».proof.Proof.Gen.KernelIdeal.Skeleton
import proofs.«401426_j8332236554543_1_alg».proof.Proof.Spec
import proofs.«401426_j8332236554543_1_alg».proof.Proof.TopicRowLib
import proofs.«401426_j8332236554543_1_alg».proof.Proof.TopicRowDot
import Idealize.ShloMosaic.Lib.ValueIdx
import Idealize.ShloMosaic.PureOps.Ideal.Laws

/-! One grid point of the topic kernel against the whole-table embedding.

Both sides compute, for a row of logits l and of uniform noise n, the softmax of l + gumbel(n) along the 128 topics,
its product with a column of the weights and the bias entry added: `topicEntry`. The kernel does it for the 1024 rows of
its block with a keepdims column of row maxima and of row sums broadcast back along the lanes; the specification does it
for all 8192 rows with the host's reduce and broadcast_in_dim. Each is read at an entry (row, d) as `topicEntry` of that
row; the block's row r is the table's row 1024·t + r. -/

noncomputable section

namespace Cert.TopicRow

open Idealize.ShloMosaic Idealize.ShloMosaic.ValueIdx

variable [Cert.KernelIdeal.Facts] [Cert.ReferenceIdeal.Facts]

/-- Row r of row block t of a table of 8192 rows cut into 8 blocks of 1024. -/
def rowIx (t : Fin 8) (r : Fin 1024) : Fin 8192 := ⟨1024 * t.val + r.val, by omega⟩

/-! ## The kernel's block, entry by entry -/

section KernelSide
open Cert.KernelIdeal

/-- The perturbed logits of the block: the kernel negates by subtracting from zero, which is negation. -/
theorem kernel_logits (Nb Lb : FVec Ideal S1024x128 .f32) (r : Fin 1024) (k : Fin 128) :
    (addf Lb (subf (broadcast S1024x128 (Scalar.ofBits (F := Ideal) .f32 0x00000000#32))
        (log (addf (subf (broadcast S1024x128 (Scalar.ofBits (F := Ideal) .f32 0x00000000#32))
            (log (addf Nb (broadcast S1024x128 (Scalar.ofBits (F := Ideal) .f32 0x3089705F#32)))))
          (broadcast S1024x128 (Scalar.ofBits (F := Ideal) .f32 0x3089705F#32)))))) (ix2 r k)
      = rowLogit (fun k => Lb (ix2 r k)) (fun k => Nb (ix2 r k)) k := by
  show Lb (ix2 r k) + (Ideal.ofBits .f32 0x00000000#32
        - Ideal.log ((Ideal.ofBits .f32 0x00000000#32 - Ideal.log (Nb (ix2 r k) + eps)) + eps))
      = Lb (ix2 r k) + -(Ideal.log (-(Ideal.log (Nb (ix2 r k) + eps)) + eps))
  rw [Ideal.ofBits_zero_f32, zero_sub, zero_sub]

/-- The exponentials of a block, its keepdims column of row maxima subtracted: entry (r, k) is row r's. -/
theorem kernel_exp (z : FVec Ideal S1024x128 .f32)
    (hred : S1024x128.Reduces [1] S1024) (hsc : S1024.ShapeCasts S1024x1) (hbc : S1024x1.Broadcasts S1024x128)
    (hφ : FKind.Formats .f32) (hmax : (0xFF800000#32 : BitVec 32) = FKind.maximumf.neutral .f32 hφ) (r : Fin 1024) (k : Fin 128) :
    exp (subf z (broadcastTo S1024x128 (shapeCast S1024x1 (multiReduction .maximumf [1] S1024 z 0xFF800000#32 hred hφ hmax) hsc) hbc)) (ix2 r k)
      = rowExp (fun k => z (ix2 r k)) k := by
  show Ideal.exp (z (ix2 r k) - broadcastTo S1024x128 _ hbc (ix2 r k)) = Ideal.exp (z (ix2 r k) - rowMax fun k => z (ix2 r k))
  rw [broadcastTo_a1_ab_apply, shapeCast_a_a1_apply, multiReduction_max_row]

/-- A block divided by its keepdims column of row sums: entry (r, k) is the entry over row r's sum. -/
theorem kernel_div_rowsum (e : FVec Ideal S1024x128 .f32)
    (hred : S1024x128.Reduces [1] S1024) (hsc : S1024.ShapeCasts S1024x1) (hbc : S1024x1.Broadcasts S1024x128)
    (hφ : FKind.Formats .f32) (hadd : (0x00000000#32 : BitVec 32) = FKind.add.neutral .f32 hφ) (r : Fin 1024) (k : Fin 128) :
    divf e (broadcastTo S1024x128 (shapeCast S1024x1 (multiReduction .add [1] S1024 e 0x00000000#32 hred hφ hadd) hsc) hbc) (ix2 r k)
      = Ideal.div (e (ix2 r k)) (∑ k' : Fin 128, e (ix2 r k')) := by
  show Ideal.div (e (ix2 r k)) (broadcastTo S1024x128 _ hbc (ix2 r k)) = _
  rw [broadcastTo_a1_ab_apply, shapeCast_a_a1_apply, multiReduction_add_row]

/-- The block's softmax: entry (r, k) is row r's softmax at k. -/
theorem kernel_softmax (z : FVec Ideal S1024x128 .f32)
    (hred : S1024x128.Reduces [1] S1024) (hsc : S1024.ShapeCasts S1024x1) (hbc : S1024x1.Broadcasts S1024x128)
    (hφ : FKind.Formats .f32) (hmax : (0xFF800000#32 : BitVec 32) = FKind.maximumf.neutral .f32 hφ)
    (hadd : (0x00000000#32 : BitVec 32) = FKind.add.neutral .f32 hφ) (r : Fin 1024) (k : Fin 128) :
    divf (exp (subf z (broadcastTo S1024x128 (shapeCast S1024x1 (multiReduction .maximumf [1] S1024 z 0xFF800000#32 hred hφ hmax) hsc) hbc)))
      (broadcastTo S1024x128 (shapeCast S1024x1 (multiReduction .add [1] S1024
        (exp (subf z (broadcastTo S1024x128 (shapeCast S1024x1 (multiReduction .maximumf [1] S1024 z 0xFF800000#32 hred hφ hmax) hsc) hbc)))
        0x00000000#32 hred hφ hadd) hsc) hbc) (ix2 r k)
      = rowSoftmax (fun k => z (ix2 r k)) k := by
  refine (kernel_div_rowsum _ hred hsc hbc hφ hadd r k).trans ?_
  unfold rowSoftmax
  rw [kernel_exp z hred hsc hbc hφ hmax r k]
  exact congrArg _ (Finset.sum_congr rfl fun k' _ => kernel_exp z hred hsc hbc hφ hmax r k')

/-- What the first topic kernel stores, at entry (r, d): the embedding entry of row r of its blocks. -/
theorem pay1_row (Nb Lb : Vec Ideal S1024x128 .f32) (wT : Vec Ideal S128x64 .f32) (b2 : Vec Ideal S1x64 .f32)
    (r : Fin 1024) (d : Fin 64) :
    Cert.KernelIdeal.Gen.k0_pay1 (F := Ideal) Nb Lb wT b2 (ix2 r d)
      = topicEntry (fun k => Lb (ix2 r k)) (fun k => Nb (ix2 r k)) (fun k => wT (ix2 k d)) (b2 (ix2 (0 : Fin 1) d)) := by
  unfold Cert.KernelIdeal.Gen.k0_pay1
  simp only [addf_apply]
  unfold topicEntry
  refine congrArg₂ (· + ·) ((matmul_entry _ _ r d).trans (Finset.sum_congr rfl fun k _ => congrArg₂ (· * ·) ?_ ?_)) ?_
  · -- the narrowing to bf16 is the identity; then the block's softmax of the block's perturbed logits
    refine (kernel_softmax _ _ _ _ _ _ _ r k).trans ?_
    exact congrArg (fun z => rowSoftmax z k) (funext fun k' => kernel_logits Nb Lb r k')
  · show shapeCast S128x64 wT _ (ix2 k d) = wT (ix2 k d)
    rw [shapeCast_self]
  · refine (broadcastTo_1b_ab_apply _ _ r d).trans ?_
    rw [shapeCast_self]

/-- The second and third topic kernels store the same value: they differ by a shape cast to the same shape. -/
theorem k1_pay1_eq (Nb Lb : Vec Ideal S1024x128 .f32) (wT : Vec Ideal S128x64 .f32) (b2 : Vec Ideal S1x64 .f32) :
    Cert.KernelIdeal.Gen.k1_pay1 (F := Ideal) Nb Lb wT b2 = Cert.KernelIdeal.Gen.k0_pay1 (F := Ideal) Nb Lb wT b2 := by
  unfold Cert.KernelIdeal.Gen.k1_pay1 Cert.KernelIdeal.Gen.k0_pay1
  simp only [shapeCast_self]

theorem k2_pay1_eq (Nb Lb : Vec Ideal S1024x128 .f32) (wT : Vec Ideal S128x64 .f32) (b2 : Vec Ideal S1x64 .f32) :
    Cert.KernelIdeal.Gen.k2_pay1 (F := Ideal) Nb Lb wT b2 = Cert.KernelIdeal.Gen.k0_pay1 (F := Ideal) Nb Lb wT b2 := by
  unfold Cert.KernelIdeal.Gen.k2_pay1 Cert.KernelIdeal.Gen.k0_pay1
  simp only [shapeCast_self]

end KernelSide

/-! ## The whole-table embedding, entry by entry -/

section SpecSide
open Cert.ReferenceIdeal Cert.ReferenceIdeal.Facts₀ Cert.ReferenceIdeal.Facts

/-- The perturbed logits of the tables, at an entry. -/
theorem spec_logits (L N : Spec.A S8192x128) (R : Fin 8192) (k : Fin 128) :
    addf L (Spec.gumbel N) (ix2 R k) = rowLogit (fun k => L (ix2 R k)) (fun k => N (ix2 R k)) k := rfl

/-- The reduced shape fact in the kernel's form, at the host's shapes. -/
theorem reduces_rows : S8192x128.Reduces [1] S8192 := by
  obtain ⟨h1, h2⟩ := reducesTo_S8192x128_S8192_d1
  exact ⟨h1, Nat.one_pos, h2⟩

/-- The host's row maxima: it takes the maximum with the starting value once more after the reduce, which changes nothing. -/
theorem spec_max (z : Spec.A S8192x128) (R : Fin 8192) :
    (maximumf (broadcastInDim S8192 ![] bcast_S_S8192 (constant (F := Ideal) S_ .f32 0xFF800000#32))
      (Host.reduce (FloatOps.maximumf (F := Ideal) (φ := .f32)) z (constant (F := Ideal) S_ .f32 0xFF800000#32) reducesTo_S8192x128_S8192_d1 h_S_)) (ix1 R)
      = rowMax fun k => z (ix2 R k) := by
  refine (maximumf_apply _ _ (ix1 R)).trans ?_
  rw [hostReduce_max_row z reducesTo_S8192x128_S8192_d1 reduces_rows h_S_ R]
  exact max_start_rowMax _

/-- The exponentials of a table, each row's maximum subtracted: entry (R, k) is row R's. -/
theorem spec_exp (z : Spec.A S8192x128) (R : Fin 8192) (k : Fin 128) :
    Host.exp (F := Ideal) (subf z (broadcastInDim S8192x128 ![0, 1] bcast_S8192x1_S8192x128_0_1 (broadcastInDim S8192x1 ![0] bcast_S8192_S8192x1_0
      (maximumf (broadcastInDim S8192 ![] bcast_S_S8192 (constant (F := Ideal) S_ .f32 0xFF800000#32))
        (Host.reduce (FloatOps.maximumf (F := Ideal) (φ := .f32)) z (constant (F := Ideal) S_ .f32 0xFF800000#32) reducesTo_S8192x128_S8192_d1 h_S_))))) (ix2 R k)
      = rowExp (fun k => z (ix2 R k)) k := by
  show Ideal.exp (z (ix2 R k) - broadcastInDim (s := S8192x1) S8192x128 ![0, 1] bcast_S8192x1_S8192x128_0_1 _ (ix2 R k)) = Ideal.exp (z (ix2 R k) - rowMax fun k => z (ix2 R k))
  rw [broadcastInDim_a1_ab_apply, broadcastInDim_a_a1_apply, spec_max z R]

/-- A table divided by its rows' sums: entry (R, k) is the entry over row R's sum. -/
theorem spec_div_rowsum (e : Spec.A S8192x128) (R : Fin 8192) (k : Fin 128) :
    Host.divf (F := Ideal) e (broadcastInDim S8192x128 ![0, 1] bcast_S8192x1_S8192x128_0_1 (broadcastInDim S8192x1 ![0] bcast_S8192_S8192x1_0
      (Host.reduceAdd (F := Ideal) e (constant (F := Ideal) S_ .f32 0x00000000#32) reducesTo_S8192x128_S8192_d1 h_S_))) (ix2 R k)
      = Ideal.div (e (ix2 R k)) (∑ k' : Fin 128, e (ix2 R k')) := by
  show Ideal.div (e (ix2 R k)) (broadcastInDim (s := S8192x1) S8192x128 ![0, 1] bcast_S8192x1_S8192x128_0_1 _ (ix2 R k)) = _
  rw [broadcastInDim_a1_ab_apply, broadcastInDim_a_a1_apply, hostReduceAdd_row e reducesTo_S8192x128_S8192_d1 reduces_rows h_S_ R]

/-- The softmax of every row of a table: entry (R, k) is row R's softmax at k. -/
theorem spec_softmax (z : Spec.A S8192x128) (R : Fin 8192) (k : Fin 128) :
    Spec.softmaxRows z (ix2 R k) = rowSoftmax (fun k => z (ix2 R k)) k := by
  refine (spec_div_rowsum _ R k).trans ?_
  unfold rowSoftmax
  rw [spec_exp z R k]
  exact congrArg _ (Finset.sum_congr rfl fun k' _ => spec_exp z R k')

/-- The whole-table embedding at entry (R, d): the embedding entry of row R of the tables. -/
theorem topic_row (L N : Spec.A S8192x128) (w : Spec.A S64x128) (b : Spec.A S64) (R : Fin 8192) (d : Fin 64) :
    Spec.topic L N w b (ix2 R d)
      = topicEntry (fun k => L (ix2 R k)) (fun k => N (ix2 R k)) (fun k => w (ix2 d k)) (b (ix1 d)) := by
  unfold Spec.topic Spec.project topicEntry
  refine (addf_apply _ _ (ix2 R d)).trans ?_
  refine congrArg₂ (· + ·) ((dotGeneral_entry _ _ R d).trans (Finset.sum_congr rfl fun k _ => congrArg₂ (· * ·) ?_ ?_)) ?_
  · refine (spec_softmax _ R k).trans ?_
    exact congrArg (fun z => rowSoftmax z k) (funext fun k' => spec_logits L N R k')
  · exact transpose_ix2_apply w _ k d
  · refine (broadcastInDim_oneRow_apply _ _ R d).trans ?_
    exact broadcastInDim_b_1b_apply _ b (0 : Fin 1) d

end SpecSide

/-! ## The three grid kernels -/

/-- One grid point of the topic kernel computes rows 1024·t … 1024·t + 1023 of the embedding: entry (r, d) of what
    it stores is entry (1024·t + r, d) of the whole-table embedding, when its operand blocks are those rows of the
    logits and of the noise, its weight operand is the transposed weight matrix and its bias operand the bias as a row. -/
theorem pay1_eq_topic0 (L N : Spec.A Cert.ReferenceIdeal.S8192x128) (w : Spec.A Cert.ReferenceIdeal.S64x128) (b : Spec.A Cert.ReferenceIdeal.S64)
    (Lb Nb : Vec Ideal Cert.KernelIdeal.S1024x128 .f32) (wT : Vec Ideal Cert.KernelIdeal.S128x64 .f32) (b2 : Vec Ideal Cert.KernelIdeal.S1x64 .f32)
    (t : Fin 8)
    (hL : ∀ (r : Fin 1024) (k : Fin 128), Lb (ix2 r k) = L (ix2 (rowIx t r) k))
    (hN : ∀ (r : Fin 1024) (k : Fin 128), Nb (ix2 r k) = N (ix2 (rowIx t r) k))
    (hw : ∀ (k : Fin 128) (d : Fin 64), wT (ix2 k d) = w (ix2 d k))
    (hb : ∀ d : Fin 64, b2 (ix2 (0 : Fin 1) d) = b (ix1 d))
    (r : Fin 1024) (d : Fin 64) :
    Cert.KernelIdeal.Gen.k0_pay1 (F := Ideal) Nb Lb wT b2 (ix2 r d) = Spec.topic L N w b (ix2 (rowIx t r) d) := by
  rw [pay1_row, topic_row]
  have e1 : (fun k => Lb (ix2 r k)) = fun k => L (ix2 (rowIx t r) k) := funext fun k => hL r k
  have e2 : (fun k => Nb (ix2 r k)) = fun k => N (ix2 (rowIx t r) k) := funext fun k => hN r k
  have e3 : (fun k => wT (ix2 k d)) = fun k => w (ix2 d k) := funext fun k => hw k d
  rw [e1, e2, e3, hb d]

theorem pay1_eq_topic1 (L N : Spec.A Cert.ReferenceIdeal.S8192x128) (w : Spec.A Cert.ReferenceIdeal.S64x128) (b : Spec.A Cert.ReferenceIdeal.S64)
    (Lb Nb : Vec Ideal Cert.KernelIdeal.S1024x128 .f32) (wT : Vec Ideal Cert.KernelIdeal.S128x64 .f32) (b2 : Vec Ideal Cert.KernelIdeal.S1x64 .f32)
    (t : Fin 8)
    (hL : ∀ (r : Fin 1024) (k : Fin 128), Lb (ix2 r k) = L (ix2 (rowIx t r) k))
    (hN : ∀ (r : Fin 1024) (k : Fin 128), Nb (ix2 r k) = N (ix2 (rowIx t r) k))
    (hw : ∀ (k : Fin 128) (d : Fin 64), wT (ix2 k d) = w (ix2 d k))
    (hb : ∀ d : Fin 64, b2 (ix2 (0 : Fin 1) d) = b (ix1 d))
    (r : Fin 1024) (d : Fin 64) :
    Cert.KernelIdeal.Gen.k1_pay1 (F := Ideal) Nb Lb wT b2 (ix2 r d) = Spec.topic L N w b (ix2 (rowIx t r) d) := by
  rw [k1_pay1_eq]
  exact pay1_eq_topic0 L N w b Lb Nb wT b2 t hL hN hw hb r d

theorem pay1_eq_topic2 (L N : Spec.A Cert.ReferenceIdeal.S8192x128) (w : Spec.A Cert.ReferenceIdeal.S64x128) (b : Spec.A Cert.ReferenceIdeal.S64)
    (Lb Nb : Vec Ideal Cert.KernelIdeal.S1024x128 .f32) (wT : Vec Ideal Cert.KernelIdeal.S128x64 .f32) (b2 : Vec Ideal Cert.KernelIdeal.S1x64 .f32)
    (t : Fin 8)
    (hL : ∀ (r : Fin 1024) (k : Fin 128), Lb (ix2 r k) = L (ix2 (rowIx t r) k))
    (hN : ∀ (r : Fin 1024) (k : Fin 128), Nb (ix2 r k) = N (ix2 (rowIx t r) k))
    (hw : ∀ (k : Fin 128) (d : Fin 64), wT (ix2 k d) = w (ix2 d k))
    (hb : ∀ d : Fin 64, b2 (ix2 (0 : Fin 1) d) = b (ix1 d))
    (r : Fin 1024) (d : Fin 64) :
    Cert.KernelIdeal.Gen.k2_pay1 (F := Ideal) Nb Lb wT b2 (ix2 r d) = Spec.topic L N w b (ix2 (rowIx t r) d) := by
  rw [k2_pay1_eq]
  exact pay1_eq_topic0 L N w b Lb Nb wT b2 t hL hN hw hb r d

end Cert.TopicRow

end
-- ==== Proof.PairAlgK.lean ====
import proofs.«401426_j8332236554543_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.PairAlgK

open Idealize.ShloMosaic Idealize.ShloMosaic.ValueIdx Cert.KernelIdeal

variable [Cert.KernelIdeal.Facts]

/-! Layout operations of a kept-dimension column, read at an index. -/

/-- An [a] array cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! Sums along one axis of a matrix, read at an index. -/

/-- The sum along the columns of an [a, b] matrix, at row r. -/
theorem sumAxis1_apply {a b : ℕ} (m : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ m 0x00000000#32 h hφ hacc (ix1 r) = ∑ c : Fin b, m (ix2 r c) := by
  refine (Ideal.multiReduction_add_single m 0x00000000#32 h hφ hacc _).trans ?_
  refine Finset.sum_congr rfl fun c _ => congrArg m (funext fun ax => Fin.ext ?_)
  match ax with
  | ⟨0, _⟩ => rfl
  | ⟨1, _⟩ => rfl

/-- The sum along the rows of an [a, b] matrix, at column c. -/
theorem sumAxis0_apply {a b : ℕ} (m : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction (F := Ideal) .add [0] ⟨1, ![b]⟩ m 0x00000000#32 h hφ hacc (ix1 c) = ∑ r : Fin a, m (ix2 r c) := by
  refine (Ideal.multiReduction_add_single m 0x00000000#32 h hφ hacc _).trans ?_
  refine Finset.sum_congr rfl fun r _ => congrArg m (funext fun ax => Fin.ext ?_)
  match ax with
  | ⟨0, _⟩ => rfl
  | ⟨1, _⟩ => rfl

/-! The matrix product contracting the second axis of both operands, read at an index. -/

theorem lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl

theorem lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q

theorem rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl

theorem rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Entry (r, c) of the product of one block with the transpose of another: the inner product of row r of the first
    with row c of the second. -/
theorem matmul_rows_apply {φ₁ φ₂ : FTy} (v : FVec Ideal S1024x64 φ₁) (w : FVec Ideal S1024x64 φ₂) (r c : Fin 1024) :
    matmul (F := Ideal) dot_S1024x64_S1024x64_S1024x1024_1_1_0_0_n_n none v w (constant (F := Ideal) S1024x1024 .f32 0x00000000#32) (ix2 r c)
      = ∑ k : Fin 64, v (ix2 r k) * w (ix2 c k) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r c) ((contrEquiv1 dot_S1024x64_S1024x64_S1024x1024_1_1_0_0_n_n 64 rfl rfl).symm k) = ix2 r k :=
    funext fun a => Fin.ext (by
      match a with
      | ⟨0, _⟩ => exact lhs_0 _ _
      | ⟨1, _⟩ => exact (lhs_1 _ _).trans hk)
  have er : dot_S1024x64_S1024x64_S1024x1024_1_1_0_0_n_n.rhsIdx (ix2 r c) ((contrEquiv1 dot_S1024x64_S1024x64_S1024x1024_1_1_0_0_n_n 64 rfl rfl).symm k) = ix2 c k :=
    funext fun a => Fin.ext (by
      match a with
      | ⟨0, _⟩ => exact rhs_0 _ _
      | ⟨1, _⟩ => exact (rhs_1 _ _).trans hk)
  rw [el, er]

/-! The summand of the pairwise kernel over two blocks of rows. -/

/-- The squared norm of row r of a block. -/
def sqRow (xb : FVec Ideal S1024x64 .f32) (r : Fin 1024) : EReal := ∑ k : Fin 64, xb (ix2 r k) * xb (ix2 r k)

/-- The inner product of row r of one block with row c of another. -/
def dotRow (xi xj : FVec Ideal S1024x64 .f32) (r c : Fin 1024) : EReal := ∑ k : Fin 64, xi (ix2 r k) * xj (ix2 c k)

/-- The Student-t kernel 1 / (1 + (|u|² + |v|² - 2 u·v)) of row r of one block and row c of another. -/
def kterm (xi xj : FVec Ideal S1024x64 .f32) (r c : Fin 1024) : EReal :=
  Ideal.div (Ideal.ofBits .f32 0x3F800000#32)
    (Ideal.ofBits .f32 0x3F800000#32 + ((sqRow xi r + sqRow xj c) - Ideal.ofBits .f32 0x40000000#32 * dotRow xi xj r c))

/-- The pairwise kernel's stored value at its one index: the accumulator it loaded plus the total of the Student-t
    kernel over all pairs of a row of the first block and a row of the second. -/
theorem pay2_apply (xi xj : FVec Ideal S1024x64 .f32) (a : FVec Ideal S1x1 .f32) :
    Gen.k3_pay2 (F := Ideal) xi xj a (ix2 (0 : Fin 1) (0 : Fin 1))
      = a (ix2 (0 : Fin 1) (0 : Fin 1)) + ∑ r : Fin 1024, ∑ c : Fin 1024, kterm xi xj r c := by
  unfold Gen.k3_pay2
  simp only [shapeCast_self]
  refine congrArg (a (ix2 (0 : Fin 1) (0 : Fin 1)) + ·) ?_
  refine (shapeCast_a_1a_apply _ _ _ _).trans ?_
  refine (sumAxis0_apply _ _ _ _ _).trans ?_
  refine Finset.sum_congr rfl fun r _ => ?_
  refine (shapeCast_a_a1_apply _ _ _ _).trans ?_
  refine (sumAxis1_apply _ _ _ _ _).trans ?_
  refine Finset.sum_congr rfl fun c _ => ?_
  unfold kterm
  refine congrArg₂ Ideal.div rfl (congrArg₂ (· + ·) rfl (congrArg₂ (· - ·) (congrArg₂ (· + ·) ?_ ?_) (congrArg₂ (· * ·) rfl ?_)))
  · refine (broadcastTo_a1_ab_apply _ _ _ _).trans ?_
    refine (shapeCast_a_a1_apply _ _ _ _).trans ?_
    exact sumAxis1_apply _ _ _ _ _
  · refine (broadcastTo_1b_ab_apply _ _ _ _).trans ?_
    refine (transpose_ix2_apply _ _ _ _).trans ?_
    refine (shapeCast_a_a1_apply _ _ _ _).trans ?_
    exact sumAxis1_apply _ _ _ _ _
  · exact matmul_rows_apply _ _ r c

end Cert.PairAlgK

end
-- ==== Proof.PairAlgS.lean ====
import proofs.«401426_j8332236554543_1_alg».proof.Proof.Spec
import proofs.«401426_j8332236554543_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.PairAlgS

open Idealize.ShloMosaic Idealize.ShloMosaic.ValueIdx Cert.ReferenceIdeal

variable [Cert.ReferenceIdeal.Facts]

/-! Broadcasts of a scalar, of a vector to a column or a row, and of a column or a row to the full table, read at an index. -/

/-- A scalar broadcast to the full table reads the scalar everywhere. -/
theorem bcastScalar_apply (h : S_.BroadcastsInDim S8192x8192 (![] : Fin 0 → Fin S8192x8192.rank)) (v : FVec Ideal S_ .f32)
    (j : S8192x8192.Idx) : broadcastInDim S8192x8192 ![] h v j = v ix0 :=
  broadcastInDim_apply _ h v j ix0 fun a => a.elim0

/-- A column broadcast along the second axis reads, at (p, c), the column's entry at row p. -/
theorem bcastColumn_apply (h : S8192x1.BroadcastsInDim S8192x8192 (![0, 1] : Fin 2 → Fin S8192x8192.rank)) (v : FVec Ideal S8192x1 .f32)
    (p c : Fin 8192) : broadcastInDim S8192x8192 ![0, 1] h v (ix2 p c) = v (ix2 p (0 : Fin 1)) :=
  broadcastInDim_apply _ h v _ _ fun a => by
    match a with
    | ⟨0, _⟩ => rfl
    | ⟨1, _⟩ => rfl

/-- A row broadcast along the first axis reads, at (p, c), the row's entry at column c. -/
theorem bcastRow_apply (h : S1x8192.BroadcastsInDim S8192x8192 (![0, 1] : Fin 2 → Fin S8192x8192.rank)) (v : FVec Ideal S1x8192 .f32)
    (p c : Fin 8192) : broadcastInDim S8192x8192 ![0, 1] h v (ix2 p c) = v (ix2 (0 : Fin 1) c) :=
  broadcastInDim_apply _ h v _ _ fun a => by
    match a with
    | ⟨0, _⟩ => rfl
    | ⟨1, _⟩ => rfl

/-- A vector laid out as a column reads, at (p, u), the vector at p. -/
theorem vecToColumn_apply (h : S8192.BroadcastsInDim S8192x1 (![0] : Fin 1 → Fin S8192x1.rank)) (v : FVec Ideal S8192 .f32)
    (p : Fin 8192) (u : Fin 1) : broadcastInDim S8192x1 ![0] h v (ix2 p u) = v (ix1 p) :=
  broadcastInDim_apply _ h v _ _ fun a => by
    match a with
    | ⟨0, _⟩ => rfl

/-- A vector laid out as a row reads, at (u, c), the vector at c. -/
theorem vecToRow_apply (h : S8192.BroadcastsInDim S1x8192 (![1] : Fin 1 → Fin S1x8192.rank)) (v : FVec Ideal S8192 .f32)
    (u : Fin 1) (c : Fin 8192) : broadcastInDim S1x8192 ![1] h v (ix2 u c) = v (ix1 c) :=
  broadcastInDim_apply _ h v _ _ fun a => by
    match a with
    | ⟨0, _⟩ => rfl

/-! The two sums of the specification, read at an index. -/

/-- The sum of a table along its second axis from the zero word, at row i. -/
theorem rowSum_apply (m : FVec Ideal S8192x64 .f32) (h' : S8192x64.ReducesTo [1] S8192) (hu : 0 < S_.numel) (i : Fin 8192) :
    Host.reduceAdd (F := Ideal) m (constant (F := Ideal) S_ .f32 0x00000000#32) h' hu (ix1 i) = ∑ k : Fin 64, m (ix2 i k) := by
  have h : S8192x64.Reduces [1] S8192 := by decide
  show Ideal.hostReduceAdd h' m (Ideal.ofBits .f32 0x00000000#32) (ix1 i) = _
  rw [Ideal.hostReduceAdd_single h' h, Ideal.ofBits_zero_f32, zero_add]
  refine Finset.sum_congr rfl fun k _ => congrArg m (funext fun ax => Fin.ext ?_)
  match ax with
  | ⟨0, _⟩ => rfl
  | ⟨1, _⟩ => rfl

/-- The sum of the full table over both axes from the zero word: the double sum over rows and columns. -/
theorem totalSum_apply (m : FVec Ideal S8192x8192 .f32) (h' : S8192x8192.ReducesTo [0, 1] S_) (hu : 0 < S_.numel) :
    Host.reduceAdd (F := Ideal) m (constant (F := Ideal) S_ .f32 0x00000000#32) h' hu ix0
      = ∑ i : Fin 8192, ∑ j : Fin 8192, m (ix2 i j) := by
  show Ideal.hostReduceAdd h' m (Ideal.ofBits .f32 0x00000000#32) ix0 = _
  rw [Ideal.hostReduceAdd_total h' (fun b => b.elim0), Ideal.ofBits_zero_f32, zero_add, sum_idx2]

/-! The matrix product of the table with its transpose, read at an index. -/

theorem lhs_0 (i : S8192x8192.Idx) (q : dot_S8192x64_S64x8192_S8192x8192_1_0_0_1_n_n.contr.Idx) :
    (dot_S8192x64_S64x8192_S8192x8192_1_0_0_1_n_n.lhsIdx i q 0).val = (i 0).val := by
  unfold DotDims.lhsIdx
  rw [dif_neg (show ¬(0 : Fin S8192x64.rank) ∈ dot_S8192x64_S64x8192_S8192x8192_1_0_0_1_n_n.lhsBatch by decide), dif_pos (show (0 : Fin S8192x64.rank) ∈ dot_S8192x64_S64x8192_S8192x8192_1_0_0_1_n_n.lhsNonContracting by decide)]
  rfl

theorem lhs_1 (i : S8192x8192.Idx) (q : dot_S8192x64_S64x8192_S8192x8192_1_0_0_1_n_n.contr.Idx) :
    (dot_S8192x64_S64x8192_S8192x8192_1_0_0_1_n_n.lhsIdx i q 1).val = (q ⟨0, by decide⟩).val :=
  dot_S8192x64_S64x8192_S8192x8192_1_0_0_1_n_n.lhsIdx_val_of_single rfl i q

theorem rhs_0 (i : S8192x8192.Idx) (q : dot_S8192x64_S64x8192_S8192x8192_1_0_0_1_n_n.contr.Idx) :
    (dot_S8192x64_S64x8192_S8192x8192_1_0_0_1_n_n.rhsIdx i q 0).val = (q ⟨0, by decide⟩).val :=
  dot_S8192x64_S64x8192_S8192x8192_1_0_0_1_n_n.rhsIdx_val_of_single rfl i q

theorem rhs_1 (i : S8192x8192.Idx) (q : dot_S8192x64_S64x8192_S8192x8192_1_0_0_1_n_n.contr.Idx) :
    (dot_S8192x64_S64x8192_S8192x8192_1_0_0_1_n_n.rhsIdx i q 1).val = (i 1).val := by
  unfold DotDims.rhsIdx
  rw [dif_neg (show ¬(1 : Fin S64x8192.rank) ∈ dot_S8192x64_S64x8192_S8192x8192_1_0_0_1_n_n.rhsBatch by decide), dif_pos (show (1 : Fin S64x8192.rank) ∈ dot_S8192x64_S64x8192_S8192x8192_1_0_0_1_n_n.rhsNonContracting by decide)]
  rfl

/-- Entry (i, j) of the product of an 8192×64 table with a 64×8192 one. -/
theorem gram_apply (x : FVec Ideal S8192x64 .f32) (y : FVec Ideal S64x8192 .f32) (i j : Fin 8192) :
    Host.dotGeneral (F := Ideal) dot_S8192x64_S64x8192_S8192x8192_1_0_0_1_n_n none x y (ix2 i j)
      = ∑ k : Fin 64, x (ix2 i k) * y (ix2 k j) := by
  simp only [Host.dotGeneral]
  rw [Ideal.dotGeneral_apply, ← Equiv.sum_comp (contrEquiv1 dot_S8192x64_S64x8192_S8192x8192_1_0_0_1_n_n 64 rfl rfl).symm]
  refine Finset.sum_congr rfl fun k _ => ?_
  have hk := contrEquiv1_symm_val dot_S8192x64_S64x8192_S8192x8192_1_0_0_1_n_n 64 rfl rfl k
  have el : dot_S8192x64_S64x8192_S8192x8192_1_0_0_1_n_n.lhsIdx (ix2 i j) ((contrEquiv1 dot_S8192x64_S64x8192_S8192x8192_1_0_0_1_n_n 64 rfl rfl).symm k) = ix2 i k :=
    funext fun a => Fin.ext (by
      match a with
      | ⟨0, _⟩ => exact lhs_0 _ _
      | ⟨1, _⟩ => exact (lhs_1 _ _).trans hk)
  have er : dot_S8192x64_S64x8192_S8192x8192_1_0_0_1_n_n.rhsIdx (ix2 i j) ((contrEquiv1 dot_S8192x64_S64x8192_S8192x8192_1_0_0_1_n_n 64 rfl rfl).symm k) = ix2 k j :=
    funext fun a => Fin.ext (by
      match a with
      | ⟨0, _⟩ => exact (rhs_0 _ _).trans hk
      | ⟨1, _⟩ => exact rhs_1 _ _)
  rw [el, er]

/-! The summand of the specification over two rows of the table. -/

/-- The squared norm of row i. -/
def sqN (x : FVec Ideal S8192x64 .f32) (i : Fin 8192) : EReal := ∑ k : Fin 64, x (ix2 i k) * x (ix2 i k)

/-- The inner product of rows i and j. -/
def dotN (x : FVec Ideal S8192x64 .f32) (i j : Fin 8192) : EReal := ∑ k : Fin 64, x (ix2 i k) * x (ix2 j k)

/-- The Student-t kernel 1 / (1 + (|x_i|² + |x_j|² - 2 x_i·x_j)) of rows i and j. -/
def pairTerm (x : FVec Ideal S8192x64 .f32) (i j : Fin 8192) : EReal :=
  Ideal.div (Ideal.ofBits .f32 0x3F800000#32)
    (Ideal.ofBits .f32 0x3F800000#32 + ((sqN x i + sqN x j) - Ideal.ofBits .f32 0x40000000#32 * dotN x i j))

/-- The specification's pair total is the double sum of the Student-t kernel over all pairs of rows. -/
theorem pairTotal_apply (x : Spec.A S8192x64) :
    Spec.pairTotal x ix0 = ∑ i : Fin 8192, ∑ j : Fin 8192, pairTerm x i j := by
  unfold Spec.pairTotal
  refine (totalSum_apply _ _ _).trans ?_
  refine Finset.sum_congr rfl fun i _ => Finset.sum_congr rfl fun j _ => ?_
  unfold pairTerm
  refine congrArg₂ Ideal.div ?_ (congrArg₂ (· + ·) ?_ (congrArg₂ (· - ·) (congrArg₂ (· + ·) ?_ ?_) (congrArg₂ (· * ·) ?_ ?_)))
  · exact bcastScalar_apply _ _ _
  · exact bcastScalar_apply _ _ _
  · refine (bcastColumn_apply _ _ _ _).trans ?_
    refine (vecToColumn_apply _ _ _ _).trans ?_
    exact rowSum_apply _ _ _ _
  · refine (bcastRow_apply _ _ _ _).trans ?_
    refine (vecToRow_apply _ _ _ _).trans ?_
    exact rowSum_apply _ _ _ _
  · exact bcastScalar_apply _ _ _
  · refine (gram_apply _ _ _ _).trans ?_
    exact Finset.sum_congr rfl fun k _ => congrArg (x (ix2 i k) * ·) (transpose_ix2_apply _ _ _ _)

end Cert.PairAlgS

end
-- ==== Proof.PairAlg.lean ====
import proofs.«401426_j8332236554543_1_alg».proof.Proof.Gen.KernelIdeal.Skeleton
import proofs.«401426_j8332236554543_1_alg».proof.Proof.Spec
import proofs.«401426_j8332236554543_1_alg».proof.Proof.TopicRow
import proofs.«401426_j8332236554543_1_alg».proof.Proof.PairAlgK
import proofs.«401426_j8332236554543_1_alg».proof.Proof.PairAlgS
import Idealize.ShloMosaic.Lib.ValueIdx
import Idealize.ShloMosaic.PureOps.Ideal.Laws
import Mathlib.Algebra.BigOperators.Fin

noncomputable section

namespace Cert.PairAlg

open Idealize.ShloMosaic Idealize.ShloMosaic.ValueIdx Cert.TopicRow

variable [Cert.KernelIdeal.Facts] [Cert.ReferenceIdeal.Facts]

/-! Regrouping a double sum over all pairs of rows into blocks. -/

/-- A row of the table is a block and a row inside the block. -/
def rowEquiv : Fin 8 × Fin 1024 ≃ Fin 8192 where
  toFun p := rowIx p.1 p.2
  invFun i := (⟨i.val / 1024, by have := i.isLt; omega⟩, ⟨i.val % 1024, Nat.mod_lt _ (by decide)⟩)
  left_inv p := by
    obtain ⟨a, b⟩ := p
    have ha := a.isLt
    have hb := b.isLt
    refine Prod.ext (Fin.ext ?_) (Fin.ext ?_)
    · show (1024 * a.val + b.val) / 1024 = a.val
      omega
    · show (1024 * a.val + b.val) % 1024 = b.val
      omega
  right_inv i := Fin.ext (by
    show 1024 * (i.val / 1024) + i.val % 1024 = i.val
    omega)

/-- A sum over the 8192 rows is the sum over the 8 blocks of the sums over each block's 1024 rows. -/
theorem sum_rows {M : Type*} [AddCommMonoid M] (f : Fin 8192 → M) :
    ∑ i, f i = ∑ b : Fin 8, ∑ r : Fin 1024, f (rowIx b r) := by
  rw [← Equiv.sum_comp rowEquiv f, Fintype.sum_prod_type]
  rfl

/-- A grid point t = 8·a + b of the 8×8 grid is its pair of coordinates. -/
def pointEquiv : Fin 8 × Fin 8 ≃ Fin 64 where
  toFun p := ⟨8 * p.1.val + p.2.val, by have := p.1.isLt; have := p.2.isLt; omega⟩
  invFun u := (⟨u.val / 8, by have := u.isLt; omega⟩, ⟨u.val % 8, Nat.mod_lt _ (by decide)⟩)
  left_inv p := by
    obtain ⟨a, b⟩ := p
    have ha := a.isLt
    have hb := b.isLt
    refine Prod.ext (Fin.ext ?_) (Fin.ext ?_)
    · show (8 * a.val + b.val) / 8 = a.val
      omega
    · show (8 * a.val + b.val) % 8 = b.val
      omega
  right_inv u := Fin.ext (by
    show 8 * (u.val / 8) + u.val % 8 = u.val
    omega)

/-- A sum over the 64 grid points in order is the double sum over the grid's coordinates. -/
theorem sum_points {M : Type*} [AddCommMonoid M] (g : ℕ → M) :
    ∑ u ∈ Finset.range 64, g u = ∑ a : Fin 8, ∑ b : Fin 8, g (8 * a.val + b.val) := by
  rw [← Fin.sum_univ_eq_sum_range, ← Equiv.sum_comp pointEquiv (fun u : Fin 64 => g u.val), Fintype.sum_prod_type]
  rfl

/-- The double sum over all pairs of rows, regrouped into 8×8 blocks of 1024×1024 pairs. -/
theorem sum_pairs_blocks {M : Type*} [AddCommMonoid M] (T : Fin 8192 → Fin 8192 → M) :
    ∑ i, ∑ j, T i j = ∑ a : Fin 8, ∑ b : Fin 8, ∑ r : Fin 1024, ∑ c : Fin 1024, T (rowIx a r) (rowIx b c) :=
  calc ∑ i, ∑ j, T i j = ∑ i, ∑ b : Fin 8, ∑ c : Fin 1024, T i (rowIx b c) :=
        Finset.sum_congr rfl fun i _ => sum_rows (T i)
    _ = ∑ a : Fin 8, ∑ r : Fin 1024, ∑ b : Fin 8, ∑ c : Fin 1024, T (rowIx a r) (rowIx b c) :=
        sum_rows fun i => ∑ b : Fin 8, ∑ c : Fin 1024, T i (rowIx b c)
    _ = _ := Finset.sum_congr rfl fun a _ => Finset.sum_comm

/-! The accumulator's chain over the 64 grid points. -/

/-- The total of the Student-t kernel over the pairs of a row of block a and a row of block b. -/
def blockTotal (x : Spec.A Cert.ReferenceIdeal.S8192x64) (a b : Fin 8) : EReal :=
  ∑ r : Fin 1024, ∑ c : Fin 1024, PairAlgS.pairTerm x (rowIx a r) (rowIx b c)

/-- What grid point t adds to the accumulator: the total over row block t / 8 against row block t % 8. -/
def pointTotal (x : Spec.A Cert.ReferenceIdeal.S8192x64) (t : ℕ) : EReal :=
  blockTotal x ⟨t / 8 % 8, Nat.mod_lt _ (by decide)⟩ ⟨t % 8, Nat.mod_lt _ (by decide)⟩

/-- On blocks that are rows of the table, the kernel's summand is the specification's. -/
theorem kterm_eq (x : Spec.A Cert.ReferenceIdeal.S8192x64) (xi xj : FVec Ideal Cert.KernelIdeal.S1024x64 .f32) (a b : Fin 8)
    (hi : ∀ (r : Fin 1024) (k : Fin 64), xi (ix2 r k) = x (ix2 (rowIx a r) k))
    (hj : ∀ (r : Fin 1024) (k : Fin 64), xj (ix2 r k) = x (ix2 (rowIx b r) k)) (r c : Fin 1024) :
    PairAlgK.kterm xi xj r c = PairAlgS.pairTerm x (rowIx a r) (rowIx b c) := by
  unfold PairAlgK.kterm PairAlgS.pairTerm PairAlgK.sqRow PairAlgK.dotRow PairAlgS.sqN PairAlgS.dotN
  simp only [hi, hj]

/-- The pairwise kernel's accumulator, started at zero at grid point 0 and increased at grid point t = 8·bi + bj by
    the total of the Student-t kernel over row block bi against row block bj, ends after the 64 points at the total
    over all 8192² pairs of rows: a sum over pairs regrouped into 8×8 blocks of 1024×1024 pairs (sums of extended
    reals commute and associate, whatever their terms). -/
theorem acc_chain (x : Spec.A Cert.ReferenceIdeal.S8192x64)
    (blkI blkJ : (t : ℕ) → t < 64 → Vec Ideal Cert.KernelIdeal.S1024x64 .f32)
    (hI : ∀ (t : ℕ) (h : t < 64) (r : Fin 1024) (k : Fin 64), blkI t h (ix2 r k) = x (ix2 (rowIx ⟨t / 8, by omega⟩ r) k))
    (hJ : ∀ (t : ℕ) (h : t < 64) (r : Fin 1024) (k : Fin 64), blkJ t h (ix2 r k) = x (ix2 (rowIx ⟨t % 8, by omega⟩ r) k))
    (acc : (t : ℕ) → t < 64 → Vec Ideal Cert.KernelIdeal.S1x1 .f32)
    (h0 : acc 0 (by decide) = Cert.KernelIdeal.Gen.k3_pay2 (F := Ideal) (blkI 0 (by decide)) (blkJ 0 (by decide)) (Cert.KernelIdeal.Gen.k3_pay1 (F := Ideal)))
    (hs : ∀ (t : ℕ) (h : t + 1 < 64), acc (t + 1) h = Cert.KernelIdeal.Gen.k3_pay2 (F := Ideal) (blkI (t + 1) h) (blkJ (t + 1) h) (acc t (Nat.lt_of_succ_lt h))) :
    acc 63 (by decide) (ix2 (0 : Fin 1) (0 : Fin 1)) = Spec.pairTotal x ix0 := by
  -- one grid point: the accumulator it loaded plus that point's block total
  have step : ∀ (t : ℕ) (h : t < 64) (a : FVec Ideal Cert.KernelIdeal.S1x1 .f32),
      Cert.KernelIdeal.Gen.k3_pay2 (F := Ideal) (blkI t h) (blkJ t h) a (ix2 (0 : Fin 1) (0 : Fin 1))
        = a (ix2 (0 : Fin 1) (0 : Fin 1)) + pointTotal x t := by
    intro t h a
    refine (PairAlgK.pay2_apply _ _ _).trans ?_
    refine congrArg (a (ix2 (0 : Fin 1) (0 : Fin 1)) + ·) ?_
    unfold pointTotal blockTotal
    have e : (⟨t / 8, by omega⟩ : Fin 8) = ⟨t / 8 % 8, Nat.mod_lt _ (by decide)⟩ := Fin.ext (by
      show t / 8 = t / 8 % 8
      omega)
    refine Finset.sum_congr rfl fun r _ => Finset.sum_congr rfl fun c _ => ?_
    rw [← e]
    exact kterm_eq x _ _ ⟨t / 8, by omega⟩ ⟨t % 8, by omega⟩ (hI t h) (hJ t h) r c
  -- the chain: after point t the accumulator holds the block totals of the points up to t
  have chain : ∀ (t : ℕ) (h : t < 64), acc t h (ix2 (0 : Fin 1) (0 : Fin 1)) = ∑ u ∈ Finset.range (t + 1), pointTotal x u := by
    intro t
    induction t with
    | zero =>
      intro h
      refine (congrFun h0 _).trans ?_
      refine (step 0 _ _).trans ?_
      show Ideal.ofBits .f32 0x00000000#32 + _ = _
      rw [Ideal.ofBits_zero_f32, Finset.sum_range_succ, Finset.sum_range_zero]
    | succ t ih =>
      intro h
      refine (congrFun (hs t h) _).trans ?_
      refine (step (t + 1) h _).trans ?_
      rw [Finset.sum_range_succ _ (t + 1), ih]
  have last : acc 63 (by decide) (ix2 (0 : Fin 1) (0 : Fin 1)) = ∑ u ∈ Finset.range 64, pointTotal x u := chain 63 (by decide)
  rw [last, PairAlgS.pairTotal_apply, sum_pairs_blocks, sum_points]
  refine Finset.sum_congr rfl fun a _ => Finset.sum_congr rfl fun b _ => ?_
  unfold pointTotal
  have ha := a.isLt
  have hb := b.isLt
  have ea : (⟨(8 * a.val + b.val) / 8 % 8, Nat.mod_lt _ (by decide)⟩ : Fin 8) = a := Fin.ext (by
    show (8 * a.val + b.val) / 8 % 8 = a.val
    omega)
  have eb : (⟨(8 * a.val + b.val) % 8, Nat.mod_lt _ (by decide)⟩ : Fin 8) = b := Fin.ext (by
    show (8 * a.val + b.val) % 8 = b.val
    omega)
  rw [ea, eb]
  rfl

end Cert.PairAlg

end
-- ==== Proof.KernelValue0.lean ====
import proofs.«401426_j8332236554543_1_alg».proof.Proof.KI.Topic0
import proofs.«401426_j8332236554543_1_alg».proof.Proof.TopicRow
import proofs.«401426_j8332236554543_1_alg».proof.Proof.Spec
import Idealize.ShloMosaic.Lib.Pipeline.Value
import Idealize.ShloMosaic.Lib.ValueIdx

set_option maxRecDepth 16384

noncomputable section

namespace Cert.KernelValue.R0

open Idealize.ShloMosaic Idealize.ShloMosaic.TcCoe Idealize.ShloMosaic.ValueIdx
open Idealize.ShloMosaic.Pipeline (Dat)
open Cert.KernelIdeal Cert.KernelIdeal.Gen Cert.KernelIdeal.Hand Cert.TopicRow

/-- The printed index maps over the eight grid points: the logits, the noise and the embedding move one row block per
    point; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point of the region is one of eight. -/
theorem lt8 (t : Fin cfg0.N) : t.val < 8 := lt_of_lt_of_eq t.isLt (show cfg0.N = 8 from N_0)

variable [Cert.ReferenceIdeal.Facts]

variable (V : (c : Dev nD) → (b : Ref sig .tc) → Buf (Elt Ideal) ((c : Thread nD τ).loc b))

/-- The logits block at point t is rows 1024·t … 1024·t + 1023 of the logits array. -/
theorem logits_read (c : Dev nD) (t : Fin cfg0.N) (r : Fin 1024) (k : Fin 128) :
    (blk0 V c 0 t : Vec Ideal S1024x128 .f32) (ix2 r k)
      = (V c main_arg4 : Vec Ideal S8192x128 .f32) (ix2 (rowIx ⟨t.val, lt8 t⟩ r) k) := by
  obtain ⟨e0, e1, -⟩ := idx_facts t
  unfold blk0
  rw [View.read_apply]
  show V c main_arg4 (((cfg0.win 0).blk t).view.emb (ix2 r k)) = V c main_arg4 _
  congr 1
  funext a
  apply Fin.ext
  match a with
  | ⟨0, _⟩ => show win0_0.index t (0 : Fin 2) * 1024 + 1 * r.val = 1024 * t.val + r.val; rw [e0]; omega
  | ⟨1, _⟩ => show win0_0.index t (1 : Fin 2) * 128 + 1 * k.val = k.val; rw [e1]; omega

/-- The noise block at point t is the same rows of the noise array. -/
theorem noise_read (c : Dev nD) (t : Fin cfg0.N) (r : Fin 1024) (k : Fin 128) :
    (blk0 V c 1 t : Vec Ideal S1024x128 .f32) (ix2 r k)
      = (V c main_arg1 : Vec Ideal S8192x128 .f32) (ix2 (rowIx ⟨t.val, lt8 t⟩ r) k) := by
  obtain ⟨-, -, e0, e1, -⟩ := idx_facts t
  unfold blk0
  rw [View.read_apply]
  show V c main_arg1 (((cfg0.win 1).blk t).view.emb (ix2 r k)) = V c main_arg1 _
  congr 1
  funext a
  apply Fin.ext
  match a with
  | ⟨0, _⟩ => show win0_1.index t (0 : Fin 2) * 1024 + 1 * r.val = 1024 * t.val + r.val; rw [e0]; omega
  | ⟨1, _⟩ => show win0_1.index t (1 : Fin 2) * 128 + 1 * k.val = k.val; rw [e1]; omega

/-- The weight window's one block is its whole array. -/
theorem weights_read (c : Dev nD) (t : Fin cfg0.N) (k : Fin 128) (d : Fin 64) :
    (blk0 V c 2 t : Vec Ideal S128x64 .f32) (ix2 k d) = (V c main_v0 : Vec Ideal S128x64 .f32) (ix2 k d) := by
  obtain ⟨-, -, -, -, e0, e1, -⟩ := idx_facts t
  unfold blk0
  rw [View.read_apply]
  show V c main_v0 (((cfg0.win 2).blk t).view.emb (ix2 k d)) = V c main_v0 _
  congr 1
  funext a
  apply Fin.ext
  match a with
  | ⟨0, _⟩ => show win0_2.index t (0 : Fin 2) * 128 + 1 * k.val = k.val; rw [e0]; omega
  | ⟨1, _⟩ => show win0_2.index t (1 : Fin 2) * 64 + 1 * d.val = d.val; rw [e1]; omega

/-- The bias window's one block is its whole array. -/
theorem bias_read (c : Dev nD) (t : Fin cfg0.N) (z : Fin 1) (d : Fin 64) :
    (blk0 V c 3 t : Vec Ideal S1x64 .f32) (ix2 z d) = (V c main_v1 : Vec Ideal S1x64 .f32) (ix2 z d) := by
  obtain ⟨-, -, -, -, -, -, e0, e1, -⟩ := idx_facts t
  unfold blk0
  rw [View.read_apply]
  show V c main_v1 (((cfg0.win 3).blk t).view.emb (ix2 z d)) = V c main_v1 _
  congr 1
  funext a
  apply Fin.ext
  match a with
  | ⟨0, _⟩ => show win0_3.index t (0 : Fin 2) * 1 + 1 * z.val = z.val; rw [e0]; omega
  | ⟨1, _⟩ => show win0_3.index t (1 : Fin 2) * 64 + 1 * d.val = d.val; rw [e1]; omega

/-- When a block of 1024 rows agrees, entry by entry, with rows 1024·t … of a whole array, and it is what the
    embedding window's buffer holds after point t, then what point t writes back is block t of that array. -/
theorem flushed_of_point (c : Dev nD) (t : Fin cfg0.N) (P : Vec Ideal S1024x64 .f32) (G : Vec Ideal S8192x64 .f32)
    (hP : (dat0 V c).after 4 t = P)
    (hG : ∀ (r : Fin 1024) (d : Fin 64), P (ix2 r d) = G (ix2 (rowIx ⟨t.val, lt8 t⟩ r) d)) :
    (dat0 V c).flushed 4 t = ((cfg0.win 4).blk t).view.read (Elt Ideal) G := by
  obtain ⟨-, -, -, -, -, -, -, -, e0, e1⟩ := idx_facts t
  show (cfg0.win 4).cut (grid0.coords t) ((dat0 V c).after 4 t) = _
  rw [hP]
  funext j
  obtain ⟨r, d, rfl⟩ : ∃ (r : Fin 1024) (d : Fin 64), j = ix2 r d := ⟨j 0, j 1, eq_ix2 (n0 := 1024) (n1 := 64) j⟩
  rw [View.read_apply]
  refine (hG r d).trans ?_
  show G _ = G (((cfg0.win 4).blk t).view.emb (ix2 r d))
  congr 1
  funext a
  apply Fin.ext
  match a with
  | ⟨0, _⟩ => show 1024 * t.val + r.val = win0_4.index t (0 : Fin 2) * 1024 + 1 * r.val; rw [e0]; omega
  | ⟨1, _⟩ => show d.val = win0_4.index t (1 : Fin 2) * 64 + 1 * d.val; rw [e1]; omega

/-- One point of the region computes its 1024 rows of the whole-table embedding. -/
theorem point_eq (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d))
    (t : Fin cfg0.N) (r : Fin 1024) (d : Fin 64) :
    k0_pay1 (F := Ideal) (blk0 V c 1 t) (blk0 V c 0 t) (blk0 V c 2 t) (blk0 V c 3 t) (ix2 r d)
      = Spec.topic (V c main_arg4) (V c main_arg1) w b (ix2 (rowIx ⟨t.val, lt8 t⟩ r) d) :=
  pay1_eq_topic0 (V c main_arg4) (V c main_arg1) w b (blk0 V c 0 t) (blk0 V c 1 t) (blk0 V c 2 t) (blk0 V c 3 t) ⟨t.val, lt8 t⟩
    (logits_read V c t) (noise_read V c t)
    (fun k d => (weights_read V c t k d).trans (hw k d)) (fun d => (bias_read V c t 0 d).trans (hb d)) r d

/-- What point t writes back is block t of the whole-table embedding. -/
theorem flushed_eq (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d))
    (t : Fin cfg0.N) :
    (dat0 V c).flushed 4 t
      = ((cfg0.win 4).blk t).view.read (Elt Ideal) (Spec.topic (V c main_arg4) (V c main_arg1) w b) :=
  flushed_of_point V c t _ _ (after0_4 V c t) (point_eq V c w b hw hb t)

/-- An index of the embedding array is in point t's block iff each coordinate is in the block's range on its axis. -/
theorem mem_blk (t : Fin cfg0.N) (i : S8192x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v4_0).slice (win0_4.rect t)).set ↔ _
  rw [View.set_slice_whole, Rect.mem_set_unit]
  exact Iff.rfl

/-- Row R of the embedding array is in the block of point R / 1024, which writes back. -/
theorem cover (i : S8192x64.Idx) : ∃ t : Fin cfg0.N, (cfg0.win 4).flush t = true ∧ i ∈ ((cfg0.win 4).blk t).view.set := by
  have h0 : (i 0).val < 8192 := (i 0).isLt
  have h1 : (i 1).val < 64 := (i 1).isLt
  have hq : (i 0).val / 1024 < cfg0.N := lt_of_lt_of_eq (by omega : (i 0).val / 1024 < 8) (show cfg0.N = 8 from N_0).symm
  obtain ⟨-, -, -, -, -, -, -, -, e0, e1⟩ := idx_facts ⟨(i 0).val / 1024, hq⟩
  refine ⟨⟨(i 0).val / 1024, hq⟩, flush0_4 _, ?_⟩
  rw [mem_blk]
  intro a
  match a with
  | ⟨0, _⟩ =>
    show win0_4.index ⟨(i 0).val / 1024, hq⟩ (0 : Fin 2) * 1024 ≤ (i 0).val
      ∧ (i 0).val < win0_4.index ⟨(i 0).val / 1024, hq⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, hq⟩ (1 : Fin 2) * 64 ≤ (i 1).val
      ∧ (i 1).val < win0_4.index ⟨(i 0).val / 1024, hq⟩ (1 : Fin 2) * 64 + 64
    rw [e1]; omega

/-- So after the region the embedding array holds the topic embedding of the whole tables. -/
theorem final (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d)) :
    ((dat0 V c).arrAt 4 cfg0.N : Vec Ideal S8192x64 .f32) = Spec.topic (V c main_arg4) (V c main_arg1) w b :=
  (dat0 V c).arrAt_eq_of_cover 4 (Spec.topic (V c main_arg4) (V c main_arg1) w b)
    (fun t _ => flushed_eq V c w b hw hb t) cover

end Cert.KernelValue.R0

end
-- ==== Proof.KernelValue1.lean ====
import proofs.«401426_j8332236554543_1_alg».proof.Proof.KI.Topic1
import proofs.«401426_j8332236554543_1_alg».proof.Proof.TopicRow
import proofs.«401426_j8332236554543_1_alg».proof.Proof.Spec
import Idealize.ShloMosaic.Lib.Pipeline.Value
import Idealize.ShloMosaic.Lib.ValueIdx

set_option maxRecDepth 16384

noncomputable section

namespace Cert.KernelValue.R1

open Idealize.ShloMosaic Idealize.ShloMosaic.TcCoe Idealize.ShloMosaic.ValueIdx
open Idealize.ShloMosaic.Pipeline (Dat)
open Cert.KernelIdeal Cert.KernelIdeal.Gen Cert.KernelIdeal.Hand Cert.TopicRow

/-- The printed index maps over the eight grid points: the logits, the noise and the embedding move one row block per
    point; the weights and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point of the region is one of eight. -/
theorem lt8 (t : Fin cfg1.N) : t.val < 8 := lt_of_lt_of_eq t.isLt (show cfg1.N = 8 from N_1)

variable [Cert.ReferenceIdeal.Facts]

variable (V : (c : Dev nD) → (b : Ref sig .tc) → Buf (Elt Ideal) ((c : Thread nD τ).loc b))

/-- The logits block at point t is rows 1024·t … 1024·t + 1023 of the logits array. -/
theorem logits_read (c : Dev nD) (t : Fin cfg1.N) (r : Fin 1024) (k : Fin 128) :
    (blk1 V c 0 t : Vec Ideal S1024x128 .f32) (ix2 r k)
      = (V c main_v2 : Vec Ideal S8192x128 .f32) (ix2 (rowIx ⟨t.val, lt8 t⟩ r) k) := by
  obtain ⟨e0, e1, -⟩ := idx_facts t
  unfold blk1
  rw [View.read_apply]
  show V c main_v2 (((cfg1.win 0).blk t).view.emb (ix2 r k)) = V c main_v2 _
  congr 1
  funext a
  apply Fin.ext
  match a with
  | ⟨0, _⟩ => show win1_0.index t (0 : Fin 2) * 1024 + 1 * r.val = 1024 * t.val + r.val; rw [e0]; omega
  | ⟨1, _⟩ => show win1_0.index t (1 : Fin 2) * 128 + 1 * k.val = k.val; rw [e1]; omega

/-- The noise block at point t is the same rows of the noise array. -/
theorem noise_read (c : Dev nD) (t : Fin cfg1.N) (r : Fin 1024) (k : Fin 128) :
    (blk1 V c 1 t : Vec Ideal S1024x128 .f32) (ix2 r k)
      = (V c main_arg2 : Vec Ideal S8192x128 .f32) (ix2 (rowIx ⟨t.val, lt8 t⟩ r) k) := by
  obtain ⟨-, -, e0, e1, -⟩ := idx_facts t
  unfold blk1
  rw [View.read_apply]
  show V c main_arg2 (((cfg1.win 1).blk t).view.emb (ix2 r k)) = V c main_arg2 _
  congr 1
  funext a
  apply Fin.ext
  match a with
  | ⟨0, _⟩ => show win1_1.index t (0 : Fin 2) * 1024 + 1 * r.val = 1024 * t.val + r.val; rw [e0]; omega
  | ⟨1, _⟩ => show win1_1.index t (1 : Fin 2) * 128 + 1 * k.val = k.val; rw [e1]; omega

/-- The weight window's one block is its whole array. -/
theorem weights_read (c : Dev nD) (t : Fin cfg1.N) (k : Fin 128) (d : Fin 64) :
    (blk1 V c 2 t : Vec Ideal S128x64 .f32) (ix2 k d) = (V c main_v0 : Vec Ideal S128x64 .f32) (ix2 k d) := by
  obtain ⟨-, -, -, -, e0, e1, -⟩ := idx_facts t
  unfold blk1
  rw [View.read_apply]
  show V c main_v0 (((cfg1.win 2).blk t).view.emb (ix2 k d)) = V c main_v0 _
  congr 1
  funext a
  apply Fin.ext
  match a with
  | ⟨0, _⟩ => show win1_2.index t (0 : Fin 2) * 128 + 1 * k.val = k.val; rw [e0]; omega
  | ⟨1, _⟩ => show win1_2.index t (1 : Fin 2) * 64 + 1 * d.val = d.val; rw [e1]; omega

/-- The bias window's one block is its whole array. -/
theorem bias_read (c : Dev nD) (t : Fin cfg1.N) (z : Fin 1) (d : Fin 64) :
    (blk1 V c 3 t : Vec Ideal S1x64 .f32) (ix2 z d) = (V c main_v1 : Vec Ideal S1x64 .f32) (ix2 z d) := by
  obtain ⟨-, -, -, -, -, -, e0, e1, -⟩ := idx_facts t
  unfold blk1
  rw [View.read_apply]
  show V c main_v1 (((cfg1.win 3).blk t).view.emb (ix2 z d)) = V c main_v1 _
  congr 1
  funext a
  apply Fin.ext
  match a with
  | ⟨0, _⟩ => show win1_3.index t (0 : Fin 2) * 1 + 1 * z.val = z.val; rw [e0]; omega
  | ⟨1, _⟩ => show win1_3.index t (1 : Fin 2) * 64 + 1 * d.val = d.val; rw [e1]; omega

/-- When a block of 1024 rows agrees, entry by entry, with rows 1024·t … of a whole array, and it is what the
    embedding window's buffer holds after point t, then what point t writes back is block t of that array. -/
theorem flushed_of_point (c : Dev nD) (t : Fin cfg1.N) (P : Vec Ideal S1024x64 .f32) (G : Vec Ideal S8192x64 .f32)
    (hP : (dat1 V c).after 4 t = P)
    (hG : ∀ (r : Fin 1024) (d : Fin 64), P (ix2 r d) = G (ix2 (rowIx ⟨t.val, lt8 t⟩ r) d)) :
    (dat1 V c).flushed 4 t = ((cfg1.win 4).blk t).view.read (Elt Ideal) G := by
  obtain ⟨-, -, -, -, -, -, -, -, e0, e1⟩ := idx_facts t
  show (cfg1.win 4).cut (grid1.coords t) ((dat1 V c).after 4 t) = _
  rw [hP]
  funext j
  obtain ⟨r, d, rfl⟩ : ∃ (r : Fin 1024) (d : Fin 64), j = ix2 r d := ⟨j 0, j 1, eq_ix2 (n0 := 1024) (n1 := 64) j⟩
  rw [View.read_apply]
  refine (hG r d).trans ?_
  show G _ = G (((cfg1.win 4).blk t).view.emb (ix2 r d))
  congr 1
  funext a
  apply Fin.ext
  match a with
  | ⟨0, _⟩ => show 1024 * t.val + r.val = win1_4.index t (0 : Fin 2) * 1024 + 1 * r.val; rw [e0]; omega
  | ⟨1, _⟩ => show d.val = win1_4.index t (1 : Fin 2) * 64 + 1 * d.val; rw [e1]; omega

/-- One point of the region computes its 1024 rows of the whole-table embedding. -/
theorem point_eq (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d))
    (t : Fin cfg1.N) (r : Fin 1024) (d : Fin 64) :
    k1_pay1 (F := Ideal) (blk1 V c 1 t) (blk1 V c 0 t) (blk1 V c 2 t) (blk1 V c 3 t) (ix2 r d)
      = Spec.topic (V c main_v2) (V c main_arg2) w b (ix2 (rowIx ⟨t.val, lt8 t⟩ r) d) :=
  pay1_eq_topic1 (V c main_v2) (V c main_arg2) w b (blk1 V c 0 t) (blk1 V c 1 t) (blk1 V c 2 t) (blk1 V c 3 t) ⟨t.val, lt8 t⟩
    (logits_read V c t) (noise_read V c t)
    (fun k d => (weights_read V c t k d).trans (hw k d)) (fun d => (bias_read V c t 0 d).trans (hb d)) r d

/-- What point t writes back is block t of the whole-table embedding. -/
theorem flushed_eq (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d))
    (t : Fin cfg1.N) :
    (dat1 V c).flushed 4 t
      = ((cfg1.win 4).blk t).view.read (Elt Ideal) (Spec.topic (V c main_v2) (V c main_arg2) w b) :=
  flushed_of_point V c t _ _ (after1_4 V c t) (point_eq V c w b hw hb t)

/-- An index of the embedding array is in point t's block iff each coordinate is in the block's range on its axis. -/
theorem mem_blk (t : Fin cfg1.N) (i : S8192x64.Idx) :
    i ∈ ((cfg1.win 4).blk t).view.set ↔ ∀ a : Fin 2, win1_4.index t a * S1024x64.size a ≤ (i a).val
      ∧ (i a).val < win1_4.index t a * S1024x64.size a + S1024x64.size a := by
  show i ∈ ((View.whole main_v5_0).slice (win1_4.rect t)).set ↔ _
  rw [View.set_slice_whole, Rect.mem_set_unit]
  exact Iff.rfl

/-- Row R of the embedding array is in the block of point R / 1024, which writes back. -/
theorem cover (i : S8192x64.Idx) : ∃ t : Fin cfg1.N, (cfg1.win 4).flush t = true ∧ i ∈ ((cfg1.win 4).blk t).view.set := by
  have h0 : (i 0).val < 8192 := (i 0).isLt
  have h1 : (i 1).val < 64 := (i 1).isLt
  have hq : (i 0).val / 1024 < cfg1.N := lt_of_lt_of_eq (by omega : (i 0).val / 1024 < 8) (show cfg1.N = 8 from N_1).symm
  obtain ⟨-, -, -, -, -, -, -, -, e0, e1⟩ := idx_facts ⟨(i 0).val / 1024, hq⟩
  refine ⟨⟨(i 0).val / 1024, hq⟩, flush1_4 _, ?_⟩
  rw [mem_blk]
  intro a
  match a with
  | ⟨0, _⟩ =>
    show win1_4.index ⟨(i 0).val / 1024, hq⟩ (0 : Fin 2) * 1024 ≤ (i 0).val
      ∧ (i 0).val < win1_4.index ⟨(i 0).val / 1024, hq⟩ (0 : Fin 2) * 1024 + 1024
    rw [e0]; show (i 0).val / 1024 * 1024 ≤ (i 0).val ∧ (i 0).val < (i 0).val / 1024 * 1024 + 1024; omega
  | ⟨1, _⟩ =>
    show win1_4.index ⟨(i 0).val / 1024, hq⟩ (1 : Fin 2) * 64 ≤ (i 1).val
      ∧ (i 1).val < win1_4.index ⟨(i 0).val / 1024, hq⟩ (1 : Fin 2) * 64 + 64
    rw [e1]; omega

/-- So after the region the embedding array holds the topic embedding of the whole tables. -/
theorem final (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d)) :
    ((dat1 V c).arrAt 4 cfg1.N : Vec Ideal S8192x64 .f32) = Spec.topic (V c main_v2) (V c main_arg2) w b :=
  (dat1 V c).arrAt_eq_of_cover 4 (Spec.topic (V c main_v2) (V c main_arg2) w b)
    (fun t _ => flushed_eq V c w b hw hb t) cover

end Cert.KernelValue.R1

end
-- ==== Proof.KernelValue2.lean ====
import proofs.«401426_j8332236554543_1_alg».proof.Proof.KI.Topic2
import proofs.«401426_j8332236554543_1_alg».proof.Proof.TopicRow
import proofs.«401426_j8332236554543_1_alg».proof.Proof.Spec
import Idealize.ShloMosaic.Lib.Pipeline.Value
import Idealize.ShloMosaic.Lib.ValueIdx

set_option maxRecDepth 16384

noncomputable section

namespace Cert.KernelValue.R2

open Idealize.ShloMosaic Idealize.ShloMosaic.TcCoe Idealize.ShloMosaic.ValueIdx
open Idealize.ShloMosaic.Pipeline (Dat)
open Cert.KernelIdeal Cert.KernelIdeal.Gen Cert.KernelIdeal.Hand Cert.TopicRow

/-- The printed index maps over the eight grid points: the logits, the noise and the embedding move one row block per
    point; the weights and the bias stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A grid point of the region is one of eight. -/
theorem lt8 (t : Fin cfg2.N) : t.val < 8 := lt_of_lt_of_eq t.isLt (show cfg2.N = 8 from N_2)

variable [Cert.ReferenceIdeal.Facts]

variable (V : (c : Dev nD) → (b : Ref sig .tc) → Buf (Elt Ideal) ((c : Thread nD τ).loc b))

/-- The logits block at point t is rows 1024·t … 1024·t + 1023 of the logits array. -/
theorem logits_read (c : Dev nD) (t : Fin cfg2.N) (r : Fin 1024) (k : Fin 128) :
    (blk2 V c 0 t : Vec Ideal S1024x128 .f32) (ix2 r k)
      = (V c main_v3 : Vec Ideal S8192x128 .f32) (ix2 (rowIx ⟨t.val, lt8 t⟩ r) k) := by
  obtain ⟨e0, e1, -⟩ := idx_facts t
  unfold blk2
  rw [View.read_apply]
  show V c main_v3 (((cfg2.win 0).blk t).view.emb (ix2 r k)) = V c main_v3 _
  congr 1
  funext a
  apply Fin.ext
  match a with
  | ⟨0, _⟩ => show win2_0.index t (0 : Fin 2) * 1024 + 1 * r.val = 1024 * t.val + r.val; rw [e0]; omega
  | ⟨1, _⟩ => show win2_0.index t (1 : Fin 2) * 128 + 1 * k.val = k.val; rw [e1]; omega

/-- The noise block at point t is the same rows of the noise array. -/
theorem noise_read (c : Dev nD) (t : Fin cfg2.N) (r : Fin 1024) (k : Fin 128) :
    (blk2 V c 1 t : Vec Ideal S1024x128 .f32) (ix2 r k)
      = (V c main_arg3 : Vec Ideal S8192x128 .f32) (ix2 (rowIx ⟨t.val, lt8 t⟩ r) k) := by
  obtain ⟨-, -, e0, e1, -⟩ := idx_facts t
  unfold blk2
  rw [View.read_apply]
  show V c main_arg3 (((cfg2.win 1).blk t).view.emb (ix2 r k)) = V c main_arg3 _
  congr 1
  funext a
  apply Fin.ext
  match a with
  | ⟨0, _⟩ => show win2_1.index t (0 : Fin 2) * 1024 + 1 * r.val = 1024 * t.val + r.val; rw [e0]; omega
  | ⟨1, _⟩ => show win2_1.index t (1 : Fin 2) * 128 + 1 * k.val = k.val; rw [e1]; omega

/-- The weight window's one block is its whole array. -/
theorem weights_read (c : Dev nD) (t : Fin cfg2.N) (k : Fin 128) (d : Fin 64) :
    (blk2 V c 2 t : Vec Ideal S128x64 .f32) (ix2 k d) = (V c main_v0 : Vec Ideal S128x64 .f32) (ix2 k d) := by
  obtain ⟨-, -, -, -, e0, e1, -⟩ := idx_facts t
  unfold blk2
  rw [View.read_apply]
  show V c main_v0 (((cfg2.win 2).blk t).view.emb (ix2 k d)) = V c main_v0 _
  congr 1
  funext a
  apply Fin.ext
  match a with
  | ⟨0, _⟩ => show win2_2.index t (0 : Fin 2) * 128 + 1 * k.val = k.val; rw [e0]; omega
  | ⟨1, _⟩ => show win2_2.index t (1 : Fin 2) * 64 + 1 * d.val = d.val; rw [e1]; omega

/-- The bias window's one block is its whole array. -/
theorem bias_read (c : Dev nD) (t : Fin cfg2.N) (z : Fin 1) (d : Fin 64) :
    (blk2 V c 3 t : Vec Ideal S1x64 .f32) (ix2 z d) = (V c main_v1 : Vec Ideal S1x64 .f32) (ix2 z d) := by
  obtain ⟨-, -, -, -, -, -, e0, e1, -⟩ := idx_facts t
  unfold blk2
  rw [View.read_apply]
  show V c main_v1 (((cfg2.win 3).blk t).view.emb (ix2 z d)) = V c main_v1 _
  congr 1
  funext a
  apply Fin.ext
  match a with
  | ⟨0, _⟩ => show win2_3.index t (0 : Fin 2) * 1 + 1 * z.val = z.val; rw [e0]; omega
  | ⟨1, _⟩ => show win2_3.index t (1 : Fin 2) * 64 + 1 * d.val = d.val; rw [e1]; omega

/-- When a block of 1024 rows agrees, entry by entry, with rows 1024·t … of a whole array, and it is what the
    embedding window's buffer holds after point t, then what point t writes back is block t of that array. -/
theorem flushed_of_point (c : Dev nD) (t : Fin cfg2.N) (P : Vec Ideal S1024x64 .f32) (G : Vec Ideal S8192x64 .f32)
    (hP : (dat2 V c).after 4 t = P)
    (hG : ∀ (r : Fin 1024) (d : Fin 64), P (ix2 r d) = G (ix2 (rowIx ⟨t.val, lt8 t⟩ r) d)) :
    (dat2 V c).flushed 4 t = ((cfg2.win 4).blk t).view.read (Elt Ideal) G := by
  obtain ⟨-, -, -, -, -, -, -, -, e0, e1⟩ := idx_facts t
  show (cfg2.win 4).cut (grid2.coords t) ((dat2 V c).after 4 t) = _
  rw [hP]
  funext j
  obtain ⟨r, d, rfl⟩ : ∃ (r : Fin 1024) (d : Fin 64), j = ix2 r d := ⟨j 0, j 1, eq_ix2 (n0 := 1024) (n1 := 64) j⟩
  rw [View.read_apply]
  refine (hG r d).trans ?_
  show G _ = G (((cfg2.win 4).blk t).view.emb (ix2 r d))
  congr 1
  funext a
  apply Fin.ext
  match a with
  | ⟨0, _⟩ => show 1024 * t.val + r.val = win2_4.index t (0 : Fin 2) * 1024 + 1 * r.val; rw [e0]; omega
  | ⟨1, _⟩ => show d.val = win2_4.index t (1 : Fin 2) * 64 + 1 * d.val; rw [e1]; omega

/-- One point of the region computes its 1024 rows of the whole-table embedding. -/
theorem point_eq (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d))
    (t : Fin cfg2.N) (r : Fin 1024) (d : Fin 64) :
    k2_pay1 (F := Ideal) (blk2 V c 1 t) (blk2 V c 0 t) (blk2 V c 2 t) (blk2 V c 3 t) (ix2 r d)
      = Spec.topic (V c main_v3) (V c main_arg3) w b (ix2 (rowIx ⟨t.val, lt8 t⟩ r) d) :=
  pay1_eq_topic2 (V c main_v3) (V c main_arg3) w b (blk2 V c 0 t) (blk2 V c 1 t) (blk2 V c 2 t) (blk2 V c 3 t) ⟨t.val, lt8 t⟩
    (logits_read V c t) (noise_read V c t)
    (fun k d => (weights_read V c t k d).trans (hw k d)) (fun d => (bias_read V c t 0 d).trans (hb d)) r d

/-- What point t writes back is block t of the whole-table embedding. -/
theorem flushed_eq (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d))
    (t : Fin cfg2.N) :
    (dat2 V c).flushed 4 t
      = ((cfg2.win 4).blk t).view.read (Elt Ideal) (Spec.topic (V c main_v3) (V c main_arg3) w b) :=
  flushed_of_point V c t _ _ (after2_4 V c t) (point_eq V c w b hw hb t)

/-- An index of the embedding array is in point t's block iff each coordinate is in the block's range on its axis. -/
theorem mem_blk (t : Fin cfg2.N) (i : S8192x64.Idx) :
    i ∈ ((cfg2.win 4).blk t).view.set ↔ ∀ a : Fin 2, win2_4.index t a * S1024x64.size a ≤ (i a).val
      ∧ (i a).val < win2_4.index t a * S1024x64.size a + S1024x64.size a := by
  show i ∈ ((View.whole main_v6_0).slice (win2_4.rect t)).set ↔ _
  rw [View.set_slice_whole, Rect.mem_set_unit]
  exact Iff.rfl

/-- Row R of the embedding array is in the block of point R / 1024, which writes back. -/
theorem cover (i : S8192x64.Idx) : ∃ t : Fin cfg2.N, (cfg2.win 4).flush t = true ∧ i ∈ ((cfg2.win 4).blk t).view.set := by
  have h0 : (i 0).val < 8192 := (i 0).isLt
  have h1 : (i 1).val < 64 := (i 1).isLt
  have hq : (i 0).val / 1024 < cfg2.N := lt_of_lt_of_eq (by omega : (i 0).val / 1024 < 8) (show cfg2.N = 8 from N_2).symm
  obtain ⟨-, -, -, -, -, -, -, -, e0, e1⟩ := idx_facts ⟨(i 0).val / 1024, hq⟩
  refine ⟨⟨(i 0).val / 1024, hq⟩, flush2_4 _, ?_⟩
  rw [mem_blk]
  intro a
  match a with
  | ⟨0, _⟩ =>
    show win2_4.index ⟨(i 0).val / 1024, hq⟩ (0 : Fin 2) * 1024 ≤ (i 0).val
      ∧ (i 0).val < win2_4.index ⟨(i 0).val / 1024, hq⟩ (0 : Fin 2) * 1024 + 1024
    rw [e0]; show (i 0).val / 1024 * 1024 ≤ (i 0).val ∧ (i 0).val < (i 0).val / 1024 * 1024 + 1024; omega
  | ⟨1, _⟩ =>
    show win2_4.index ⟨(i 0).val / 1024, hq⟩ (1 : Fin 2) * 64 ≤ (i 1).val
      ∧ (i 1).val < win2_4.index ⟨(i 0).val / 1024, hq⟩ (1 : Fin 2) * 64 + 64
    rw [e1]; omega

/-- So after the region the embedding array holds the topic embedding of the whole tables. -/
theorem final (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d)) :
    ((dat2 V c).arrAt 4 cfg2.N : Vec Ideal S8192x64 .f32) = Spec.topic (V c main_v3) (V c main_arg3) w b :=
  (dat2 V c).arrAt_eq_of_cover 4 (Spec.topic (V c main_v3) (V c main_arg3) w b)
    (fun t _ => flushed_eq V c w b hw hb t) cover

end Cert.KernelValue.R2

end
-- ==== Proof.KernelValue3.lean ====
import proofs.«401426_j8332236554543_1_alg».proof.Proof.KI.Pair
import proofs.«401426_j8332236554543_1_alg».proof.Proof.TopicRow
import proofs.«401426_j8332236554543_1_alg».proof.Proof.PairAlg
import proofs.«401426_j8332236554543_1_alg».proof.Proof.Spec
import Idealize.ShloMosaic.Lib.Pipeline.Value
import Idealize.ShloMosaic.Lib.ValueIdx

set_option maxRecDepth 16384

noncomputable section

namespace Cert.KernelValue.R3

open Idealize.ShloMosaic Idealize.ShloMosaic.TcCoe Idealize.ShloMosaic.ValueIdx
open Idealize.ShloMosaic.Pipeline (Dat)
open Cert.KernelIdeal Cert.KernelIdeal.Gen Cert.KernelIdeal.Hand Cert.TopicRow

/-- The printed index maps over the 64 grid points t = 8·bi + bj: the first window reads row block bi = t / 8, the
    second row block bj = t % 8, the accumulator stays at its one block. -/
theorem idx_facts : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = 0 ∧ win3_2.index t (1 : Fin 2) = 0 :=
  (by decide +kernel : ∀ t : Fin grid3.N, _)

/-- A grid point of the region is one of 64. -/
theorem lt64 (t : Fin cfg3.N) : t.val < 64 := lt_of_lt_of_eq t.isLt (show cfg3.N = 64 from N_3)
theorem of_lt64 {t : ℕ} (h : t < 64) : t < cfg3.N := lt_of_lt_of_eq h (show cfg3.N = 64 from N_3).symm
theorem div8 (t : Fin cfg3.N) : t.val / 8 < 8 := by have := lt64 t; omega
theorem mod8 (t : Fin cfg3.N) : t.val % 8 < 8 := by omega

variable [Cert.ReferenceIdeal.Facts]

variable (V : (c : Dev nD) → (b : Ref sig .tc) → Buf (Elt Ideal) ((c : Thread nD τ).loc b))

/-- The first window's block at point t is rows 1024·(t / 8) … of the embedding array. -/
theorem rowsI_read (c : Dev nD) (t : Fin cfg3.N) (r : Fin 1024) (k : Fin 64) :
    (blk3 V c 0 t : Vec Ideal S1024x64 .f32) (ix2 r k)
      = (V c main_v4_0 : Vec Ideal S8192x64 .f32) (ix2 (rowIx ⟨t.val / 8, div8 t⟩ r) k) := by
  obtain ⟨e0, e1, -⟩ := idx_facts t
  unfold blk3
  rw [View.read_apply]
  show V c main_v4_0 (((cfg3.win 0).blk t).view.emb (ix2 r k)) = V c main_v4_0 _
  congr 1
  funext a
  apply Fin.ext
  match a with
  | ⟨0, _⟩ => show win3_0.index t (0 : Fin 2) * 1024 + 1 * r.val = 1024 * (t.val / 8) + r.val; rw [e0]; omega
  | ⟨1, _⟩ => show win3_0.index t (1 : Fin 2) * 64 + 1 * k.val = k.val; rw [e1]; omega

/-- The second window's block at point t is rows 1024·(t % 8) … of the same array. -/
theorem rowsJ_read (c : Dev nD) (t : Fin cfg3.N) (r : Fin 1024) (k : Fin 64) :
    (blk3 V c 1 t : Vec Ideal S1024x64 .f32) (ix2 r k)
      = (V c main_v4_0 : Vec Ideal S8192x64 .f32) (ix2 (rowIx ⟨t.val % 8, mod8 t⟩ r) k) := by
  obtain ⟨-, -, e0, e1, -⟩ := idx_facts t
  unfold blk3
  rw [View.read_apply]
  show V c main_v4_0 (((cfg3.win 1).blk t).view.emb (ix2 r k)) = V c main_v4_0 _
  congr 1
  funext a
  apply Fin.ext
  match a with
  | ⟨0, _⟩ => show win3_1.index t (0 : Fin 2) * 1024 + 1 * r.val = 1024 * (t.val % 8) + r.val; rw [e0]; omega
  | ⟨1, _⟩ => show win3_1.index t (1 : Fin 2) * 64 + 1 * k.val = k.val; rw [e1]; omega

/-- The accumulator after a point depends on the point's number only. -/
theorem acc_congr (c : Dev nD) (n m : ℕ) (hn : n < cfg3.N) (hm : m < cfg3.N) (e : n = m) :
    acc3 V c n hn = acc3 V c m hm := by subst e; rfl

/-- The one write-back, at the last point, writes the accumulator as the last point left it: the accumulator's one
    block is its whole array. -/
theorem flushed_eq (c : Dev nD) (t : Fin cfg3.N) (hf : (cfg3.win 2).flush t = true) :
    (dat3 V c).flushed 2 t = ((cfg3.win 2).blk t).view.read (Elt Ideal) (acc3 V c 63 (of_lt64 (by decide))) := by
  have ht : t.val = 63 := by have h1 := (flush3_2 t).mp hf; have h2 := lt64 t; omega
  obtain ⟨-, -, -, -, e0, e1⟩ := idx_facts t
  show (cfg3.win 2).cut (grid3.coords t) ((dat3 V c).after 2 t) = _
  rw [after3_2, acc_congr V c t.val 63 t.isLt (of_lt64 (by decide)) ht]
  generalize acc3 V c 63 (of_lt64 (by decide)) = G
  funext j
  obtain ⟨z, z', rfl⟩ : ∃ (z : Fin 1) (z' : Fin 1), j = ix2 z z' := ⟨j 0, j 1, eq_ix2 (n0 := 1) (n1 := 1) j⟩
  rw [View.read_apply]
  show G _ = G (((cfg3.win 2).blk t).view.emb (ix2 z z'))
  congr 1
  funext a
  apply Fin.ext
  match a with
  | ⟨0, _⟩ => show z.val = win3_2.index t (0 : Fin 2) * 1 + 1 * z.val; rw [e0]; omega
  | ⟨1, _⟩ => show z'.val = win3_2.index t (1 : Fin 2) * 1 + 1 * z'.val; rw [e1]; omega

/-- An index of the accumulator's array is in point t's block iff each coordinate is in the block's range. -/
theorem mem_blk (t : Fin cfg3.N) (i : S1x1.Idx) :
    i ∈ ((cfg3.win 2).blk t).view.set ↔ ∀ a : Fin 2, win3_2.index t a * S1x1.size a ≤ (i a).val
      ∧ (i a).val < win3_2.index t a * S1x1.size a + S1x1.size a := by
  show i ∈ ((View.whole main_v7).slice (win3_2.rect t)).set ↔ _
  rw [View.set_slice_whole, Rect.mem_set_unit]
  exact Iff.rfl

/-- The last point's block is the whole 1x1 array, and the last point writes back. -/
theorem cover (i : S1x1.Idx) : ∃ t : Fin cfg3.N, (cfg3.win 2).flush t = true ∧ i ∈ ((cfg3.win 2).blk t).view.set := by
  have h0 : (i 0).val < 1 := (i 0).isLt
  have h1 : (i 1).val < 1 := (i 1).isLt
  obtain ⟨-, -, -, -, e0, e1⟩ := idx_facts ⟨63, of_lt64 (by decide)⟩
  refine ⟨⟨63, of_lt64 (by decide)⟩, (flush3_2 _).mpr rfl, ?_⟩
  rw [mem_blk]
  intro a
  match a with
  | ⟨0, _⟩ =>
    show win3_2.index ⟨63, of_lt64 (by decide)⟩ (0 : Fin 2) * 1 ≤ (i 0).val
      ∧ (i 0).val < win3_2.index ⟨63, of_lt64 (by decide)⟩ (0 : Fin 2) * 1 + 1
    rw [e0]; omega
  | ⟨1, _⟩ =>
    show win3_2.index ⟨63, of_lt64 (by decide)⟩ (1 : Fin 2) * 1 ≤ (i 1).val
      ∧ (i 1).val < win3_2.index ⟨63, of_lt64 (by decide)⟩ (1 : Fin 2) * 1 + 1
    rw [e1]; omega

/-- After the region the 1x1 array holds the accumulator as the last point left it. -/
theorem arr_eq_acc (c : Dev nD) :
    ((dat3 V c).arrAt 2 cfg3.N : Vec Ideal S1x1 .f32) = acc3 V c 63 (of_lt64 (by decide)) :=
  (dat3 V c).arrAt_eq_of_cover 2 (acc3 V c 63 (of_lt64 (by decide))) (fun t hf => flushed_eq V c t hf) cover

/-- So it holds the Student-t kernel summed over all pairs of rows of the array the region read: the accumulator's
    chain over the 64 points, each adding the total of one pair of row blocks. -/
theorem final (c : Dev nD) :
    ((dat3 V c).arrAt 2 cfg3.N : Vec Ideal S1x1 .f32) (ix2 (0 : Fin 1) (0 : Fin 1)) = Spec.pairTotal (V c main_v4_0) ix0 := by
  rw [arr_eq_acc]
  exact Cert.PairAlg.acc_chain (V c main_v4_0)
    (fun t h => blk3 V c 0 ⟨t, of_lt64 h⟩) (fun t h => blk3 V c 1 ⟨t, of_lt64 h⟩)
    (fun t h r k => rowsI_read V c ⟨t, of_lt64 h⟩ r k) (fun t h r k => rowsJ_read V c ⟨t, of_lt64 h⟩ r k)
    (fun t h => acc3 V c t (of_lt64 h))
    (acc3_zero V c _) (fun t h => acc3_succ V c t _)

end Cert.KernelValue.R3

end
-- ==== Proof.KernelValue.lean ====
import proofs.«401426_j8332236554543_1_alg».proof.Proof.KI.Topic0
import proofs.«401426_j8332236554543_1_alg».proof.Proof.KI.Topic1
import proofs.«401426_j8332236554543_1_alg».proof.Proof.KI.Topic2
import proofs.«401426_j8332236554543_1_alg».proof.Proof.KI.Pair
import proofs.«401426_j8332236554543_1_alg».proof.Proof.TopicRow
import proofs.«401426_j8332236554543_1_alg».proof.Proof.PairAlg
import proofs.«401426_j8332236554543_1_alg».proof.Proof.Spec
import proofs.«401426_j8332236554543_1_alg».proof.Proof.KernelValue0
import proofs.«401426_j8332236554543_1_alg».proof.Proof.KernelValue1
import proofs.«401426_j8332236554543_1_alg».proof.Proof.KernelValue2
import proofs.«401426_j8332236554543_1_alg».proof.Proof.KernelValue3
import Idealize.ShloMosaic.Lib.Pipeline.Value
import Idealize.ShloMosaic.Lib.ValueIdx

set_option maxRecDepth 16384

noncomputable section

namespace Cert.KernelValue

open Idealize.ShloMosaic Idealize.ShloMosaic.TcCoe Idealize.ShloMosaic.ValueIdx
open Idealize.ShloMosaic.Pipeline (Dat)
open Cert.KernelIdeal Cert.KernelIdeal.Gen Cert.KernelIdeal.Hand

variable [Cert.KernelIdeal.Facts] [Cert.ReferenceIdeal.Facts]

variable (V : (c : Dev nD) → (b : Ref sig .tc) → Buf (Elt Ideal) ((c : Thread nD τ).loc b))

/-- After region 0 its first output array holds the topic embedding of the whole tables it was handed. -/
theorem topic_arr0 (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d)) :
    ((dat0 V c).arrAt 4 cfg0.N : Vec Ideal S8192x64 .f32) = Spec.topic (V c main_arg4) (V c main_arg1) w b :=
  R0.final V c w b hw hb

/-- After region 1 its first output array holds the topic embedding of the whole tables it was handed. -/
theorem topic_arr1 (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d)) :
    ((dat1 V c).arrAt 4 cfg1.N : Vec Ideal S8192x64 .f32) = Spec.topic (V c main_v2) (V c main_arg2) w b :=
  R1.final V c w b hw hb

/-- After region 2 its first output array holds the topic embedding of the whole tables it was handed. -/
theorem topic_arr2 (c : Dev nD) (w : Spec.A Cert.ReferenceIdeal.S64x128) (b : Spec.A Cert.ReferenceIdeal.S64)
    (hw : ∀ (k : Fin 128) (d : Fin 64), (V c main_v0 : Vec Ideal S128x64 .f32) (ix2 k d) = w (ix2 d k))
    (hb : ∀ d : Fin 64, (V c main_v1 : Vec Ideal S1x64 .f32) (ix2 (0 : Fin 1) d) = b (ix1 d)) :
    ((dat2 V c).arrAt 4 cfg2.N : Vec Ideal S8192x64 .f32) = Spec.topic (V c main_v3) (V c main_arg3) w b :=
  R2.final V c w b hw hb

/-- After region 3 its 1x1 output holds the Student-t kernel summed over all pairs of rows of the array it read. -/
theorem pair_arr (c : Dev nD) :
    ((dat3 V c).arrAt 2 cfg3.N : Vec Ideal S1x1 .f32) (ix2 (0 : Fin 1) (0 : Fin 1)) = Spec.pairTotal (V c main_v4_0) ix0 :=
  R3.final V c

end Cert.KernelValue

end
-- ==== Proof.TakeEq.lean ====
import proofs.«401426_j8332236554543_1_alg».proof.Proof.Spec
import proofs.«401426_j8332236554543_1_alg».proof.Proof.Gen.KernelIdeal
import proofs.«401426_j8332236554543_1_alg».proof.Proof.Gen.Pre_finite_inputs
import Idealize.ShloMosaic.Lib.StableHlo.Predicate
import Idealize.ShloMosaic.Lib.ReduceAll
import Idealize.ShloMosaic.Lib.ValueIdx

noncomputable section

namespace Cert.TakeEq

open Idealize.ShloMosaic Idealize.ShloMosaic.ValueIdx

variable [Cert.KernelIdeal.Facts] [Cert.ReferenceIdeal.Facts] [Cert.Pre_finite_inputs.Facts]

/-- Every entry of an index vector names a row of a table of 8192 rows. -/
def InRange (idx : IVec Cert.KernelIdeal.S8192 32) : Prop := ∀ k : Cert.KernelIdeal.S8192.Idx, 0 ≤ (idx k).toInt ∧ (idx k).toInt < 8192

/-! ## Words -/

theorem toInt_zero : (0#32 : BitVec 32).toInt = 0 := by decide
theorem toInt_8192 : (8192#32 : BitVec 32).toInt = 8192 := by decide
theorem toInt_8191 : (8191#32 : BitVec 32).toInt = 8191 := by decide

/-- A word in [0, 8192), read signed, is not negative: the test "below 0" fails. -/
theorem not_neg_of_range (v : BitVec 32) (h : 0 ≤ v.toInt ∧ v.toInt < 8192) : ¬ IntOp.cmpi .slt v 0#32 = 1#1 := by
  rw [IntOp.cmpi_slt, toInt_zero]; omega

/-- A word in [0, 8192), read signed, passes both bounds tests 0 ≤ v and v ≤ 8191. -/
theorem bounds_of_range (v : BitVec 32) (h : 0 ≤ v.toInt ∧ v.toInt < 8192) :
    IntOp.andi (IntOp.cmpi .sge v 0#32) (IntOp.cmpi .sle v 8191#32) = 1#1 := by
  refine IntOp.andi_eq_one.2 ⟨IntOp.cmpi_sge.2 ?_, IntOp.cmpi_sle.2 ?_⟩
  · rw [toInt_zero]; exact h.1
  · rw [toInt_8191]; omega

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hf => by
    rw [List.foldl_cons]
    exact foldl_andi_one f l _ (IntOp.andi_eq_one.2 ⟨hi, hf a (List.mem_cons_self ..)⟩) (fun n hn => hf n (List.mem_cons_of_mem _ hn))

/-- A reduction by `and`, from 1, of an array of ones is 1 at every result index. -/
theorem reduce_andi_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl]
  exact foldl_andi_one x _ _ (hinit _) (fun n _ => hx n)

/-- A selection whose condition is 1 everywhere is its first branch. -/
theorem select_of_one {α : Type} {s : Shape} (c : IVec s 1) (a b : s.Idx → α) (hc : ∀ i, c i = 1#1) : select c a b = a := by
  funext i; exact if_pos (hc i)

/-! ## The precondition read back -/

section Pre
open Cert.Pre_finite_inputs Cert.Pre_finite_inputs.Facts

/-- One index conjunct of the precondition: "all entries pass 0 ≤ a and a < 8192" says every entry is in range. -/
theorem inRange_of_all (a : IVec Cert.Pre_finite_inputs.S8192 32)
    (h : Host.reduce IntOp.andi
      (andi (cmpi .sge a (broadcastInDim S8192 ![] bcast_S_S8192 (constantI S_ 32 0#32)))
        (cmpi .slt a (broadcastInDim S8192 ![] bcast_S_S8192 (constantI S_ 32 8192#32))))
      (constantI S_ 1 1#1) reducesTo_S8192_S_d0 h_S_ ix0 = 1#1) : InRange a := by
  haveI : Subsingleton S_.Idx := ⟨fun a b => funext fun d => d.elim0⟩
  intro k
  have hk := Host.reduce_andi_all _ _ _ _ _ h k
  obtain ⟨hge, hlt⟩ := IntOp.andi_eq_one.1 hk
  have h1 := IntOp.cmpi_sge.1 hge
  have h2 := IntOp.cmpi_slt.1 hlt
  change (0#32 : BitVec 32).toInt ≤ (a k).toInt at h1
  change (a k).toInt < (8192#32 : BitVec 32).toInt at h2
  rw [toInt_zero] at h1
  rw [toInt_8192] at h2
  exact ⟨h1, h2⟩

end Pre

/-- The precondition's last two conjuncts say so of both index inputs. -/
theorem inRange_of_pre (a0 : FVec Ideal Cert.Pre_finite_inputs.S8192 .f32) (a1 a2 a3 a4 : FVec Ideal Cert.Pre_finite_inputs.S8192x128 .f32)
    (a5 : FVec Ideal Cert.Pre_finite_inputs.S64x128 .f32) (a6 : FVec Ideal Cert.Pre_finite_inputs.S64 .f32) (a7 a8 : IVec Cert.Pre_finite_inputs.S8192 32)
    (h : Cert.Pre_finite_inputs.fn (F := Ideal) a0 a1 a2 a3 a4 a5 a6 a7 a8 = fun _ => 1#1) : InRange a7 ∧ InRange a8 := by
  have h0 := congrFun h ValueIdx.ix0
  dsimp only [Cert.Pre_finite_inputs.fn, Cert.Pre_finite_inputs.fn_part1, Cert.Pre_finite_inputs.fn_part2] at h0
  obtain ⟨h1, h8⟩ := IntOp.andi_eq_one.1 h0
  obtain ⟨-, h7⟩ := IntOp.andi_eq_one.1 h1
  exact ⟨inRange_of_all a7 h7, inRange_of_all a8 h8⟩

open Cert.KernelIdeal Cert.KernelIdeal.Facts₀ Cert.KernelIdeal.Facts in
/-- The kernel program's row lookup: the index counted from the end when negative, the rows gathered, and a row
    whose index falls outside the table replaced by the not-a-number pattern. -/
def takeK (tbl : FVec Ideal Cert.KernelIdeal.S8192x128 .f32) (idx : IVec Cert.KernelIdeal.S8192 32) : FVec Ideal Cert.KernelIdeal.S8192x128 .f32 :=
  let wrapped : IVec S8192 32 := select (cmpi .slt idx (broadcastInDim S8192 ![] bcast_S_S8192 (constantI S_ 32 0#32)))
    (addi idx (broadcastInDim S8192 ![] bcast_S_S8192 (constantI S_ 32 8192#32))) idx
  let col : IVec S8192x1 32 := broadcastInDim S8192x1 ![0] bcast_S8192_S8192x1_0 wrapped
  let ge : IVec S8192x1 1 := cmpi .sge col (broadcastInDim S8192x1 ![] bcast_S_S8192x1 (constantI S_ 32 0#32))
  let le : IVec S8192x1 1 := cmpi .sle col (broadcastInDim S8192x1 ![0, 1] bcast_S1x1_S8192x1_0_1 (broadcastInDim S1x1 ![1] bcast_S1_S1x1_1 (constantI S1 32 8191#32)))
  let ok : IVec S8192 1 := Host.reduce IntOp.andi (andi ge le) (constantI S_ 1 1#1) reducesTo_S8192x1_S8192_d1 h_S_
  select (broadcastInDim S8192x128 ![0] bcast_S8192_S8192x128_0 ok)
    (Host.gather gather_S8192x128_S8192x1_S8192x128_1_0_n_n_0_1_1128 tbl col)
    (broadcastInDim S8192x128 ![] bcast_S_S8192x128 (constant (F := Ideal) S_ .f32 0x7FC00000#32))

section Take
open Cert.KernelIdeal

/-- With every index in range none is negative: counting from the end changes nothing. -/
theorem wrap_eq (idx : IVec S8192 32) (h : InRange idx) (p0 p1 : S_.BroadcastsInDim S8192 (![] : Fin 0 → Fin S8192.rank)) :
    select (cmpi .slt idx (broadcastInDim S8192 ![] p0 (constantI S_ 32 0#32)))
      (addi idx (broadcastInDim S8192 ![] p1 (constantI S_ 32 8192#32))) idx = idx := by
  funext k
  exact if_neg (not_neg_of_range (idx k) (h k))

/-- With every index in range the in-bounds mask is 1 at every row. -/
theorem mask_one (w : IVec S8192 32) (h : InRange w) (pc : S8192.BroadcastsInDim S8192x1 (![0] : Fin 1 → Fin S8192x1.rank))
    (p0 : S_.BroadcastsInDim S8192x1 (![] : Fin 0 → Fin S8192x1.rank)) (p1 : S1x1.BroadcastsInDim S8192x1 (![0, 1] : Fin 2 → Fin S8192x1.rank))
    (p2 : S1.BroadcastsInDim S1x1 (![1] : Fin 1 → Fin S1x1.rank)) (i : S8192x1.Idx) :
    andi (cmpi .sge (broadcastInDim S8192x1 ![0] pc w) (broadcastInDim S8192x1 ![] p0 (constantI S_ 32 0#32)))
      (cmpi .sle (broadcastInDim S8192x1 ![0] pc w)
        (broadcastInDim S8192x1 ![0, 1] p1 (broadcastInDim S1x1 ![1] p2 (constantI S1 32 8191#32)))) i = 1#1 :=
  bounds_of_range _ (h _)

end Take

/-- With every index in range no row is replaced, and the lookup is the specification's. -/
theorem takeK_eq (tbl : FVec Ideal Cert.KernelIdeal.S8192x128 .f32) (idx : IVec Cert.KernelIdeal.S8192 32) (h : InRange idx) :
    takeK tbl idx = Spec.takeRows tbl idx := by
  unfold takeK Spec.takeRows Spec.wrapIdx
  dsimp only
  rw [wrap_eq idx h]
  refine (select_of_one _ _ _ (fun i => ?_)).trans rfl
  exact reduce_andi_one _ _ _ _ (fun _ => rfl) (fun j => mask_one idx h _ _ _ _ j) _

end Cert.TakeEq

end
-- ==== Proof.HostValue.lean ====
import proofs.«401426_j8332236554543_1_alg».proof.Proof.Gen.KernelIdeal.Regions
import proofs.«401426_j8332236554543_1_alg».proof.Proof.Spec
import proofs.«401426_j8332236554543_1_alg».proof.Proof.TakeEq
import Idealize.ShloMosaic.Lib.StableHlo.Run
import Idealize.ShloMosaic.Lib.ValueLayout
import Idealize.ShloMosaic.Lib.ValueIdx

set_option maxRecDepth 16384

noncomputable section

namespace Cert.HostValue

open Idealize.ShloMosaic Idealize.ShloMosaic.TcCoe Idealize.SL.Sem Idealize.ShloMosaic.StableHlo
open Cert.KernelIdeal Cert.KernelIdeal.Gen

variable [Cert.KernelIdeal.Facts] [Cert.ReferenceIdeal.Facts] [Cert.Pre_finite_inputs.Facts]

variable (m : (ℓ : Loc nD τ sig) → Buf (Elt Ideal) ℓ)

open Cert.KernelIdeal.Facts₀ Cert.KernelIdeal.Facts in
/-- The first host stretch leaves the weight matrix transposed in the buffer the kernels' weight windows read. -/
theorem V3_v0 (c : Dev nD) :
    (V3 m c main_v0 : FVec Ideal S128x64 .f32) = transpose S128x64 [1, 0] (m ((c.tc : Thread nD τ).loc main_arg5)) Cert.KernelIdeal.Facts₀.transposes_S64x128_S128x64_1_0 := by
  rw [V3_of m c main_v0 (by decide), V2_of m c main_v0 (by decide)]
  show StableHlo.after hostOps0 _ (Proc.devRef .tc main_v0) = _
  after_results

section Reads
open Idealize.ShloMosaic.ValueIdx Cert.KernelIdeal.Facts₀ Cert.KernelIdeal.Facts

/-- The transposed weight matrix read at (k, d) is the weight input at (d, k). -/
theorem V3_v0_apply (c : Dev nD) (k : Fin 128) (d : Fin 64) :
    (V3 m c main_v0 : FVec Ideal S128x64 .f32) (ix2 k d) = (m ((c.tc : Thread nD τ).loc main_arg5) : FVec Ideal S64x128 .f32) (ix2 d k) := by
  rw [V3_v0]
  exact transpose_ix2_apply _ _ k d

/-- The first host stretch leaves the bias vector, as one row, in the buffer the kernels' bias windows read. -/
theorem V3_v1 (c : Dev nD) :
    (V3 m c main_v1 : FVec Ideal S1x64 .f32) = shapeCast S1x64 (m ((c.tc : Thread nD τ).loc main_arg6) : FVec Ideal S64 .f32) Cert.KernelIdeal.Facts₀.shapeCasts_S64_S1x64 := by
  rw [V3_of m c main_v1 (by decide), V2_of m c main_v1 (by decide)]
  show StableHlo.after hostOps0 _ (Proc.devRef .tc main_v1) = _
  after_results
  rfl

/-- The bias row read at (0, d) is the bias input at d. -/
theorem V3_v1_apply (c : Dev nD) (d : Fin 64) :
    (V3 m c main_v1 : FVec Ideal S1x64 .f32) (ix2 (0 : Fin 1) d) = (m ((c.tc : Thread nD τ).loc main_arg6) : FVec Ideal S64 .f32) (ix1 d) := by
  rw [V3_v1]
  exact shapeCast_a_1a_apply _ _ 0 d

set_option maxHeartbeats 1000000 in
/-- The second host stretch leaves the rows of the logits table looked up by the first index input. -/
theorem V3_v2 (c : Dev nD) :
    (V3 m c main_v2 : FVec Ideal S8192x128 .f32) = Cert.TakeEq.takeK (m ((c.tc : Thread nD τ).loc main_arg4)) (m ((c.tc : Thread nD τ).loc main_arg7)) := by
  rw [V3_of m c main_v2 (by decide)]
  dsimp only [V2]
  after_results_simp
  rfl

set_option maxHeartbeats 1000000 in
/-- The third host stretch leaves the rows of the logits table looked up by the second index input. -/
theorem V3_v3 (c : Dev nD) :
    (V3 m c main_v3 : FVec Ideal S8192x128 .f32) = Cert.TakeEq.takeK (m ((c.tc : Thread nD τ).loc main_arg4)) (m ((c.tc : Thread nD τ).loc main_arg8)) := by
  dsimp only [V3]
  after_results_simp
  rfl

end Reads

section Tail
open Idealize.ShloMosaic.ValueIdx Cert.KernelIdeal.Facts₀ Cert.KernelIdeal.Facts

/-- A 1x1 array recast as a scalar is its one entry. -/
theorem shapeCast_1x1_scalar {α : Type} (X : (⟨2, ![1, 1]⟩ : Shape).Idx → α) (h : (⟨2, ![1, 1]⟩ : Shape).ShapeCasts ⟨0, ![]⟩) :
    shapeCast ⟨0, ![]⟩ X h = fun _ => X (ix2 (0 : Fin 1) (0 : Fin 1)) := by
  funext j
  refine shapeCast_apply X h j _ ?_
  have h1 : ((⟨0, ![]⟩ : Shape).rowMajor j).val < 1 := lt_of_lt_of_eq ((⟨0, ![]⟩ : Shape).rowMajor j).isLt (by decide)
  rw [Shape.rowMajor_val_two]
  show (0 : ℕ) * 1 + 0 = _
  omega

set_option maxHeartbeats 2000000 in
/-- The last host stretch computes the per-observation loss from the two looked-up embeddings and the pair total. -/
theorem V8_v22 (c : Dev nD) (outs : Outs (F := Ideal)) :
    (V8 m outs c main_v22 : FVec Ideal S8192 .f32) = Cert.Spec.loss (V7 m outs c main_arg0) (V7 m outs c main_v5_0) (V7 m outs c main_v6_0)
      (Cert.Spec.part (fun _ => (V7 m outs c main_v7 : FVec Ideal S1x1 .f32) (ix2 (0 : Fin 1) (0 : Fin 1)))) := by
  dsimp only [V8]
  after_results_simp
  have e : (fun i => shapeCast main_v8.ty.shape (V7 m outs c (Proc.devRef .tc main_v7)) Gen.shapeCasts_S1x1_S_ i)
      = fun _ => (V7 m outs c main_v7 : FVec Ideal S1x1 .f32) (ix2 (0 : Fin 1) (0 : Fin 1)) := shapeCast_1x1_scalar _ _
  rw [e]
  rfl

end Tail

end Cert.HostValue

end
-- ==== Proof.ResultEq.lean ====
import proofs.«401426_j8332236554543_1_alg».proof.Defs
import proofs.«401426_j8332236554543_1_alg».proof.Proof.KI.Segs.Chain
import proofs.«401426_j8332236554543_1_alg».proof.Proof.KernelValue
import proofs.«401426_j8332236554543_1_alg».proof.Proof.HostValue
import proofs.«401426_j8332236554543_1_alg».proof.Proof.TakeEq
import proofs.«401426_j8332236554543_1_alg».proof.Proof.Spec

set_option maxRecDepth 16384

noncomputable section

namespace Cert.ResultEq

open Idealize.ShloMosaic Idealize.ShloMosaic.TcCoe Idealize.SL.Sem Idealize.ShloMosaic.ValueIdx
open Cert.KernelIdeal Cert.KernelIdeal.Gen Cert.KernelIdeal.Hand

variable [Cert.KernelIdeal.Facts] [Cert.ReferenceIdeal.Facts] [Cert.Pre_finite_inputs.Facts]

/-- Under the precondition (both index inputs name rows of the table), what the idealized kernel program leaves in its
    result buffer is the specification applied to the nine inputs: the three topic regions compute the embedding of the
    full table and of the two looked-up tables, the pairwise region its pair total, the host tail the loss. -/
theorem result_eq (m : (ℓ : Loc nD τ sig) → Buf (Elt Ideal) ℓ) (hpre : Cert.Pre_KernelIdeal m) (c : Dev nD) :
    (V8 m (outs m) c main_v22 : FVec Ideal S8192 .f32)
      = Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  -- both index inputs name rows of the table
  obtain ⟨hi, hj⟩ := Cert.TakeEq.inRange_of_pre _ _ _ _ _ _ _ _ _ (hpre c)
  -- the weight matrix (transposed) and the bias row, as each topic region finds them: the first host stretch wrote
  -- them and no region changes them
  have hw3 : ∀ (k : Fin 128) (d : Fin 64), (B3 m c main_v0 : Vec Ideal S128x64 .f32) (ix2 k d)
      = (m ((c.tc : Thread nD τ).loc main_arg5) : FVec Ideal S64x128 .f32) (ix2 d k) :=
    fun k d => Cert.HostValue.V3_v0_apply m c k d
  have hb3 : ∀ d : Fin 64, (B3 m c main_v1 : Vec Ideal S1x64 .f32) (ix2 (0 : Fin 1) d)
      = (m ((c.tc : Thread nD τ).loc main_arg6) : FVec Ideal S64 .f32) (ix1 d) :=
    fun d => Cert.HostValue.V3_v1_apply m c d
  have hw4 : ∀ (k : Fin 128) (d : Fin 64), (B4 m c main_v0 : Vec Ideal S128x64 .f32) (ix2 k d)
      = (m ((c.tc : Thread nD τ).loc main_arg5) : FVec Ideal S64x128 .f32) (ix2 d k) :=
    fun k d => (congrFun (B4_keep m c main_v0 (by decide)) (ix2 k d)).trans (hw3 k d)
  have hb4 : ∀ d : Fin 64, (B4 m c main_v1 : Vec Ideal S1x64 .f32) (ix2 (0 : Fin 1) d)
      = (m ((c.tc : Thread nD τ).loc main_arg6) : FVec Ideal S64 .f32) (ix1 d) :=
    fun d => (congrFun (B4_keep m c main_v1 (by decide)) (ix2 (0 : Fin 1) d)).trans (hb3 d)
  have hw5 : ∀ (k : Fin 128) (d : Fin 64), (B5 m c main_v0 : Vec Ideal S128x64 .f32) (ix2 k d)
      = (m ((c.tc : Thread nD τ).loc main_arg5) : FVec Ideal S64x128 .f32) (ix2 d k) :=
    fun k d => (congrFun (B5_keep m c main_v0 (by decide)) (ix2 k d)).trans (hw3 k d)
  have hb5 : ∀ d : Fin 64, (B5 m c main_v1 : Vec Ideal S1x64 .f32) (ix2 (0 : Fin 1) d)
      = (m ((c.tc : Thread nD τ).loc main_arg6) : FVec Ideal S64 .f32) (ix1 d) :=
    fun d => (congrFun (B5_keep m c main_v1 (by decide)) (ix2 (0 : Fin 1) d)).trans (hb3 d)
  -- region 0 embeds the whole logits table with the first noise table
  have e0 : ((dat0 (B3 m) c).arrAt 4 cfg0.N : Vec Ideal S8192x64 .f32)
      = Spec.topic (m ((c.tc : Thread nD τ).loc main_arg4)) (m ((c.tc : Thread nD τ).loc main_arg1))
          (m ((c.tc : Thread nD τ).loc main_arg5)) (m ((c.tc : Thread nD τ).loc main_arg6)) := by
    have ha : B3 m c main_arg4 = m ((c.tc : Thread nD τ).loc main_arg4) := V3_arg m c main_arg4 (by decide)
    have hn : B3 m c main_arg1 = m ((c.tc : Thread nD τ).loc main_arg1) := V3_arg m c main_arg1 (by decide)
    rw [Cert.KernelValue.topic_arr0 (B3 m) c _ _ hw3 hb3, ha, hn]
  -- region 1 embeds the rows the first index input names, with the second noise table
  have e1 : ((dat1 (B4 m) c).arrAt 4 cfg1.N : Vec Ideal S8192x64 .f32)
      = Spec.topic (Spec.takeRows (m ((c.tc : Thread nD τ).loc main_arg4)) (m ((c.tc : Thread nD τ).loc main_arg7)))
          (m ((c.tc : Thread nD τ).loc main_arg2)) (m ((c.tc : Thread nD τ).loc main_arg5)) (m ((c.tc : Thread nD τ).loc main_arg6)) := by
    have ha : B4 m c main_v2 = Spec.takeRows (m ((c.tc : Thread nD τ).loc main_arg4)) (m ((c.tc : Thread nD τ).loc main_arg7)) :=
      (B4_keep m c main_v2 (by decide)).trans ((Cert.HostValue.V3_v2 m c).trans (Cert.TakeEq.takeK_eq _ _ hi))
    have hn : B4 m c main_arg2 = m ((c.tc : Thread nD τ).loc main_arg2) :=
      (B4_keep m c main_arg2 (by decide)).trans (V3_arg m c main_arg2 (by decide))
    rw [Cert.KernelValue.topic_arr1 (B4 m) c _ _ hw4 hb4, ha, hn]
  -- region 2 embeds the rows the second index input names, with the third noise table
  have e2 : ((dat2 (B5 m) c).arrAt 4 cfg2.N : Vec Ideal S8192x64 .f32)
      = Spec.topic (Spec.takeRows (m ((c.tc : Thread nD τ).loc main_arg4)) (m ((c.tc : Thread nD τ).loc main_arg8)))
          (m ((c.tc : Thread nD τ).loc main_arg3)) (m ((c.tc : Thread nD τ).loc main_arg5)) (m ((c.tc : Thread nD τ).loc main_arg6)) := by
    have ha : B5 m c main_v3 = Spec.takeRows (m ((c.tc : Thread nD τ).loc main_arg4)) (m ((c.tc : Thread nD τ).loc main_arg8)) :=
      (B5_keep m c main_v3 (by decide)).trans ((Cert.HostValue.V3_v3 m c).trans (Cert.TakeEq.takeK_eq _ _ hj))
    have hn : B5 m c main_arg3 = m ((c.tc : Thread nD τ).loc main_arg3) :=
      (B5_keep m c main_arg3 (by decide)).trans (V3_arg m c main_arg3 (by decide))
    rw [Cert.KernelValue.topic_arr2 (B5 m) c _ _ hw5 hb5, ha, hn]
  -- region 3 totals the pair kernel over region 0's embedding; a scalar array is its one entry
  have ep : (fun _ => (V7 m (outs m) c main_v7 : FVec Ideal S1x1 .f32) (ix2 (0 : Fin 1) (0 : Fin 1)))
      = Spec.pairTotal (Spec.topic (m ((c.tc : Thread nD τ).loc main_arg4)) (m ((c.tc : Thread nD τ).loc main_arg1))
          (m ((c.tc : Thread nD τ).loc main_arg5)) (m ((c.tc : Thread nD τ).loc main_arg6))) := by
    funext i
    rw [eq_ix0 i, ← e0, ← pair_in m c, ← Cert.KernelValue.pair_arr (B6 m) c]
    exact congrFun (tail_v7 m c) _
  -- the host tail computes the loss of the three embeddings and the pair total
  rw [Cert.HostValue.V8_v22 m c (outs m), tail_arg0 m c, tail_v5_0 m c, tail_v6_0 m c, e1, e2, ep]
  rfl

end Cert.ResultEq

end
-- ==== Proof.RefRun.lean ====
import proofs.«401426_j8332236554543_1_alg».proof.Proof.Gen.ReferenceIdeal.Run
import proofs.«401426_j8332236554543_1_alg».proof.Proof.Spec

set_option maxRecDepth 16384

noncomputable section

namespace Cert.RefRun

open Idealize.ShloMosaic Idealize.ShloMosaic.TcCoe Idealize.SL.Sem Cert.ReferenceIdeal

variable [Cert.ReferenceIdeal.Facts]

/-- The reference program's result, as the composition of its operations, is the specification applied to the nine
    inputs: the specification is that composition, named part by part. -/
theorem res_eq (m : (ℓ : Loc nD τ sig) → Buf (Elt Ideal) ℓ) (c : Dev nD) :
    Cert.ReferenceIdeal.Value.res_main_v119 (F := Ideal) m c
      = Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v119 Spec.G Spec.loss Spec.topic Spec.project Spec.softmaxRows Spec.gumbel Spec.epsTable
    Spec.pairTotal Spec.part Spec.takeRows Spec.wrapIdx
  rfl

end Cert.RefRun

end
-- ==== Proof.lean ====
/- The certificate of the topic-embedding loss: a Pallas program of four TensorCore kernels against its jnp reference.

   The program: host glue (the weight matrix transposed, the bias as a row, two row lookups of the logits table by the
   two index inputs), then the topic kernel three times (gumbel-softmax of logits + noise over the 128 topics of each
   row, times the transposed weights plus the bias: 8 blocks of 1024 rows each) — on the full table and on the two
   looked-up tables —, then the pairwise kernel (Σ 1 / (1 + (|x_i|² + |x_j|² - 2 x_i·x_j)) over an 8x8 grid of
   1024x1024 blocks of pairs, accumulated in a 1x1 buffer), then the loss on the host.

   Frames (both instances of the kernel program): each region's body meets the pipeline's obligation (KI/Topic0..2,
   KI/Pair; K/ for the word-level program), each region is a segment between boundary valuations (KI/Segs), the host
   side is the generated conditional frame, widened to read every buffer at the end (KI/RunCond, KI/Run).
   Value (at the extended reals): each topic region's output array is the specification's whole-table embedding
   (TopicRow: softmax and the matrix product entry by entry; KernelValue: blocks to arrays), the accumulator ends at the
   sum over all pairs (PairAlg: a sum over 8192² pairs regrouped into 64 blocks), the row lookups agree once the
   indices name rows of the table (TakeEq: the precondition's evident-domain conjunct), the host tail is the
   specification's loss (HostValue), and the reference's run is the specification by unfolding (RefRun). -/
import proofs.«401426_j8332236554543_1_alg».proof.Defs
import proofs.«401426_j8332236554543_1_alg».proof.Proof.Gen.Kernel
import proofs.«401426_j8332236554543_1_alg».proof.Proof.Gen.KernelIdeal
import proofs.«401426_j8332236554543_1_alg».proof.Proof.Gen.ReferenceIdeal
import proofs.«401426_j8332236554543_1_alg».proof.Proof.Gen.Pre_finite_inputs
import proofs.«401426_j8332236554543_1_alg».proof.Proof.K.Run
import proofs.«401426_j8332236554543_1_alg».proof.Proof.KI.Run
import proofs.«401426_j8332236554543_1_alg».proof.Proof.ResultEq
import proofs.«401426_j8332236554543_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- An unscoped TensorCore buffer of the word-level program is among those the last thread state holds. -/
theorem mem_uc_k (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
/-- The same of the idealized program. -/
theorem mem_uc_ki (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem claim : Cert.Claim := ⟨Cert.Kernel.Gen.facts, Cert.KernelIdeal.Gen.facts, Cert.ReferenceIdeal.Gen.facts, Cert.Pre_finite_inputs.Gen.facts, by
  haveI : Cert.Kernel.Facts := Cert.Kernel.Gen.facts
  haveI : Cert.KernelIdeal.Facts := Cert.KernelIdeal.Gen.facts
  haveI : Cert.ReferenceIdeal.Facts := Cert.ReferenceIdeal.Gen.facts
  haveI : Cert.Pre_finite_inputs.Facts := Cert.Pre_finite_inputs.Gen.facts
  refine ⟨?_, ?_, ?_, trivial, ?_⟩
  · -- the word-level program runs and leaves its arguments: every unscoped buffer ends at the last valuation
    intro m ρ _
    exact (θ_run Cert.Kernel.defs _ _).mono (fun r h c => ⟨
      (h c _ (mem_uc_k Cert.Kernel.main_arg0 (by decide))).trans (Cert.Kernel.Gen.V8_main_arg0 m _ c),
      (h c _ (mem_uc_k Cert.Kernel.main_arg1 (by decide))).trans (Cert.Kernel.Gen.V8_main_arg1 m _ c),
      (h c _ (mem_uc_k Cert.Kernel.main_arg2 (by decide))).trans (Cert.Kernel.Gen.V8_main_arg2 m _ c),
      (h c _ (mem_uc_k Cert.Kernel.main_arg3 (by decide))).trans (Cert.Kernel.Gen.V8_main_arg3 m _ c),
      (h c _ (mem_uc_k Cert.Kernel.main_arg4 (by decide))).trans (Cert.Kernel.Gen.V8_main_arg4 m _ c),
      (h c _ (mem_uc_k Cert.Kernel.main_arg5 (by decide))).trans (Cert.Kernel.Gen.V8_main_arg5 m _ c),
      (h c _ (mem_uc_k Cert.Kernel.main_arg6 (by decide))).trans (Cert.Kernel.Gen.V8_main_arg6 m _ c),
      (h c _ (mem_uc_k Cert.Kernel.main_arg7 (by decide))).trans (Cert.Kernel.Gen.V8_main_arg7 m _ c),
      (h c _ (mem_uc_k Cert.Kernel.main_arg8 (by decide))).trans (Cert.Kernel.Gen.V8_main_arg8 m _ c)⟩)
      (Cert.Kernel.Hand.run_all (F := Bits) m ρ)
  · -- so does the idealized program
    intro m ρ _
    exact (θ_run Cert.KernelIdeal.defs _ _).mono (fun r h c => ⟨
      (h c _ (mem_uc_ki Cert.KernelIdeal.main_arg0 (by decide))).trans (Cert.KernelIdeal.Gen.V8_main_arg0 m _ c),
      (h c _ (mem_uc_ki Cert.KernelIdeal.main_arg1 (by decide))).trans (Cert.KernelIdeal.Gen.V8_main_arg1 m _ c),
      (h c _ (mem_uc_ki Cert.KernelIdeal.main_arg2 (by decide))).trans (Cert.KernelIdeal.Gen.V8_main_arg2 m _ c),
      (h c _ (mem_uc_ki Cert.KernelIdeal.main_arg3 (by decide))).trans (Cert.KernelIdeal.Gen.V8_main_arg3 m _ c),
      (h c _ (mem_uc_ki Cert.KernelIdeal.main_arg4 (by decide))).trans (Cert.KernelIdeal.Gen.V8_main_arg4 m _ c),
      (h c _ (mem_uc_ki Cert.KernelIdeal.main_arg5 (by decide))).trans (Cert.KernelIdeal.Gen.V8_main_arg5 m _ c),
      (h c _ (mem_uc_ki Cert.KernelIdeal.main_arg6 (by decide))).trans (Cert.KernelIdeal.Gen.V8_main_arg6 m _ c),
      (h c _ (mem_uc_ki Cert.KernelIdeal.main_arg7 (by decide))).trans (Cert.KernelIdeal.Gen.V8_main_arg7 m _ c),
      (h c _ (mem_uc_ki Cert.KernelIdeal.main_arg8 (by decide))).trans (Cert.KernelIdeal.Gen.V8_main_arg8 m _ c)⟩)
      (Cert.KernelIdeal.Hand.run_all (F := Ideal) m ρ)
  · -- the reference is host operations only: its generated run, the result dropped
    intro m ρ _
    exact (θ_run Cert.ReferenceIdeal.defs _ _).mono (fun _ h c => (h c).2) (Cert.ReferenceIdeal.Value.run (F := Ideal) m ρ)
  · -- both idealized programs end at the specification of the (agreeing) inputs
    intro m ρ m' ρ' hpre hagree
    refine ⟨fun c => Cert.Spec.G (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)) (m ((c.tc : Thread _ _).loc Cert.KernelIdeal.main_arg7))
      (m ((c.tc : Thread _ _).loc Cert.KernelIdeal.main_arg8)), ?_, ?_⟩
    · exact (θ_run Cert.KernelIdeal.defs _ _).mono (fun r h c => ⟨
        (h c _ (mem_uc_ki Cert.KernelIdeal.main_v22 (by decide))).trans (Cert.ResultEq.result_eq m hpre c),
      (h c _ (mem_uc_ki Cert.KernelIdeal.main_arg0 (by decide))).trans (Cert.KernelIdeal.Gen.V8_main_arg0 m _ c),
      (h c _ (mem_uc_ki Cert.KernelIdeal.main_arg1 (by decide))).trans (Cert.KernelIdeal.Gen.V8_main_arg1 m _ c),
      (h c _ (mem_uc_ki Cert.KernelIdeal.main_arg2 (by decide))).trans (Cert.KernelIdeal.Gen.V8_main_arg2 m _ c),
      (h c _ (mem_uc_ki Cert.KernelIdeal.main_arg3 (by decide))).trans (Cert.KernelIdeal.Gen.V8_main_arg3 m _ c),
      (h c _ (mem_uc_ki Cert.KernelIdeal.main_arg4 (by decide))).trans (Cert.KernelIdeal.Gen.V8_main_arg4 m _ c),
      (h c _ (mem_uc_ki Cert.KernelIdeal.main_arg5 (by decide))).trans (Cert.KernelIdeal.Gen.V8_main_arg5 m _ c),
      (h c _ (mem_uc_ki Cert.KernelIdeal.main_arg6 (by decide))).trans (Cert.KernelIdeal.Gen.V8_main_arg6 m _ c),
      (h c _ (mem_uc_ki Cert.KernelIdeal.main_arg7 (by decide))).trans (Cert.KernelIdeal.Gen.V8_main_arg7 m _ c),
      (h c _ (mem_uc_ki Cert.KernelIdeal.main_arg8 (by decide))).trans (Cert.KernelIdeal.Gen.V8_main_arg8 m _ c)⟩)
        (Cert.KernelIdeal.Hand.run_all (F := Ideal) m ρ)
    · refine (θ_run Cert.ReferenceIdeal.defs _ _).mono (fun r h c => ⟨(h c).1.trans ?_, (h c).2⟩)
        (Cert.ReferenceIdeal.Value.run (F := Ideal) m' ρ')
      rw [Cert.RefRun.res_eq, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2]⟩

end Cert.Proof

end
